-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x21824 : Shape := ⟨3, ![16, 80, 21824]⟩
abbrev S16x4x21824 : Shape := ⟨3, ![16, 4, 21824]⟩
abbrev S16x21824 : Shape := ⟨2, ![16, 21824]⟩
abbrev S16x21824x4 : Shape := ⟨3, ![16, 21824, 4]⟩
abbrev S21824x2 : Shape := ⟨2, ![21824, 2]⟩
abbrev S_ : Shape := ⟨0, ![]⟩

class Facts : Prop where
  bcast_S_S16x80x21824 : S_.BroadcastsInDim S16x80x21824 (![] : Fin 0 → Fin S16x80x21824.rank)
  reducesTo_S16x80x21824_S_d0_1_2 : S16x80x21824.ReducesTo [0, 1, 2] S_
  h_S_ : 0 < S_.numel
  bcast_S_S16x4x21824 : S_.BroadcastsInDim S16x4x21824 (![] : Fin 0 → Fin S16x4x21824.rank)
  reducesTo_S16x4x21824_S_d0_1_2 : S16x4x21824.ReducesTo [0, 1, 2] S_
  bcast_S_S16x21824 : S_.BroadcastsInDim S16x21824 (![] : Fin 0 → Fin S16x21824.rank)
  reducesTo_S16x21824_S_d0_1 : S16x21824.ReducesTo [0, 1] S_
  bcast_S_S16x21824x4 : S_.BroadcastsInDim S16x21824x4 (![] : Fin 0 → Fin S16x21824x4.rank)
  reducesTo_S16x21824x4_S_d0_1_2 : S16x21824x4.ReducesTo [0, 1, 2] S_
  bcast_S_S21824x2 : S_.BroadcastsInDim S21824x2 (![] : Fin 0 → Fin S21824x2.rank)
  reducesTo_S21824x2_S_d0_1 : S21824x2.ReducesTo [0, 1] S_

variable [Facts]

def fn_part2 {F : FTy → Type} [FloatOps F] (main_arg6 : IVec S16x21824 32) (main_v32 : IVec S_ 1) (main_c_12 : IVec S_ 32) : IVec S_ 1 :=
  let main_v33 : IVec S16x21824 32 := broadcastInDim S16x21824 ![] bcast_S_S16x21824 main_c_12
  let main_v34 : IVec S16x21824 1 := cmpi .sge main_arg6 main_v33
  let main_c_13 : IVec S_ 1 := constantI S_ 1 1#1
  let main_v35 : IVec S_ 1 := (fun x v => Host.reduce IntOp.andi x v reducesTo_S16x21824_S_d0_1 h_S_) main_v34 main_c_13
  let main_v36 : IVec S_ 1 := andi main_v32 main_v35
  main_v36

def fn_part1 {F : FTy → Type} [FloatOps F] (main_arg0 : FVec F S16x80x21824 .f32) (main_arg4 : FVec F S16x21824 .f32) (main_arg5 : FVec F S21824x2 .f32) (main_arg6 : IVec S16x21824 32) (main_v13 : IVec S_ 1) (main_v16 : IVec S16x21824x4 1) : IVec S_ 1 :=
  let main_c_5 : IVec S_ 1 := constantI S_ 1 1#1
  let main_v17 : IVec S_ 1 := (fun x v => Host.reduce IntOp.andi x v reducesTo_S16x21824x4_S_d0_1_2 h_S_) main_v16 main_c_5
  let main_v18 : IVec S_ 1 := andi main_v13 main_v17
  let main_v19 : FVec F S16x21824 .f32 := Host.absf main_arg4
  let main_cst_6 : FVec F S_ .f32 := constant S_ .f32 0x7F800000#32
  let main_v20 : FVec F S16x21824 .f32 := broadcastInDim S16x21824 ![] bcast_S_S16x21824 main_cst_6
  let main_v21 : IVec S16x21824 1 := cmpf .olt main_v19 main_v20
  let main_c_7 : IVec S_ 1 := constantI S_ 1 1#1
  let main_v22 : IVec S_ 1 := (fun x v => Host.reduce IntOp.andi x v reducesTo_S16x21824_S_d0_1 h_S_) main_v21 main_c_7
  let main_v23 : IVec S_ 1 := andi main_v18 main_v22
  let main_v24 : FVec F S21824x2 .f32 := Host.absf main_arg5
  let main_cst_8 : FVec F S_ .f32 := constant S_ .f32 0x7F800000#32
  let main_v25 : FVec F S21824x2 .f32 := broadcastInDim S21824x2 ![] bcast_S_S21824x2 main_cst_8
  let main_v26 : IVec S21824x2 1 := cmpf .olt main_v24 main_v25
  let main_c_9 : IVec S_ 1 := constantI S_ 1 1#1
  let main_v27 : IVec S_ 1 := (fun x v => Host.reduce IntOp.andi x v reducesTo_S21824x2_S_d0_1 h_S_) main_v26 main_c_9
  let main_v28 : IVec S_ 1 := andi main_v23 main_v27
  let main_cst_10 : FVec F S_ .f32 := constant S_ .f32 0x3F800000#32
  let main_v29 : FVec F S16x80x21824 .f32 := broadcastInDim S16x80x21824 ![] bcast_S_S16x80x21824 main_cst_10
  let main_v30 : IVec S16x80x21824 1 := cmpf .olt main_arg0 main_v29
  let main_c_11 : IVec S_ 1 := constantI S_ 1 1#1
  let main_v31 : IVec S_ 1 := (fun x v => Host.reduce IntOp.andi x v reducesTo_S16x80x21824_S_d0_1_2 h_S_) main_v30 main_c_11
  let main_v32 : IVec S_ 1 := andi main_v28 main_v31
  let main_c_12 : IVec S_ 32 := constantI S_ 32 0#32
  fn_part2 (F := F) main_arg6 main_v32 main_c_12

def fn {F : FTy → Type} [FloatOps F] (main_arg0 : FVec F S16x80x21824 .f32) (main_arg1 : FVec F S16x4x21824 .f32) (main_arg2 : FVec F S16x21824 .f32) (main_arg3 : FVec F S16x21824x4 .f32) (main_arg4 : FVec F S16x21824 .f32) (main_arg5 : FVec F S21824x2 .f32) (main_arg6 : IVec S16x21824 32) (main_arg7 : IVec S16x21824 32) : IVec S_ 1 :=
  let main_v0 : FVec F S16x80x21824 .f32 := Host.absf main_arg0
  let main_cst : FVec F S_ .f32 := constant S_ .f32 0x7F800000#32
  let main_v1 : FVec F S16x80x21824 .f32 := broadcastInDim S16x80x21824 ![] bcast_S_S16x80x21824 main_cst
  let main_v2 : IVec S16x80x21824 1 := cmpf .olt main_v0 main_v1
  let main_c : IVec S_ 1 := constantI S_ 1 1#1
  let main_v3 : IVec S_ 1 := (fun x v => Host.reduce IntOp.andi x v reducesTo_S16x80x21824_S_d0_1_2 h_S_) main_v2 main_c
  let main_v4 : FVec F S16x4x21824 .f32 := Host.absf main_arg1
  let main_cst_0 : FVec F S_ .f32 := constant S_ .f32 0x7F800000#32
  let main_v5 : FVec F S16x4x21824 .f32 := broadcastInDim S16x4x21824 ![] bcast_S_S16x4x21824 main_cst_0
  let main_v6 : IVec S16x4x21824 1 := cmpf .olt main_v4 main_v5
  let main_c_1 : IVec S_ 1 := constantI S_ 1 1#1
  let main_v7 : IVec S_ 1 := (fun x v => Host.reduce IntOp.andi x v reducesTo_S16x4x21824_S_d0_1_2 h_S_) main_v6 main_c_1
  let main_v8 : IVec S_ 1 := andi main_v3 main_v7
  let main_v9 : FVec F S16x21824 .f32 := Host.absf main_arg2
  let main_cst_2 : FVec F S_ .f32 := constant S_ .f32 0x7F800000#32
  let main_v10 : FVec F S16x21824 .f32 := broadcastInDim S16x21824 ![] bcast_S_S16x21824 main_cst_2
  let main_v11 : IVec S16x21824 1 := cmpf .olt main_v9 main_v10
  let main_c_3 : IVec S_ 1 := constantI S_ 1 1#1
  let main_v12 : IVec S_ 1 := (fun x v => Host.reduce IntOp.andi x v reducesTo_S16x21824_S_d0_1 h_S_) main_v11 main_c_3
  let main_v13 : IVec S_ 1 := andi main_v8 main_v12
  let main_v14 : FVec F S16x21824x4 .f32 := Host.absf main_arg3
  let main_cst_4 : FVec F S_ .f32 := constant S_ .f32 0x7F800000#32
  let main_v15 : FVec F S16x21824x4 .f32 := broadcastInDim S16x21824x4 ![] bcast_S_S16x21824x4 main_cst_4
  let main_v16 : IVec S16x21824x4 1 := cmpf .olt main_v14 main_v15
  fn_part1 (F := F) main_arg0 main_arg4 main_arg5 main_arg6 main_v13 main_v16
-- ==== Kernel.lean ====
abbrev S16x80x21824 : Shape := ⟨3, ![16, 80, 21824]⟩
abbrev S16x4x21824 : Shape := ⟨3, ![16, 4, 21824]⟩
abbrev S16x21824 : Shape := ⟨2, ![16, 21824]⟩
abbrev S16x21824x4 : Shape := ⟨3, ![16, 21824, 4]⟩
abbrev S21824x2 : Shape := ⟨2, ![21824, 2]⟩
abbrev S16x1x21824 : Shape := ⟨3, ![16, 1, 21824]⟩
abbrev S2x21824 : Shape := ⟨2, ![2, 21824]⟩
abbrev S16x4x128 : Shape := ⟨3, ![16, 4, 128]⟩
abbrev S1x80x11008 : Shape := ⟨3, ![1, 80, 11008]⟩
abbrev S1x4x11008 : Shape := ⟨3, ![1, 4, 11008]⟩
abbrev S1x1x11008 : Shape := ⟨3, ![1, 1, 11008]⟩
abbrev S2x11008 : Shape := ⟨2, ![2, 11008]⟩
abbrev S1x4x128 : Shape := ⟨3, ![1, 4, 128]⟩
abbrev S80x11008 : Shape := ⟨2, ![80, 11008]⟩
abbrev S4x11008 : Shape := ⟨2, ![4, 11008]⟩
abbrev S1x11008 : Shape := ⟨2, ![1, 11008]⟩
abbrev S11008 : Shape := ⟨1, ![11008]⟩
abbrev S1 : Shape := ⟨1, ![1]⟩
abbrev S1x1 : Shape := ⟨2, ![1, 1]⟩
abbrev S1x128 : Shape := ⟨2, ![1, 128]⟩
abbrev S4x128 : Shape := ⟨2, ![4, 128]⟩
abbrev S16x1x1 : Shape := ⟨3, ![16, 1, 1]⟩
abbrev S16 : Shape := ⟨1, ![16]⟩
abbrev S_ : Shape := ⟨0, ![]⟩

abbrev nBuf : Space → Nat
  | .hbm => 39
  | .vmem => 18
  | .smem => 0
  | _ => 0

abbrev bufTy : (tb : Table) → Fin (tcTables nBuf tb) → BufTy
  | .hbm, ⟨0, _⟩ => ⟨S16x80x21824, .f32⟩
  | .hbm, ⟨1, _⟩ => ⟨S16x4x21824, .f32⟩
  | .hbm, ⟨2, _⟩ => ⟨S16x21824, .f32⟩
  | .hbm, ⟨3, _⟩ => ⟨S16x21824x4, .f32⟩
  | .hbm, ⟨4, _⟩ => ⟨S16x21824, .f32⟩
  | .hbm, ⟨5, _⟩ => ⟨S21824x2, .f32⟩
  | .hbm, ⟨6, _⟩ => ⟨S16x21824, .i32⟩
  | .hbm, ⟨7, _⟩ => ⟨S16x21824, .i32⟩
  | .hbm, ⟨8, _⟩ => ⟨S16x4x21824, .f32⟩
  | .hbm, ⟨9, _⟩ => ⟨S16x1x21824, .f32⟩
  | .hbm, ⟨10, _⟩ => ⟨S16x1x21824, .f32⟩
  | .hbm, ⟨11, _⟩ => ⟨S16x1x21824, .i32⟩
  | .hbm, ⟨12, _⟩ => ⟨S16x1x21824, .i32⟩
  | .hbm, ⟨13, _⟩ => ⟨S2x21824, .f32⟩
  | .hbm, ⟨14, _⟩ => ⟨S16x4x128, .f32⟩
  | .hbm, ⟨15, _⟩ => ⟨S16x1x1, .f32⟩
  | .hbm, ⟨16, _⟩ => ⟨S16, .f32⟩
  | .hbm, ⟨17, _⟩ => ⟨S16x1x1, .f32⟩
  | .hbm, ⟨18, _⟩ => ⟨S16, .f32⟩
  | .hbm, ⟨19, _⟩ => ⟨S16x1x1, .f32⟩
  | .hbm, ⟨20, _⟩ => ⟨S16, .f32⟩
  | .hbm, ⟨21, _⟩ => ⟨S16x1x1, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .i1⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x80x11008, .f32⟩
  | .local _ .vmem, ⟨1, _⟩ => ⟨S1x80x11008, .f32⟩
  | .local _ .vmem, ⟨2, _⟩ => ⟨S1x4x11008, .f32⟩
  | .local _ .vmem, ⟨3, _⟩ => ⟨S1x4x11008, .f32⟩
  | .local _ .vmem, ⟨4, _⟩ => ⟨S1x4x11008, .f32⟩
  | .local _ .vmem, ⟨5, _⟩ => ⟨S1x4x11008, .f32⟩
  | .local _ .vmem, ⟨6, _⟩ => ⟨S1x1x11008, .f32⟩
  | .local _ .vmem, ⟨7, _⟩ => ⟨S1x1x11008, .f32⟩
  | .local _ .vmem, ⟨8, _⟩ => ⟨S1x1x11008, .f32⟩
  | .local _ .vmem, ⟨9, _⟩ => ⟨S1x1x11008, .f32⟩
  | .local _ .vmem, ⟨10, _⟩ => ⟨S1x1x11008, .i32⟩
  | .local _ .vmem, ⟨11, _⟩ => ⟨S1x1x11008, .i32⟩
  | .local _ .vmem, ⟨12, _⟩ => ⟨S1x1x11008, .i32⟩
  | .local _ .vmem, ⟨13, _⟩ => ⟨S1x1x11008, .i32⟩
  | .local _ .vmem, ⟨14, _⟩ => ⟨S2x11008, .f32⟩
  | .local _ .vmem, ⟨15, _⟩ => ⟨S2x11008, .f32⟩
  | .local _ .vmem, ⟨16, _⟩ => ⟨S1x4x128, .f32⟩
  | .local _ .vmem, ⟨17, _⟩ => ⟨S1x4x128, .f32⟩
  | _, _ => ⟨S16x80x21824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x11008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x11008 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x11008 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x11008 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x11008 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  transposes_S16x21824x4_S16x4x21824_0_2_1 : S16x21824x4.Transposes [0, 2, 1] S16x4x21824
  shapeCasts_S16x21824_S16x1x21824 : S16x21824.ShapeCasts S16x1x21824
  transposes_S21824x2_S2x21824_1_0 : S21824x2.Transposes [1, 0] S2x21824
  inb_S1x4x128_S1x4x128_0_0_0 : ∀ a, (![0, 0, 0] : Fin 3 → Nat) a + S1x4x128.size a ≤ S1x4x128.size a
  h_S1x4x128 : 0 < S1x4x128.numel
  inb_S1x80x11008_S1x80x11008_0_0_0 : ∀ a, (![0, 0, 0] : Fin 3 → Nat) a + S1x80x11008.size a ≤ S1x80x11008.size a
  h_S1x80x11008 : 0 < S1x80x11008.numel
  shapeCasts_S1x80x11008_S80x11008 : S1x80x11008.ShapeCasts S80x11008
  inb_S1x4x11008_S1x4x11008_0_0_0 : ∀ a, (![0, 0, 0] : Fin 3 → Nat) a + S1x4x11008.size a ≤ S1x4x11008.size a
  h_S1x4x11008 : 0 < S1x4x11008.numel
  shapeCasts_S1x4x11008_S4x11008 : S1x4x11008.ShapeCasts S4x11008
  inb_S1x1x11008_S1x1x11008_0_0_0 : ∀ a, (![0, 0, 0] : Fin 3 → Nat) a + S1x1x11008.size a ≤ S1x1x11008.size a
  h_S1x1x11008 : 0 < S1x1x11008.numel
  shapeCasts_S1x1x11008_S1x11008 : S1x1x11008.ShapeCasts S1x11008
  inb_S2x11008_S2x11008_0_0 : ∀ a, (![0, 0] : Fin 2 → Nat) a + S2x11008.size a ≤ S2x11008.size a
  h_S2x11008 : 0 < S2x11008.numel
  shapeCasts_S2x11008_S2x11008 : S2x11008.ShapeCasts S2x11008
  iota_S1x11008_d1_w32 : S1x11008.Iotas .tc 32 [1]
  iota_S80x11008_d0_w32 : S80x11008.Iotas .tc 32 [0]
  broadcasts_S1x11008_S80x11008 : S1x11008.Broadcasts S80x11008
  reduces_S80x11008_S11008 : S80x11008.Reduces [0] S11008
  shapeCasts_S11008_S1x11008 : S11008.ShapeCasts S1x11008
  reduces_S1x11008_S1 : S1x11008.Reduces [1] S1
  shapeCasts_S1_S1x1 : S1.ShapeCasts S1x1
  slices_S2x11008_o0_0_S1x11008 : S2x11008.Slices ![0, 0] S1x11008
  slices_S2x11008_o1_0_S1x11008 : S2x11008.Slices ![1, 0] S1x11008
  slices_S4x11008_o0_0_S1x11008 : S4x11008.Slices ![0, 0] S1x11008
  slices_S4x11008_o1_0_S1x11008 : S4x11008.Slices ![1, 0] S1x11008
  slices_S4x11008_o2_0_S1x11008 : S4x11008.Slices ![2, 0] S1x11008
  slices_S4x11008_o3_0_S1x11008 : S4x11008.Slices ![3, 0] S1x11008
  shapeCasts_S1x1_S1x1 : S1x1.ShapeCasts S1x1
  broadcasts_S1x1_S1x128 : S1x1.Broadcasts S1x128
  concatenates_S1x128_S1x128_S1x128_S1x128_S4x128_d0 : Shape.Concatenates [S1x128, S1x128, S1x128, S1x128] S4x128 0
  shapeCasts_S1x4x128_S4x128 : S1x4x128.ShapeCasts S4x128
  shapeCasts_S4x128_S1x4x128 : S4x128.ShapeCasts S1x4x128
  slices_S16x4x128_S16x1x1_0_0_0 : S16x4x128.Slices ![0, 0, 0] S16x1x1
  shapeCasts_S16x1x1_S16 : S16x1x1.ShapeCasts S16
  slices_S16x4x128_S16x1x1_0_1_0 : S16x4x128.Slices ![0, 1, 0] S16x1x1
  slices_S16x4x128_S16x1x1_0_2_0 : S16x4x128.Slices ![0, 2, 0] S16x1x1
  slices_S16x4x128_S16x1x1_0_3_0 : S16x4x128.Slices ![0, 3, 0] S16x1x1
  bcast_S_S16 : S_.BroadcastsInDim S16 (![] : Fin 0 → Fin S16.rank)
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x80x11008.size a < S16x80x21824.size a
  hwx0_0 : ∀ i : grid0.Coords, EltTy.bits .f32 = 32 ∨ (Rect.unit (s := S16x80x21824) (fun a => cc0_transform_0 i a * S1x80x11008.size a) (fun a => (Pipeline.Clip.of (cc0_transform_0 i a) (S1x80x11008.size a) (S16x80x21824.size a)).extent (S1x80x11008.size a)) fun a => Pipeline.Clip.inb (Pipeline.Clip.ok_of (hstart0_0 i a))).WholeWords (EltTy.packing .f32)
  hwxs0_0 : ∀ i : grid0.Coords, EltTy.bits .f32 = 32 ∨ (Rect.unit (s := S1x80x11008) (fun _ => 0) (fun a => (Pipeline.Clip.of (cc0_transform_0 i a) (S1x80x11008.size a) (S16x80x21824.size a)).extent (S1x80x11008.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x4x11008.size a < S16x4x21824.size a
  hwx0_1 : ∀ i : grid0.Coords, EltTy.bits .f32 = 32 ∨ (Rect.unit (s := S16x4x21824) (fun a => cc0_transform_1 i a * S1x4x11008.size a) (fun a => (Pipeline.Clip.of (cc0_transform_1 i a) (S1x4x11008.size a) (S16x4x21824.size a)).extent (S1x4x11008.size a)) fun a => Pipeline.Clip.inb (Pipeline.Clip.ok_of (hstart0_1 i a))).WholeWords (EltTy.packing .f32)
  hwxs0_1 : ∀ i : grid0.Coords, EltTy.bits .f32 = 32 ∨ (Rect.unit (s := S1x4x11008) (fun _ => 0) (fun a => (Pipeline.Clip.of (cc0_transform_1 i a) (S1x4x11008.size a) (S16x4x21824.size a)).extent (S1x4x11008.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x4x11008.size a < S16x4x21824.size a
  hwx0_2 : ∀ i : grid0.Coords, EltTy.bits .f32 = 32 ∨ (Rect.unit (s := S16x4x21824) (fun a => cc0_transform_2 i a * S1x4x11008.size a) (fun a => (Pipeline.Clip.of (cc0_transform_2 i a) (S1x4x11008.size a) (S16x4x21824.size a)).extent (S1x4x11008.size a)) fun a => Pipeline.Clip.inb (Pipeline.Clip.ok_of (hstart0_2 i a))).WholeWords (EltTy.packing .f32)
  hwxs0_2 : ∀ i : grid0.Coords, EltTy.bits .f32 = 32 ∨ (Rect.unit (s := S1x4x11008) (fun _ => 0) (fun a => (Pipeline.Clip.of (cc0_transform_2 i a) (S1x4x11008.size a) (S16x4x21824.size a)).extent (S1x4x11008.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1x11008.size a < S16x1x21824.size a
  hwx0_3 : ∀ i : grid0.Coords, EltTy.bits .f32 = 32 ∨ (Rect.unit (s := S16x1x21824) (fun a => cc0_transform_3 i a * S1x1x11008.size a) (fun a => (Pipeline.Clip.of (cc0_transform_3 i a) (S1x1x11008.size a) (S16x1x21824.size a)).extent (S1x1x11008.size a)) fun a => Pipeline.Clip.inb (Pipeline.Clip.ok_of (hstart0_3 i a))).WholeWords (EltTy.packing .f32)
  hwxs0_3 : ∀ i : grid0.Coords, EltTy.bits .f32 = 32 ∨ (Rect.unit (s := S1x1x11008) (fun _ => 0) (fun a => (Pipeline.Clip.of (cc0_transform_3 i a) (S1x1x11008.size a) (S16x1x21824.size a)).extent (S1x1x11008.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1x11008.size a < S16x1x21824.size a
  hwx0_4 : ∀ i : grid0.Coords, EltTy.bits .f32 = 32 ∨ (Rect.unit (s := S16x1x21824) (fun a => cc0_transform_4 i a * S1x1x11008.size a) (fun a => (Pipeline.Clip.of (cc0_transform_4 i a) (S1x1x11008.size a) (S16x1x21824.size a)).extent (S1x1x11008.size a)) fun a => Pipeline.Clip.inb (Pipeline.Clip.ok_of (hstart0_4 i a))).WholeWords (EltTy.packing .f32)
  hwxs0_4 : ∀ i : grid0.Coords, EltTy.bits .f32 = 32 ∨ (Rect.unit (s := S1x1x11008) (fun _ => 0) (fun a => (Pipeline.Clip.of (cc0_transform_4 i a) (S1x1x11008.size a) (S16x1x21824.size a)).extent (S1x1x11008.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x1x11008.size a < S16x1x21824.size a
  hwx0_5 : ∀ i : grid0.Coords, EltTy.bits .i32 = 32 ∨ (Rect.unit (s := S16x1x21824) (fun a => cc0_transform_5 i a * S1x1x11008.size a) (fun a => (Pipeline.Clip.of (cc0_transform_5 i a) (S1x1x11008.size a) (S16x1x21824.size a)).extent (S1x1x11008.size a)) fun a => Pipeline.Clip.inb (Pipeline.Clip.ok_of (hstart0_5 i a))).WholeWords (EltTy.packing .i32)
  hwxs0_5 : ∀ i : grid0.Coords, EltTy.bits .i32 = 32 ∨ (Rect.unit (s := S1x1x11008) (fun _ => 0) (fun a => (Pipeline.Clip.of (cc0_transform_5 i a) (S1x1x11008.size a) (S16x1x21824.size a)).extent (S1x1x11008.size a)) fun a => (Nat.zero_add _).trans_le (Pipeline.Clip.extent_le (Pipeline.Clip.ok_of (hstart0_5 i a)))).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x1x11008.size a < S16x1x21824.size a
  hwx0_6 : ∀ i : grid0.Coords, EltTy.bits .i32 = 32 ∨ (Rect.unit (s := S16x1x21824) (fun a => cc0_transform_6 i a * S1x1x11008.size a) (fun a => (Pipeline.Clip.of (cc0_transform_6 i a) (S1x1x11008.size a) (S16x1x21824.size a)).extent (S1x1x11008.size a)) fun a => Pipeline.Clip.inb (Pipeline.Clip.ok_of (hstart0_6 i a))).WholeWords (EltTy.packing .i32)
  hwxs0_6 : ∀ i : grid0.Coords, EltTy.bits .i32 = 32 ∨ (Rect.unit (s := S1x1x11008) (fun _ => 0) (fun a => (Pipeline.Clip.of (cc0_transform_6 i a) (S1x1x11008.size a) (S16x1x21824.size a)).extent (S1x1x11008.size a)) fun a => (Nat.zero_add _).trans_le (Pipeline.Clip.extent_le (Pipeline.Clip.ok_of (hstart0_6 i a)))).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S2x11008.size a < S2x21824.size a
  hwx0_7 : ∀ i : grid0.Coords, EltTy.bits .f32 = 32 ∨ (Rect.unit (s := S2x21824) (fun a => cc0_transform_7 i a * S2x11008.size a) (fun a => (Pipeline.Clip.of (cc0_transform_7 i a) (S2x11008.size a) (S2x21824.size a)).extent (S2x11008.size a)) fun a => Pipeline.Clip.inb (Pipeline.Clip.ok_of (hstart0_7 i a))).WholeWords (EltTy.packing .f32)
  hwxs0_7 : ∀ i : grid0.Coords, EltTy.bits .f32 = 32 ∨ (Rect.unit (s := S2x11008) (fun _ => 0) (fun a => (Pipeline.Clip.of (cc0_transform_7 i a) (S2x11008.size a) (S2x21824.size a)).extent (S2x11008.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x4x128.size a ≤ S16x4x128.size a
  hwx0_8 : ∀ i : grid0.Coords, EltTy.bits .f32 = 32 ∨ (Rect.block (s := S16x4x128) S1x4x128.size (cc0_transform_8 i) (hinb0_8 i)).WholeWords (EltTy.packing .f32)

variable [Facts₀]

abbrev win0_0 : Pipeline.Window sig grid0 :=
  Pipeline.Window.ofSpecClip (Memref.whole main_arg0) S1x80x11008.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1x4x11008.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x4x11008.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x1x11008.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S1x1x11008.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v3) S1x1x11008.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v4) S1x1x11008.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v5) S2x11008.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpec (Memref.whole main_v6) S1x4x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x80x21824 : Shape := ⟨3, ![16, 80, 21824]⟩
abbrev S16x4x21824 : Shape := ⟨3, ![16, 4, 21824]⟩
abbrev S16x21824 : Shape := ⟨2, ![16, 21824]⟩
abbrev S16x21824x4 : Shape := ⟨3, ![16, 21824, 4]⟩
abbrev S21824x2 : Shape := ⟨2, ![21824, 2]⟩
abbrev S_ : Shape := ⟨0, ![]⟩
abbrev S16x1x21824 : Shape := ⟨3, ![16, 1, 21824]⟩
abbrev S80 : Shape := ⟨1, ![80]⟩
abbrev S1x80x1 : Shape := ⟨3, ![1, 80, 1]⟩
abbrev S16 : Shape := ⟨1, ![16]⟩
abbrev S21824x1 : Shape := ⟨2, ![21824, 1]⟩
abbrev S21824 : Shape := ⟨1, ![21824]⟩
abbrev S1x21824 : Shape := ⟨2, ![1, 21824]⟩
abbrev S16x21824x1 : Shape := ⟨3, ![16, 21824, 1]⟩

abbrev nBuf : Space → Nat
  | .hbm => 175
  | .vmem => 0
  | .smem => 0
  | _ => 0

abbrev hbmTy0_0 (i : Nat) : BufTy := match i % 128 with
  | 0 => ⟨S16x80x21824, .f32⟩
  | 1 => ⟨S16x4x21824, .f32⟩
  | 2 => ⟨S16x21824, .f32⟩
  | 3 => ⟨S16x21824x4, .f32⟩
  | 4 => ⟨S16x21824, .f32⟩
  | 5 => ⟨S21824x2, .f32⟩
  | 6 => ⟨S16x21824, .i32⟩
  | 7 => ⟨S16x21824, .i32⟩
  | 8 => ⟨S_, .f32⟩
  | 9 => ⟨S_, .f32⟩
  | 10 => ⟨S_, .f32⟩
  | 11 => ⟨S16x80x21824, .f32⟩
  | 12 => ⟨S16x80x21824, .f32⟩
  | 13 => ⟨S_, .f32⟩
  | 14 => ⟨S16x80x21824, .f32⟩
  | 15 => ⟨S16x80x21824, .f32⟩
  | 16 => ⟨S16x1x21824, .i32⟩
  | 17 => ⟨S80, .i32⟩
  | 18 => ⟨S1x80x1, .i32⟩
  | 19 => ⟨S16x80x21824, .i32⟩
  | 20 => ⟨S16x80x21824, .i32⟩
  | 21 => ⟨S16x80x21824, .i1⟩
  | 22 => ⟨S_, .f32⟩
  | 23 => ⟨S16x80x21824, .f32⟩
  | 24 => ⟨S16x80x21824, .f32⟩
  | 25 => ⟨S_, .f32⟩
  | 26 => ⟨S16x80x21824, .f32⟩
  | 27 => ⟨S16x80x21824, .f32⟩
  | 28 => ⟨S_, .f32⟩
  | 29 => ⟨S16x80x21824, .f32⟩
  | 30 => ⟨S16x80x21824, .f32⟩
  | 31 => ⟨S16x80x21824, .f32⟩
  | 32 => ⟨S16x80x21824, .f32⟩
  | 33 => ⟨S_, .f32⟩
  | 34 => ⟨S16x80x21824, .f32⟩
  | 35 => ⟨S16x80x21824, .f32⟩
  | 36 => ⟨S_, .f32⟩
  | 37 => ⟨S16x80x21824, .f32⟩
  | 38 => ⟨S16x80x21824, .f32⟩
  | 39 => ⟨S_, .f32⟩
  | 40 => ⟨S16x80x21824, .f32⟩
  | 41 => ⟨S16x80x21824, .f32⟩
  | 42 => ⟨S16x80x21824, .f32⟩
  | 43 => ⟨S16x80x21824, .f32⟩
  | 44 => ⟨S16x80x21824, .f32⟩
  | 45 => ⟨S_, .f32⟩
  | 46 => ⟨S16, .f32⟩
  | 47 => ⟨S21824x1, .f32⟩
  | 48 => ⟨S21824, .f32⟩
  | 49 => ⟨S1x21824, .f32⟩
  | 50 => ⟨S21824x1, .f32⟩
  | 51 => ⟨S21824, .f32⟩
  | 52 => ⟨S1x21824, .f32⟩
  | 53 => ⟨S16x1x21824, .f32⟩
  | 54 => ⟨S16x21824, .f32⟩
  | 55 => ⟨S16x21824, .f32⟩
  | 56 => ⟨S16x21824, .f32⟩
  | 57 => ⟨S16x1x21824, .f32⟩
  | 58 => ⟨S16x21824, .f32⟩
  | 59 => ⟨S16x21824, .f32⟩
  | 60 => ⟨S16x21824, .f32⟩
  | 61 => ⟨S16x1x21824, .f32⟩
  | 62 => ⟨S16x21824, .f32⟩
  | 63 => ⟨S16x21824, .f32⟩
  | 64 => ⟨S16x21824, .f32⟩
  | 65 => ⟨S16x1x21824, .f32⟩
  | 66 => ⟨S16x21824, .f32⟩
  | 67 => ⟨S16x21824, .f32⟩
  | 68 => ⟨S16x21824, .f32⟩
  | 69 => ⟨S16x21824x1, .f32⟩
  | 70 => ⟨S16x21824, .f32⟩
  | 71 => ⟨S16x21824x1, .f32⟩
  | 72 => ⟨S16x21824, .f32⟩
  | 73 => ⟨S16x21824x1, .f32⟩
  | 74 => ⟨S16x21824, .f32⟩
  | 75 => ⟨S16x21824x1, .f32⟩
  | 76 => ⟨S16x21824, .f32⟩
  | 77 => ⟨S16x21824, .f32⟩
  | 78 => ⟨S_, .f32⟩
  | 79 => ⟨S16x21824, .f32⟩
  | 80 => ⟨S16x21824, .f32⟩
  | 81 => ⟨S16x21824, .f32⟩
  | 82 => ⟨S_, .f32⟩
  | 83 => ⟨S16x21824, .f32⟩
  | 84 => ⟨S16x21824, .f32⟩
  | 85 => ⟨S16x21824, .f32⟩
  | 86 => ⟨S16x21824, .f32⟩
  | 87 => ⟨S_, .f32⟩
  | 88 => ⟨S16x21824, .f32⟩
  | 89 => ⟨S16x21824, .f32⟩
  | 90 => ⟨S16x21824, .f32⟩
  | 91 => ⟨S_, .f32⟩
  | 92 => ⟨S16x21824, .f32⟩
  | 93 => ⟨S16x21824, .f32⟩
  | 94 => ⟨S16x21824, .f32⟩
  | 95 => ⟨S16x21824, .f32⟩
  | 96 => ⟨S16x21824, .f32⟩
  | 97 => ⟨S16x21824, .f32⟩
  | 98 => ⟨S16x21824, .f32⟩
  | 99 => ⟨S16x21824, .f32⟩
  | 100 => ⟨S_, .f32⟩
  | 101 => ⟨S16x21824, .f32⟩
  | 102 => ⟨S16x21824, .f32⟩
  | 103 => ⟨S16x21824, .f32⟩
  | 104 => ⟨S_, .f32⟩
  | 105 => ⟨S16x21824, .f32⟩
  | 106 => ⟨S16x21824, .f32⟩
  | 107 => ⟨S16x21824, .f32⟩
  | 108 => ⟨S16x21824, .f32⟩
  | 109 => ⟨S16x21824, .f32⟩
  | 110 => ⟨S16x21824, .i1⟩
  | 111 => ⟨S16x21824, .i1⟩
  | 112 => ⟨S16x21824, .i1⟩
  | 113 => ⟨S_, .f32⟩
  | 114 => ⟨S16x21824, .f32⟩
  | 115 => ⟨S16x21824, .i1⟩
  | 116 => ⟨S16x21824, .i1⟩
  | 117 => ⟨S_, .f32⟩
  | 118 => ⟨S16x21824, .f32⟩
  | 119 => ⟨S16x21824, .i1⟩
  | 120 => ⟨S16x21824, .i1⟩
  | 121 => ⟨S16x21824, .f32⟩
  | 122 => ⟨S_, .f32⟩
  | 123 => ⟨S_, .f32⟩
  | 124 => ⟨S16x21824, .f32⟩
  | 125 => ⟨S16x21824, .f32⟩
  | 126 => ⟨S16x21824, .f32⟩
  | 127 => ⟨S16x21824, .f32⟩
  | _ => ⟨S16x80x21824, .f32⟩

abbrev hbmTy0_1 (i : Nat) : BufTy := match i % 128 with
  | 0 => ⟨S_, .f32⟩
  | 1 => ⟨S_, .f32⟩
  | 2 => ⟨S16x21824, .f32⟩
  | 3 => ⟨S16x21824, .f32⟩
  | 4 => ⟨S16x21824, .f32⟩
  | 5 => ⟨S16x21824, .f32⟩
  | 6 => ⟨S_, .f32⟩
  | 7 => ⟨S16, .f32⟩
  | 8 => ⟨S16x21824, .f32⟩
  | 9 => ⟨S_, .f32⟩
  | 10 => ⟨S_, .f32⟩
  | 11 => ⟨S16x21824, .f32⟩
  | 12 => ⟨S16x21824, .f32⟩
  | 13 => ⟨S16x21824, .f32⟩
  | 14 => ⟨S_, .f32⟩
  | 15 => ⟨S16x21824, .f32⟩
  | 16 => ⟨S16x21824, .f32⟩
  | 17 => ⟨S16x21824, .f32⟩
  | 18 => ⟨S16x21824, .f32⟩
  | 19 => ⟨S_, .f32⟩
  | 20 => ⟨S_, .f32⟩
  | 21 => ⟨S16x21824, .f32⟩
  | 22 => ⟨S16x21824, .f32⟩
  | 23 => ⟨S16x21824, .f32⟩
  | 24 => ⟨S16x21824, .f32⟩
  | 25 => ⟨S16x21824, .f32⟩
  | 26 => ⟨S16x21824, .f32⟩
  | 27 => ⟨S_, .f32⟩
  | 28 => ⟨S16, .f32⟩
  | 29 => ⟨S_, .f32⟩
  | 30 => ⟨S16, .f32⟩
  | 31 => ⟨S_, .f32⟩
  | 32 => ⟨S16, .f32⟩
  | 33 => ⟨S16, .i1⟩
  | 34 => ⟨S16, .f32⟩
  | 35 => ⟨S_, .f32⟩
  | 36 => ⟨S16, .f32⟩
  | 37 => ⟨S16, .f32⟩
  | 38 => ⟨S16, .f32⟩
  | 39 => ⟨S16, .f32⟩
  | 40 => ⟨S16, .f32⟩
  | 41 => ⟨S16, .f32⟩
  | 42 => ⟨S16, .f32⟩
  | 43 => ⟨S_, .f32⟩
  | 44 => ⟨S_, .f32⟩
  | 45 => ⟨S_, .f32⟩
  | 46 => ⟨S_, .f32⟩
  | _ => ⟨S16x80x21824, .f32⟩

abbrev hbmTy (i : Nat) : BufTy := match i / 128 with
  | 0 => hbmTy0_0 i
  | 1 => hbmTy0_1 i
  | _ => ⟨S16x80x21824, .f32⟩

abbrev bufTy : (tb : Table) → Fin (tcTables nBuf tb) → BufTy
  | .hbm, ⟨i, _⟩ => hbmTy i
  | _, _ => ⟨S16x80x21824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_call2_v0 : Ref sig .tc := ⟨.hbm, 123, rfl⟩
abbrev main_call2_v1 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_17 : Ref sig .tc := ⟨.hbm, 128, rfl⟩
abbrev main_call3_v0 : Ref sig .tc := ⟨.hbm, 129, rfl⟩
abbrev main_call3_v1 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_18 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_call4_v0 : Ref sig .tc := ⟨.hbm, 138, rfl⟩
abbrev main_call4_v1 : Ref sig .tc := ⟨.hbm, 139, rfl⟩
abbrev main_v100 : Ref sig .tc := ⟨.hbm, 140, rfl⟩
abbrev main_v101 : Ref sig .tc := ⟨.hbm, 141, rfl⟩
abbrev main_cst_20 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_call5_v0 : Ref sig .tc := ⟨.hbm, 148, rfl⟩
abbrev main_call5_v1 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_22 : Ref sig .tc := ⟨.hbm, 155, rfl⟩
abbrev main_v111 : Ref sig .tc := ⟨.hbm, 156, rfl⟩
abbrev main_cst_23 : Ref sig .tc := ⟨.hbm, 157, rfl⟩
abbrev main_v112 : Ref sig .tc := ⟨.hbm, 158, rfl⟩
abbrev main_cst_24 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_25 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_26 : Ref sig .tc := ⟨.hbm, 171, rfl⟩
abbrev main_v123 : Ref sig .tc := ⟨.hbm, 172, rfl⟩
abbrev main_cst_27 : Ref sig .tc := ⟨.hbm, 173, rfl⟩
abbrev main_v124 : Ref sig .tc := ⟨.hbm, 174, rfl⟩

abbrev nD : Nat := 1
abbrev τ : Topo := Topo.v7x

variable {F : FTy → Type} [FloatOps F]

class Facts₀ : Prop where
  bcast_S_S16x80x21824 : S_.BroadcastsInDim S16x80x21824 (![] : Fin 0 → Fin S16x80x21824.rank)
  bcast_S16x21824_S16x1x21824_0_2 : S16x21824.BroadcastsInDim S16x1x21824 (![0, 2] : Fin 2 → Fin S16x1x21824.rank)
  bcast_S80_S1x80x1_1 : S80.BroadcastsInDim S1x80x1 (![1] : Fin 1 → Fin S1x80x1.rank)
  bcast_S16x1x21824_S16x80x21824_0_1_2 : S16x1x21824.BroadcastsInDim S16x80x21824 (![0, 1, 2] : Fin 3 → Fin S16x80x21824.rank)
  bcast_S1x80x1_S16x80x21824_0_1_2 : S1x80x1.BroadcastsInDim S16x80x21824 (![0, 1, 2] : Fin 3 → Fin S16x80x21824.rank)
  reducesTo_S16x80x21824_S16_d1_2 : S16x80x21824.ReducesTo [1, 2] S16
  h_S_ : 0 < S_.numel
  slices_S21824x2_S21824x1_0_0 : S21824x2.Slices ![0, 0] S21824x1
  shapeCasts_S21824x1_S21824 : S21824x1.ShapeCasts S21824
  bcast_S21824_S1x21824_1 : S21824.BroadcastsInDim S1x21824 (![1] : Fin 1 → Fin S1x21824.rank)
  slices_S21824x2_S21824x1_0_1 : S21824x2.Slices ![0, 1] S21824x1
  slices_S16x4x21824_S16x1x21824_0_0_0 : S16x4x21824.Slices ![0, 0, 0] S16x1x21824
  shapeCasts_S16x1x21824_S16x21824 : S16x1x21824.ShapeCasts S16x21824
  bcast_S1x21824_S16x21824_0_1 : S1x21824.BroadcastsInDim S16x21824 (![0, 1] : Fin 2 → Fin S16x21824.rank)
  slices_S16x4x21824_S16x1x21824_0_1_0 : S16x4x21824.Slices ![0, 1, 0] S16x1x21824
  slices_S16x4x21824_S16x1x21824_0_2_0 : S16x4x21824.Slices ![0, 2, 0] S16x1x21824
  slices_S16x4x21824_S16x1x21824_0_3_0 : S16x4x21824.Slices ![0, 3, 0] S16x1x21824
  slices_S16x21824x4_S16x21824x1_0_0_0 : S16x21824x4.Slices ![0, 0, 0] S16x21824x1
  shapeCasts_S16x21824x1_S16x21824 : S16x21824x1.ShapeCasts S16x21824
  slices_S16x21824x4_S16x21824x1_0_0_1 : S16x21824x4.Slices ![0, 0, 1] S16x21824x1
  slices_S16x21824x4_S16x21824x1_0_0_2 : S16x21824x4.Slices ![0, 0, 2] S16x21824x1
  slices_S16x21824x4_S16x21824x1_0_0_3 : S16x21824x4.Slices ![0, 0, 3] S16x21824x1
  bcast_S_S16x21824 : S_.BroadcastsInDim S16x21824 (![] : Fin 0 → Fin S16x21824.rank)
  reducesTo_S16x21824_S16_d1 : S16x21824.ReducesTo [1] S16
  bcast_S_S16 : S_.BroadcastsInDim S16 (![] : Fin 0 → Fin S16.rank)
  reducesTo_S16_S_d0 : S16.ReducesTo [0] S_

variable [Facts₀]

class Facts : Prop extends Facts₀ where

variable [Facts]
-- ==== Proof.K.Tile.lean ====
/-
  What one grid point of the FCOS kernel adds to its four-row accumulator block, as ONE pure term of the eight input
  blocks it loads and of the accumulator block it finds: the body's payloads composed in program order. Rows 0 to 3
  of the result are the block found plus, on every lane, the tile's focal-loss sum, IoU-loss sum, centerness
  cross-entropy sum and count of positives.
-/
import proofs.«401425_j62740882260765_3_alg».proof.Proof.Gen.Kernel.Skeleton

noncomputable section

namespace Cert.Kernel.Tile

open Cert.Kernel Cert.Kernel.Gen Idealize.ShloMosaic Idealize.SL.Sem

variable {F : FTy → Type} [FloatOps F]

/-- The tile's four sums, each a [1, 1] vector: the focal loss, the IoU loss, the cross-entropy, the positives. -/
def confSum (i : grid0.Coords) (x0 : Vec F S1x80x11008 .f32) (x5 : Vec F S1x1x11008 .i32) : FVec F S1x1 .f32 :=
  k0_pay43 (k0_pay23 (k0_pay10 i) (k0_pay17 (k0_pay3 x0)) (k0_pay18 (k0_pay11 (F := F) i x5))
    (k0_pay20 (k0_pay3 x0) (k0_pay11 (F := F) i x5)) (k0_pay21 (k0_pay3 x0) (k0_pay11 (F := F) i x5)) (k0_pay22 (k0_pay3 x0) (k0_pay11 (F := F) i x5)))

def posBlock (i : grid0.Coords) (x6 : Vec F S1x1x11008 .i32) : FVec F S1x11008 .f32 :=
  k0_pay15 (k0_pay8 (F := F) x6) (k0_pay10 i)

def iouSum (i : grid0.Coords) (x1 x2 : Vec F S1x4x11008 .f32) (x6 : Vec F S1x1x11008 .i32) (x7 : Vec F S2x11008 .f32) : FVec F S1x1 .f32 :=
  k0_pay40 (k0_pay10 i) (posBlock i x6)
    (k0_pay34 (k0_pay4 x1) (k0_pay5 x2) (k0_pay9 x7)) (k0_pay35 (k0_pay4 x1) (k0_pay5 x2) (k0_pay9 x7))
    (k0_pay36 (k0_pay4 x1) (k0_pay5 x2) (k0_pay9 x7)) (k0_pay37 (k0_pay4 x1) (k0_pay5 x2) (k0_pay9 x7))
    (k0_pay38 (k0_pay4 x1) (k0_pay5 x2) (k0_pay9 x7)) (k0_pay39 (k0_pay4 x1) (k0_pay5 x2) (k0_pay9 x7))

def bceSum (i : grid0.Coords) (x3 x4 : Vec F S1x1x11008 .f32) (x6 : Vec F S1x1x11008 .i32) : FVec F S1x1 .f32 :=
  k0_pay41 (k0_pay10 i) (k0_pay13 (k0_pay6 x3) (k0_pay10 i) k0_pay12) (k0_pay14 (k0_pay7 x4) (k0_pay10 i)) (posBlock i x6)

def posSum (i : grid0.Coords) (x6 : Vec F S1x1x11008 .i32) : FVec F S1x1 .f32 := k0_pay42 (posBlock i x6)

/-- The accumulator block after the point: the block found, plus the four sums broadcast along the lanes. -/
def tileOut (i : grid0.Coords) (x0 : Vec F S1x80x11008 .f32) (x1 x2 : Vec F S1x4x11008 .f32) (x3 x4 : Vec F S1x1x11008 .f32)
    (x5 x6 : Vec F S1x1x11008 .i32) (x7 : Vec F S2x11008 .f32) (prev : Vec F S1x4x128 .f32) : Vec F S1x4x128 .f32 :=
  k0_pay1 (iouSum i x1 x2 x6 x7) (bceSum i x3 x4 x6) (posSum i x6) (confSum i x0 x5) prev

/-- The zero block the first tile of an image starts from. -/
abbrev zeroBlock : Vec F S1x4x128 .f32 := k0_pay2 (F := F)

end Cert.Kernel.Tile

end
-- ==== Proof.K.Body.lean ====
/-
  One grid point of the FCOS kernel as a triple over its nine blocks. The eight input blocks are read whole and left as
  they were; the four-row accumulator block ends at the tile's four sums (focal loss, IoU loss, centerness cross-entropy,
  count of positives, each broadcast along the lanes) added to what the block held — to the zero block at the first tile
  of an image, where the kernel resets the block before reading it back, and to the block found at the second tile.
-/
import proofs.«401425_j62740882260765_3_alg».proof.Proof.K.Tile
import proofs.«401425_j62740882260765_3_alg».proof.Proof.Gen.Kernel.Launch
import proofs.«401425_j62740882260765_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rank-3 and rank-2 zero offsets, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A store through the whole block at zero offsets, made last, leaves its payload: what the buffer reads afterwards,
    whatever it held and whatever was stored before. -/
theorem read_store_last {S : Shape} {e : EltTy} {sig' : RefSig} {κ : Kind} {sp : Space} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The condition of the body's one `scf.if` (the accumulator is reset at the first tile of an image), from the grid coordinates. -/
abbrev cond0_0 (i : grid0.Coords) : Prop := (Scalar.cmpi .ne (Scalar.extui (Scalar.cmpi .eq (BitVec.ofNat 32 (i 1).val) 0#32)) 0#32) = 1#1
/-- It holds at the even points (grid (16, 2), row-major: point t is image t / 2, tile t % 2). -/
theorem hcond0_0 : ∀ t : Fin cfg0.N, cond0_0 (grid0.coords t) ↔ t.val % 2 = 0 :=
  (by decide +kernel : ∀ t : Fin grid0.N, cond0_0 (grid0.coords t) ↔ t.val % 2 = 0)

set_option maxHeartbeats 2000000 in
/-- FIRST TILE (the reset is taken): whatever the accumulator's buffer held, it ends at the tile's sums added to the zero block; the inputs' buffers are unchanged. -/
theorem sound_A (c : Dev nD) (E : Set ℕ) (i : grid0.Coords) (arg2 : Memref sig .tc .vmem S1x80x11008 .f32) (harg2 : arg2.IsWhole) (arg3 : Memref sig .tc .vmem S1x4x11008 .f32) (harg3 : arg3.IsWhole) (arg4 : Memref sig .tc .vmem S1x4x11008 .f32) (harg4 : arg4.IsWhole) (arg5 : Memref sig .tc .vmem S1x1x11008 .f32) (harg5 : arg5.IsWhole) (arg6 : Memref sig .tc .vmem S1x1x11008 .f32) (harg6 : arg6.IsWhole) (arg7 : Memref sig .tc .vmem S1x1x11008 .i32) (harg7 : arg7.IsWhole) (arg8 : Memref sig .tc .vmem S1x1x11008 .i32) (harg8 : arg8.IsWhole) (arg9 : Memref sig .tc .vmem S2x11008 .f32) (harg9 : arg9.IsWhole) (arg10 : Memref sig .tc .vmem S1x4x128 .f32) (harg10 : arg10.IsWhole) (hc : cond0_0 i)
    (x0 : Vec F S1x80x11008 .f32) (x1 x2 : Vec F S1x4x11008 .f32) (x3 x4 : Vec F S1x1x11008 .f32) (x5 x6 : Vec F S1x1x11008 .i32) (x7 : Vec F S2x11008 .f32) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, owns (c : Thread nD τ) arg10 fullShare X))
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileOut i x0 x1 x2 x3 x4 x5 x6 x7 (zeroBlock (F := F)))) -∗ K ⟨⟩))
      ⊢ wp frame (wpE (defs₀ (F := F)) Variants.none c none) E (cc0__fcos_kernel i arg2 harg2 arg3 harg3 arg4 harg4 arg5 harg5 arg6 harg6 arg7 harg7 arg8 harg8 arg9 harg9 arg10 harg10) K := by
  -- the raw contents of each input's whole buffer are determined by the block it reads; the accumulator's are arbitrary
  simp only [cc0__fcos_kernel_eq_skeleton]; unfold cc0__fcos_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%X, %f8, -, H8⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  -- the body: the zero block stored, the eight blocks loaded, the accumulator read back and the sums added to it stored
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact H8
  ipureintro
  -- the last store covers the block: the buffer reads its payload, in which the read-back is the zero block stored
  -- before it and each load of an input's whole buffer is that input's block
  refine (read_store_last _ _ hz3 _ _ _).trans ?_
  sl_unfold_run_names
  simp only [View.readAt_eq_ld, harg2.read_unread, harg3.read_unread, harg4.read_unread, harg5.read_unread, harg6.read_unread,
    harg7.read_unread, harg8.read_unread, harg9.read_unread,
    View.ld_unit_zero (S := S1x80x11008) hz3, View.ld_unit_zero (S := S1x4x11008) hz3, View.ld_unit_zero (S := S1x1x11008) hz3,
    View.ld_unit_zero (S := S2x11008) hz2, View.readCov_unit_zero (S := S1x4x128) _ hz3]
  rfl

set_option maxHeartbeats 2000000 in
/-- SECOND TILE (the reset is not taken): the accumulator's buffer holding xo ends at the tile's sums added to xo. -/
theorem sound_B (c : Dev nD) (E : Set ℕ) (i : grid0.Coords) (arg2 : Memref sig .tc .vmem S1x80x11008 .f32) (harg2 : arg2.IsWhole) (arg3 : Memref sig .tc .vmem S1x4x11008 .f32) (harg3 : arg3.IsWhole) (arg4 : Memref sig .tc .vmem S1x4x11008 .f32) (harg4 : arg4.IsWhole) (arg5 : Memref sig .tc .vmem S1x1x11008 .f32) (harg5 : arg5.IsWhole) (arg6 : Memref sig .tc .vmem S1x1x11008 .f32) (harg6 : arg6.IsWhole) (arg7 : Memref sig .tc .vmem S1x1x11008 .i32) (harg7 : arg7.IsWhole) (arg8 : Memref sig .tc .vmem S1x1x11008 .i32) (harg8 : arg8.IsWhole) (arg9 : Memref sig .tc .vmem S2x11008 .f32) (harg9 : arg9.IsWhole) (arg10 : Memref sig .tc .vmem S1x4x128 .f32) (harg10 : arg10.IsWhole) (hc : ¬cond0_0 i)
    (x0 : Vec F S1x80x11008 .f32) (x1 x2 : Vec F S1x4x11008 .f32) (x3 x4 : Vec F S1x1x11008 .f32) (x5 x6 : Vec F S1x1x11008 .i32) (x7 : Vec F S2x11008 .f32) (xo : Vec F S1x4x128 .f32) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileOut i x0 x1 x2 x3 x4 x5 x6 x7 xo)) -∗ K ⟨⟩))
      ⊢ wp frame (wpE (defs₀ (F := F)) Variants.none c none) E (cc0__fcos_kernel i arg2 harg2 arg3 harg3 arg4 harg4 arg5 harg5 arg6 harg6 arg7 harg7 arg8 harg8 arg9 harg9 arg10 harg10) K := by
  -- the raw contents of each whole buffer are determined by the block it reads
  simp only [cc0__fcos_kernel_eq_skeleton]; unfold cc0__fcos_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  -- the body: the eight blocks loaded, the accumulator read and the sums added to it stored
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact H8
  ipureintro
  -- the one store covers the block: the buffer reads its payload, in which each load of a whole buffer is that
  -- buffer's block
  refine (read_store_last _ _ hz3 _ _ _).trans ?_
  sl_unfold_run_names
  simp only [View.readAt_eq_ld, harg2.read_unread, harg3.read_unread, harg4.read_unread, harg5.read_unread, harg6.read_unread,
    harg7.read_unread, harg8.read_unread, harg9.read_unread, harg10.read_unread,
    View.ld_unit_zero (S := S1x80x11008) hz3, View.ld_unit_zero (S := S1x4x11008) hz3, View.ld_unit_zero (S := S1x1x11008) hz3,
    View.ld_unit_zero (S := S2x11008) hz2, View.ld_unit_zero (S := S1x4x128) hz3]
  rfl

end Cert.Kernel.Body

end
-- ==== Proof.K.Frame.lean ====
/-
  The frame of the word-level program: around its one region, every argument array ends as launched.

  Eight input windows are fetched at every grid point; at the second tile of an image their blocks overhang the
  arrays' end, so the staging buffers' tails hold words nothing names. The accumulator block's contents after a point
  depend on those words through the float reductions, so no contents of it are stated: the accumulator window is
  FORGOTTEN (handed to the body at some contents, taken back at some contents), and the run's post states the input
  arrays and the buffers no later host line writes.
-/
import proofs.«401425_j62740882260765_3_alg».proof.Proof.Gen.Kernel.Frame
import proofs.«401425_j62740882260765_3_alg».proof.Proof.K.Tile
import proofs.«401425_j62740882260765_3_alg».proof.Proof.K.Body

set_option maxRecDepth 16384

noncomputable section

/-! ## The proof data -/

namespace Cert.Kernel.FrameF
open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block, filled out past the array's end with the zero word (the inputs are not written, and
    only the part inside the array is ever stated); the accumulator's buffer at a constant block (the window is forgotten:
    nothing reads this); the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (grid0.coords t) (fun _ => FloatOps.ofBits .f32 0#32) (iblk m c 0 t)
    | ⟨1, _⟩ => (cfg0.win 1).fill (grid0.coords t) (fun _ => FloatOps.ofBits .f32 0#32) (iblk m c 1 t)
    | ⟨2, _⟩ => (cfg0.win 2).fill (grid0.coords t) (fun _ => FloatOps.ofBits .f32 0#32) (iblk m c 2 t)
    | ⟨3, _⟩ => (cfg0.win 3).fill (grid0.coords t) (fun _ => FloatOps.ofBits .f32 0#32) (iblk m c 3 t)
    | ⟨4, _⟩ => (cfg0.win 4).fill (grid0.coords t) (fun _ => FloatOps.ofBits .f32 0#32) (iblk m c 4 t)
    | ⟨5, _⟩ => (cfg0.win 5).fill (grid0.coords t) (fun _ => (0#32 : BitVec 32)) (iblk m c 5 t)
    | ⟨6, _⟩ => (cfg0.win 6).fill (grid0.coords t) (fun _ => (0#32 : BitVec 32)) (iblk m c 6 t)
    | ⟨7, _⟩ => (cfg0.win 7).fill (grid0.coords t) (fun _ => FloatOps.ofBits .f32 0#32) (iblk m c 7 t)
    | ⟨8, _⟩ => fun _ => FloatOps.ofBits .f32 0#32
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the inputs' buffers, on the part inside the array: the block. -/
theorem cut_after_0 (c : Dev nD) (t : Fin cfg0.N) :
    (cfg0.win 0).cut (grid0.coords t) ((dats m 0 c).after 0 t) = iblk m c 0 t := by
  dsimp only [dats]; exact (cfg0.win 0).cut_fill _ _ _
theorem cut_after_1 (c : Dev nD) (t : Fin cfg0.N) :
    (cfg0.win 1).cut (grid0.coords t) ((dats m 0 c).after 1 t) = iblk m c 1 t := by
  dsimp only [dats]; exact (cfg0.win 1).cut_fill _ _ _
theorem cut_after_2 (c : Dev nD) (t : Fin cfg0.N) :
    (cfg0.win 2).cut (grid0.coords t) ((dats m 0 c).after 2 t) = iblk m c 2 t := by
  dsimp only [dats]; exact (cfg0.win 2).cut_fill _ _ _
theorem cut_after_3 (c : Dev nD) (t : Fin cfg0.N) :
    (cfg0.win 3).cut (grid0.coords t) ((dats m 0 c).after 3 t) = iblk m c 3 t := by
  dsimp only [dats]; exact (cfg0.win 3).cut_fill _ _ _
theorem cut_after_4 (c : Dev nD) (t : Fin cfg0.N) :
    (cfg0.win 4).cut (grid0.coords t) ((dats m 0 c).after 4 t) = iblk m c 4 t := by
  dsimp only [dats]; exact (cfg0.win 4).cut_fill _ _ _
theorem cut_after_5 (c : Dev nD) (t : Fin cfg0.N) :
    (cfg0.win 5).cut (grid0.coords t) ((dats m 0 c).after 5 t) = iblk m c 5 t := by
  dsimp only [dats]; exact (cfg0.win 5).cut_fill _ _ _
theorem cut_after_6 (c : Dev nD) (t : Fin cfg0.N) :
    (cfg0.win 6).cut (grid0.coords t) ((dats m 0 c).after 6 t) = iblk m c 6 t := by
  dsimp only [dats]; exact (cfg0.win 6).cut_fill _ _ _
theorem cut_after_7 (c : Dev nD) (t : Fin cfg0.N) :
    (cfg0.win 7).cut (grid0.coords t) ((dats m 0 c).after 7 t) = iblk m c 7 t := by
  dsimp only [dats]; exact (cfg0.win 7).cut_fill _ _ _

/-- What the body finds in an input's buffer, fetched at every point: the block on the part inside the array, `d`
    past the array's end. -/
theorem before_0 (c : Dev nD) (t : Fin cfg0.N) (d) :
    (dats m 0 c).before 0 t d = (cfg0.win 0).fill (grid0.coords t) d (iblk m c 0 t) := by
  unfold Dat.before; rw [if_pos (fetch0_0 t)]; rfl
theorem before_1 (c : Dev nD) (t : Fin cfg0.N) (d) :
    (dats m 0 c).before 1 t d = (cfg0.win 1).fill (grid0.coords t) d (iblk m c 1 t) := by
  unfold Dat.before; rw [if_pos (fetch0_1 t)]; rfl
theorem before_2 (c : Dev nD) (t : Fin cfg0.N) (d) :
    (dats m 0 c).before 2 t d = (cfg0.win 2).fill (grid0.coords t) d (iblk m c 2 t) := by
  unfold Dat.before; rw [if_pos (fetch0_2 t)]; rfl
theorem before_3 (c : Dev nD) (t : Fin cfg0.N) (d) :
    (dats m 0 c).before 3 t d = (cfg0.win 3).fill (grid0.coords t) d (iblk m c 3 t) := by
  unfold Dat.before; rw [if_pos (fetch0_3 t)]; rfl
theorem before_4 (c : Dev nD) (t : Fin cfg0.N) (d) :
    (dats m 0 c).before 4 t d = (cfg0.win 4).fill (grid0.coords t) d (iblk m c 4 t) := by
  unfold Dat.before; rw [if_pos (fetch0_4 t)]; rfl
theorem before_5 (c : Dev nD) (t : Fin cfg0.N) (d) :
    (dats m 0 c).before 5 t d = (cfg0.win 5).fill (grid0.coords t) d (iblk m c 5 t) := by
  unfold Dat.before; rw [if_pos (fetch0_5 t)]; rfl
theorem before_6 (c : Dev nD) (t : Fin cfg0.N) (d) :
    (dats m 0 c).before 6 t d = (cfg0.win 6).fill (grid0.coords t) d (iblk m c 6 t) := by
  unfold Dat.before; rw [if_pos (fetch0_6 t)]; rfl
theorem before_7 (c : Dev nD) (t : Fin cfg0.N) (d) :
    (dats m 0 c).before 7 t d = (cfg0.win 7).fill (grid0.coords t) d (iblk m c 7 t) := by
  unfold Dat.before; rw [if_pos (fetch0_7 t)]; rfl

/-! ## The body obligation -/

/-- The output window this certificate FORGETS (window 8, the accumulator block): nothing of what the kernel leaves in it
    is named. -/
def forgets : Fin 9 → Bool := fun w => w.val == 8

/-- What the body is called with at point `t`: the inputs' buffers just fetched, the accumulator's at some contents, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- and what it returns: each input's buffer stated on the part inside the array, the accumulator's at some contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (grid0.coords t) d ((cfg0.win 0).cut (grid0.coords t) ((dats m 0 c).after 0 t))))
    ∗ (∃ d, owns (c : Thread nD τ) (st0_1 t) fullShare ((cfg0.win 1).fill (grid0.coords t) d ((cfg0.win 1).cut (grid0.coords t) ((dats m 0 c).after 1 t))))
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t))))
    ∗ (∃ d, owns (c : Thread nD τ) (st0_4 t) fullShare ((cfg0.win 4).fill (grid0.coords t) d ((cfg0.win 4).cut (grid0.coords t) ((dats m 0 c).after 4 t))))
    ∗ (∃ d, owns (c : Thread nD τ) (st0_5 t) fullShare ((cfg0.win 5).fill (grid0.coords t) d ((cfg0.win 5).cut (grid0.coords t) ((dats m 0 c).after 5 t))))
    ∗ (∃ d, owns (c : Thread nD τ) (st0_6 t) fullShare ((cfg0.win 6).fill (grid0.coords t) d ((cfg0.win 6).cut (grid0.coords t) ((dats m 0 c).after 6 t))))
    ∗ (∃ d, owns (c : Thread nD τ) (st0_7 t) fullShare ((cfg0.win 7).fill (grid0.coords t) d ((cfg0.win 7).cut (grid0.coords t) ((dats m 0 c).after 7 t))))
    ∗ (∃ X, owns (c : Thread nD τ) (st0_8 t) fullShare X))

set_option maxHeartbeats 1600000 in
/-- The body at any point: at the first tile of an image the accumulator is reset and whatever its buffer held is
    overwritten; at the second tile the tile's sums are added to what the buffer holds, whatever that is. Either way the
    inputs' buffers are unchanged, so on the part inside the array they hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    cut_after_0 m c t, cut_after_1 m c t, cut_after_2 m c t, cut_after_3 m c t, cut_after_4 m c t, cut_after_5 m c t, cut_after_6 m c t, cut_after_7 m c t]
  simp only [before_0 m c t, before_1 m c t, before_2 m c t, before_3 m c t, before_4 m c t, before_5 m c t, before_6 m c t, before_7 m c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X, H8⟩⟩
  by_cases h0 : t.val % 2 = 0
  · iapply (Body.sound_A (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) ((Body.hcond0_0 t).mpr h0)
      ((cfg0.win 0).fill (grid0.coords t) d0 (iblk m c 0 t)) ((cfg0.win 1).fill (grid0.coords t) d1 (iblk m c 1 t)) ((cfg0.win 2).fill (grid0.coords t) d2 (iblk m c 2 t)) ((cfg0.win 3).fill (grid0.coords t) d3 (iblk m c 3 t)) ((cfg0.win 4).fill (grid0.coords t) d4 (iblk m c 4 t)) ((cfg0.win 5).fill (grid0.coords t) d5 (iblk m c 5 t)) ((cfg0.win 6).fill (grid0.coords t) d6 (iblk m c 6 t)) ((cfg0.win 7).fill (grid0.coords t) d7 (iblk m c 7 t)) _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists X; iexact H8
    iintro ⟨H0, H1, H2, H3, H4, H5, H6, H7, H8⟩
    isplitl [HΦ]; · iexact HΦ
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists d7; iexact H7
    iexists _; iexact H8
  · iapply (Body.sound_B (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (fun h => h0 ((Body.hcond0_0 t).mp h))
      ((cfg0.win 0).fill (grid0.coords t) d0 (iblk m c 0 t)) ((cfg0.win 1).fill (grid0.coords t) d1 (iblk m c 1 t)) ((cfg0.win 2).fill (grid0.coords t) d2 (iblk m c 2 t)) ((cfg0.win 3).fill (grid0.coords t) d3 (iblk m c 3 t)) ((cfg0.win 4).fill (grid0.coords t) d4 (iblk m c 4 t)) ((cfg0.win 5).fill (grid0.coords t) d5 (iblk m c 5 t)) ((cfg0.win 6).fill (grid0.coords t) d6 (iblk m c 6 t)) ((cfg0.win 7).fill (grid0.coords t) d7 (iblk m c 7 t)) X _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨H0, H1, H2, H3, H4, H5, H6, H7, H8⟩
    isplitl [HΦ]; · iexact HΦ
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists d7; iexact H7
    iexists _; iexact H8

/-- The library's body obligation, at every point, the accumulator window forgotten. -/
theorem body_obligation (c : Dev nD) : BodyObligationLoose (dats (F := F) m 0 c) (defs₀ (F := F)) Variants.none () Set.univ forgets := fun t => by
  rw [bigSep_W0, bigSep_W0]
  exact sound_body m c t

/-! ## The run and the frame -/

/-- The buffers the host lines after the region WRITE: results computed from the accumulator array, whose contents the
    run does not name, so nothing is stated of them either. No argument array is among them. -/
def T0 : Finset (Ref sig .tc) := {main_v7, main_v8, main_v9, main_v10, main_v11, main_v12, main_v13, main_v14, main_cst, main_v15, main_v16, main_v17, main_cst_0, main_v18, main_v19, main_v20, main_v21, main_v22, main_v23, main_v24, main_cst_1, main_v25, main_cst_2, main_v26}

set_option maxHeartbeats 800000 in
theorem sfx_writes : ∀ ops ∈ ([hostOps1, hostOps1_1, hostOps1_2] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_2, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- At the compiled mesh, for any values, from any memory with zero counters: every weakly fair execution of @main on the
    TensorCores terminates, and every final state has every INPUT array of the pipeline unchanged, nothing stated of the
    forgotten accumulator array, and every other unscoped buffer that no later host line writes at its region-entry
    contents. -/
theorem run_main : θ_run defs (onTc (τ := τ) (main (F := F))) (s₀ m ρ)
    (Pipeline.RDat.FramePostR (cfgs 0) (fun c => (dats m 0 c).toRForget forgets) T0 (V m)) :=
  Pipeline.RDat.θ_run_frame_around_T cfgs (0 : Fin 1) launch0 defs₀ Variants.none (fun c => (dats m 0 c).toRForget forgets) T0 m ρ main
    (hbody := fun c => (body_obligation m c).toRForget) (hshare := fun c => ((dats m 0 c).toRForget forgets).share_full fun _ => rfl)
    (howed := fun _ _ => rfl) (V₀ := V0 m) (opss := [hostOps1, hostOps1_1, hostOps1_2]) (hsub := sfx_sub) (hfresh := sfx_fresh) (hkeep := sfx_keeps) (hT := sfx_writes)
    (hmain := hmain m Variants.none) (hA := A_eq m) (hΦ := fun _ _ => rfl)

/-- THE FRAME: around the region every argument array ends as launched — the two the pipeline stages by the run's first
    clause (an input window's array holds its entry contents), the six no window stages by its second (none is written by
    a later host line), each then as launched because no host line before the region writes it. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePostR.arr_in h c 0 rfl).trans ((A_eq m c 0).trans (V_main_arg0 m c)),
      (Pipeline.RDat.FramePostR.arr_in h c 1 rfl).trans ((A_eq m c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) (run_main m ρ)

end Cert.Kernel.FrameF

end
-- ==== Proof.KI.Tile.lean ====
/-
  What one grid point of the FCOS kernel adds to its four-row accumulator block, as ONE pure term of the eight input
  blocks it loads and of the accumulator block it finds: the body's payloads composed in program order. Rows 0 to 3
  of the result are the block found plus, on every lane, the tile's focal-loss sum, IoU-loss sum, centerness
  cross-entropy sum and count of positives.
-/
import proofs.«401425_j62740882260765_3_alg».proof.Proof.Gen.KernelIdeal.Skeleton

noncomputable section

namespace Cert.KernelIdeal.Tile

open Cert.KernelIdeal Cert.KernelIdeal.Gen Idealize.ShloMosaic Idealize.SL.Sem

variable {F : FTy → Type} [FloatOps F]

/-- The tile's four sums, each a [1, 1] vector: the focal loss, the IoU loss, the cross-entropy, the positives. -/
def confSum (i : grid0.Coords) (x0 : Vec F S1x80x11008 .f32) (x5 : Vec F S1x1x11008 .i32) : FVec F S1x1 .f32 :=
  k0_pay43 (k0_pay23 (k0_pay10 i) (k0_pay17 (k0_pay3 x0)) (k0_pay18 (k0_pay11 (F := F) i x5))
    (k0_pay20 (k0_pay3 x0) (k0_pay11 (F := F) i x5)) (k0_pay21 (k0_pay3 x0) (k0_pay11 (F := F) i x5)) (k0_pay22 (k0_pay3 x0) (k0_pay11 (F := F) i x5)))

def posBlock (i : grid0.Coords) (x6 : Vec F S1x1x11008 .i32) : FVec F S1x11008 .f32 :=
  k0_pay15 (k0_pay8 (F := F) x6) (k0_pay10 i)

def iouSum (i : grid0.Coords) (x1 x2 : Vec F S1x4x11008 .f32) (x6 : Vec F S1x1x11008 .i32) (x7 : Vec F S2x11008 .f32) : FVec F S1x1 .f32 :=
  k0_pay40 (k0_pay10 i) (posBlock i x6)
    (k0_pay34 (k0_pay4 x1) (k0_pay5 x2) (k0_pay9 x7)) (k0_pay35 (k0_pay4 x1) (k0_pay5 x2) (k0_pay9 x7))
    (k0_pay36 (k0_pay4 x1) (k0_pay5 x2) (k0_pay9 x7)) (k0_pay37 (k0_pay4 x1) (k0_pay5 x2) (k0_pay9 x7))
    (k0_pay38 (k0_pay4 x1) (k0_pay5 x2) (k0_pay9 x7)) (k0_pay39 (k0_pay4 x1) (k0_pay5 x2) (k0_pay9 x7))

def bceSum (i : grid0.Coords) (x3 x4 : Vec F S1x1x11008 .f32) (x6 : Vec F S1x1x11008 .i32) : FVec F S1x1 .f32 :=
  k0_pay41 (k0_pay10 i) (k0_pay13 (k0_pay6 x3) (k0_pay10 i) k0_pay12) (k0_pay14 (k0_pay7 x4) (k0_pay10 i)) (posBlock i x6)

def posSum (i : grid0.Coords) (x6 : Vec F S1x1x11008 .i32) : FVec F S1x1 .f32 := k0_pay42 (posBlock i x6)

/-- The accumulator block after the point: the block found, plus the four sums broadcast along the lanes. -/
def tileOut (i : grid0.Coords) (x0 : Vec F S1x80x11008 .f32) (x1 x2 : Vec F S1x4x11008 .f32) (x3 x4 : Vec F S1x1x11008 .f32)
    (x5 x6 : Vec F S1x1x11008 .i32) (x7 : Vec F S2x11008 .f32) (prev : Vec F S1x4x128 .f32) : Vec F S1x4x128 .f32 :=
  k0_pay1 (iouSum i x1 x2 x6 x7) (bceSum i x3 x4 x6) (posSum i x6) (confSum i x0 x5) prev

/-- The zero block the first tile of an image starts from. -/
abbrev zeroBlock : Vec F S1x4x128 .f32 := k0_pay2 (F := F)

end Cert.KernelIdeal.Tile

end
-- ==== Proof.KI.Body.lean ====
/-
  One grid point of the FCOS kernel as a triple over its nine blocks. The eight input blocks are read whole and left as
  they were; the four-row accumulator block ends at the tile's four sums (focal loss, IoU loss, centerness cross-entropy,
  count of positives, each broadcast along the lanes) added to what the block held — to the zero block at the first tile
  of an image, where the kernel resets the block before reading it back, and to the block found at the second tile.
-/
import proofs.«401425_j62740882260765_3_alg».proof.Proof.KI.Tile
import proofs.«401425_j62740882260765_3_alg».proof.Proof.Gen.KernelIdeal.Launch
import proofs.«401425_j62740882260765_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rank-3 and rank-2 zero offsets, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A store through the whole block at zero offsets, made last, leaves its payload: what the buffer reads afterwards,
    whatever it held and whatever was stored before. -/
theorem read_store_last {S : Shape} {e : EltTy} {sig' : RefSig} {κ : Kind} {sp : Space} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The condition of the body's one `scf.if` (the accumulator is reset at the first tile of an image), from the grid coordinates. -/
abbrev cond0_0 (i : grid0.Coords) : Prop := (Scalar.cmpi .ne (Scalar.extui (Scalar.cmpi .eq (BitVec.ofNat 32 (i 1).val) 0#32)) 0#32) = 1#1
/-- It holds at the even points (grid (16, 2), row-major: point t is image t / 2, tile t % 2). -/
theorem hcond0_0 : ∀ t : Fin cfg0.N, cond0_0 (grid0.coords t) ↔ t.val % 2 = 0 :=
  (by decide +kernel : ∀ t : Fin grid0.N, cond0_0 (grid0.coords t) ↔ t.val % 2 = 0)

set_option maxHeartbeats 2000000 in
/-- FIRST TILE (the reset is taken): whatever the accumulator's buffer held, it ends at the tile's sums added to the zero block; the inputs' buffers are unchanged. -/
theorem sound_A (c : Dev nD) (E : Set ℕ) (i : grid0.Coords) (arg2 : Memref sig .tc .vmem S1x80x11008 .f32) (harg2 : arg2.IsWhole) (arg3 : Memref sig .tc .vmem S1x4x11008 .f32) (harg3 : arg3.IsWhole) (arg4 : Memref sig .tc .vmem S1x4x11008 .f32) (harg4 : arg4.IsWhole) (arg5 : Memref sig .tc .vmem S1x1x11008 .f32) (harg5 : arg5.IsWhole) (arg6 : Memref sig .tc .vmem S1x1x11008 .f32) (harg6 : arg6.IsWhole) (arg7 : Memref sig .tc .vmem S1x1x11008 .i32) (harg7 : arg7.IsWhole) (arg8 : Memref sig .tc .vmem S1x1x11008 .i32) (harg8 : arg8.IsWhole) (arg9 : Memref sig .tc .vmem S2x11008 .f32) (harg9 : arg9.IsWhole) (arg10 : Memref sig .tc .vmem S1x4x128 .f32) (harg10 : arg10.IsWhole) (hc : cond0_0 i)
    (x0 : Vec F S1x80x11008 .f32) (x1 x2 : Vec F S1x4x11008 .f32) (x3 x4 : Vec F S1x1x11008 .f32) (x5 x6 : Vec F S1x1x11008 .i32) (x7 : Vec F S2x11008 .f32) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, owns (c : Thread nD τ) arg10 fullShare X))
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileOut i x0 x1 x2 x3 x4 x5 x6 x7 (zeroBlock (F := F)))) -∗ K ⟨⟩))
      ⊢ wp frame (wpE (defs₀ (F := F)) Variants.none c none) E (cc0__fcos_kernel i arg2 harg2 arg3 harg3 arg4 harg4 arg5 harg5 arg6 harg6 arg7 harg7 arg8 harg8 arg9 harg9 arg10 harg10) K := by
  -- the raw contents of each input's whole buffer are determined by the block it reads; the accumulator's are arbitrary
  simp only [cc0__fcos_kernel_eq_skeleton]; unfold cc0__fcos_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%X, %f8, -, H8⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  -- the body: the zero block stored, the eight blocks loaded, the accumulator read back and the sums added to it stored
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact H8
  ipureintro
  -- the last store covers the block: the buffer reads its payload, in which the read-back is the zero block stored
  -- before it and each load of an input's whole buffer is that input's block
  refine (read_store_last _ _ hz3 _ _ _).trans ?_
  sl_unfold_run_names
  simp only [View.readAt_eq_ld, harg2.read_unread, harg3.read_unread, harg4.read_unread, harg5.read_unread, harg6.read_unread,
    harg7.read_unread, harg8.read_unread, harg9.read_unread,
    View.ld_unit_zero (S := S1x80x11008) hz3, View.ld_unit_zero (S := S1x4x11008) hz3, View.ld_unit_zero (S := S1x1x11008) hz3,
    View.ld_unit_zero (S := S2x11008) hz2, View.readCov_unit_zero (S := S1x4x128) _ hz3]
  rfl

set_option maxHeartbeats 2000000 in
/-- SECOND TILE (the reset is not taken): the accumulator's buffer holding xo ends at the tile's sums added to xo. -/
theorem sound_B (c : Dev nD) (E : Set ℕ) (i : grid0.Coords) (arg2 : Memref sig .tc .vmem S1x80x11008 .f32) (harg2 : arg2.IsWhole) (arg3 : Memref sig .tc .vmem S1x4x11008 .f32) (harg3 : arg3.IsWhole) (arg4 : Memref sig .tc .vmem S1x4x11008 .f32) (harg4 : arg4.IsWhole) (arg5 : Memref sig .tc .vmem S1x1x11008 .f32) (harg5 : arg5.IsWhole) (arg6 : Memref sig .tc .vmem S1x1x11008 .f32) (harg6 : arg6.IsWhole) (arg7 : Memref sig .tc .vmem S1x1x11008 .i32) (harg7 : arg7.IsWhole) (arg8 : Memref sig .tc .vmem S1x1x11008 .i32) (harg8 : arg8.IsWhole) (arg9 : Memref sig .tc .vmem S2x11008 .f32) (harg9 : arg9.IsWhole) (arg10 : Memref sig .tc .vmem S1x4x128 .f32) (harg10 : arg10.IsWhole) (hc : ¬cond0_0 i)
    (x0 : Vec F S1x80x11008 .f32) (x1 x2 : Vec F S1x4x11008 .f32) (x3 x4 : Vec F S1x1x11008 .f32) (x5 x6 : Vec F S1x1x11008 .i32) (x7 : Vec F S2x11008 .f32) (xo : Vec F S1x4x128 .f32) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileOut i x0 x1 x2 x3 x4 x5 x6 x7 xo)) -∗ K ⟨⟩))
      ⊢ wp frame (wpE (defs₀ (F := F)) Variants.none c none) E (cc0__fcos_kernel i arg2 harg2 arg3 harg3 arg4 harg4 arg5 harg5 arg6 harg6 arg7 harg7 arg8 harg8 arg9 harg9 arg10 harg10) K := by
  -- the raw contents of each whole buffer are determined by the block it reads
  simp only [cc0__fcos_kernel_eq_skeleton]; unfold cc0__fcos_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  -- the body: the eight blocks loaded, the accumulator read and the sums added to it stored
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact H8
  ipureintro
  -- the one store covers the block: the buffer reads its payload, in which each load of a whole buffer is that
  -- buffer's block
  refine (read_store_last _ _ hz3 _ _ _).trans ?_
  sl_unfold_run_names
  simp only [View.readAt_eq_ld, harg2.read_unread, harg3.read_unread, harg4.read_unread, harg5.read_unread, harg6.read_unread,
    harg7.read_unread, harg8.read_unread, harg9.read_unread, harg10.read_unread,
    View.ld_unit_zero (S := S1x80x11008) hz3, View.ld_unit_zero (S := S1x4x11008) hz3, View.ld_unit_zero (S := S1x1x11008) hz3,
    View.ld_unit_zero (S := S2x11008) hz2, View.ld_unit_zero (S := S1x4x128) hz3]
  rfl

end Cert.KernelIdeal.Body

end
-- ==== Proof.Spec.lean ====
/-
  The mathematics shared by both sides of the FCOS-loss certificate, on single extended reals and 32-bit words
  (no program is imported here).

  One pixel of one image carries: eighty class scores, four predicted offsets, four target box edges, a centerness
  score and its target, a class label, a positive flag, and the pixel's image coordinates (the record Pix). Each of the
  four per-image quantities is a sum over the image's 21824 pixels of a per-pixel term:
    0. the focal confidence loss,  1. the IoU loss (on positives),  2. the centerness cross-entropy (on positives),
    3. the number of positives.
  The kernel and the reference spell the per-pixel terms differently (the K forms and the R forms below); the IoU and
  cross-entropy terms differ only in how a negation and a maximum are written, the focal term by a rearrangement: the
  kernel sums the "negative" term over ALL channels, scales the sum once, and corrects the labelled channel afterwards,
  which equals the reference's channel-by-channel choice when every term is a real number. The kernel walks the pixels
  in two tiles of 11008 lanes, the second overhanging the image by 192 lanes that it masks to zero, and adds tile sums
  into a zero-initialised accumulator (tile_split). The four sums of an image are combined, and the sixteen images
  averaged, by the same expression on both sides (perImg, finish).
-/
import Idealize.ShloMosaic.PureOps.Ideal
import Idealize.ShloMosaic.PureOps.Ideal.Laws
import Idealize.ShloMosaic.Lib.ValueIdx

noncomputable section

namespace Cert.Fcos

open Idealize.ShloMosaic

/-! ## The float literals both programs print, as the extended reals they denote -/

abbrev w0 : EReal := Ideal.ofBits .f32 0x00000000#32      -- 0.0
abbrev w1 : EReal := Ideal.ofBits .f32 0x3F800000#32      -- 1.0 (also the clip's upper bound: the source's 0.99999999 rounds to it)
abbrev wLo : EReal := Ideal.ofBits .f32 0x322BCC77#32     -- the clip's lower bound, about 1e-8
abbrev wHalf : EReal := Ideal.ofBits .f32 0x3F000000#32   -- 0.5
abbrev wM075 : EReal := Ideal.ofBits .f32 0xBF400000#32   -- -0.75
abbrev wM025 : EReal := Ideal.ofBits .f32 0xBE800000#32   -- -0.25
abbrev wM100 : EReal := Ideal.ofBits .f32 0xC2C80000#32   -- -100.0
abbrev w2 : EReal := Ideal.ofBits .f32 0x40000000#32      -- 2.0
abbrev w16 : EReal := Ideal.ofBits .f32 0x41800000#32     -- 16.0

/-- Channel c as the 32-bit word an iota holds there. -/
abbrev chanWord (c : Fin 80) : BitVec 32 := BitVec.ofNat 32 c.val

/-- A positive flag read as a float: the signed integer, exactly. -/
abbrev posW (st : BitVec 32) : EReal := FloatOps.sitofp (F := Ideal) .f32 st

/-- One pixel's data. -/
structure Pix where
  conf : Fin 80 → EReal
  loc : Fin 4 → EReal
  box : Fin 4 → EReal
  cen : EReal
  cent : EReal
  tag : BitVec 32
  st : BitVec 32
  xy : Fin 2 → EReal

/-! ## The clipped score (the same on both sides) -/

def clipP (x : EReal) : EReal := min w1 (max wLo x)

/-! ## The kernel's per-pixel terms (K forms), operation for operation -/

/-- p² · log(1 - p) of one clipped score. -/
def negRawK (x : EReal) : EReal := (clipP x * clipP x) * Ideal.log (w1 - clipP x)

/-- -0.75 times the sum over all channels. -/
def sumNegK (x : Fin 80 → EReal) : EReal := wM075 * ∑ c : Fin 80, negRawK (x c)

/-- "the label names a real channel": label < 80, signed. -/
def hasMatchK (tag : BitVec 32) : BitVec 1 := IntOp.cmpi .slt tag 80#32

/-- The labelled channel's clipped score (a masked sum over channels), or 0.5 when no channel is labelled. -/
def pSelK (x : Fin 80 → EReal) (tag : BitVec 32) : EReal :=
  Scalar.select (hasMatchK tag)
    (∑ c : Fin 80, Scalar.select (IntOp.cmpi .eq tag (chanWord c)) (clipP (x c)) w0) wHalf

/-- The correction on the labelled channel: its positive term minus the negative term already counted. -/
def corrK (x : Fin 80 → EReal) (tag : BitVec 32) : EReal :=
  Scalar.select (hasMatchK tag)
    ((((wM025 * (w1 - pSelK x tag)) * (w1 - pSelK x tag)) * Ideal.log (pSelK x tag))
      - ((wM075 * (pSelK x tag * pSelK x tag)) * Ideal.log (w1 - pSelK x tag))) w0

def confK (x : Fin 80 → EReal) (tag : BitVec 32) : EReal := sumNegK x + corrK x tag

/-- The overlap test of the IoU term. -/
def iouValid (cl cr ct cb sc un : EReal) : BitVec 1 :=
  IntOp.andi (IntOp.andi (IntOp.andi (Ideal.cmp .olt cl cr) (Ideal.cmp .olt ct cb)) (Ideal.cmp .ogt sc w0)) (Ideal.cmp .ogt un w0)

def iouK (px py l t r b tl tt tr tb : EReal) : EReal :=
  let pl := px - l; let pt := py - t; let pr := px + r; let pb := py + b
  let s1 := ((tb - tt) + w1) * ((tr - tl) + w1)
  let s2 := ((pb - pt) + w1) * ((pr - pl) + w1)
  let cl := max tl pl; let cr := min tr pr; let ct := max tt pt; let cb := min tb pb
  let sc := ((cr - cl) + w1) * ((cb - ct) + w1)
  let un := (s1 + s2) - sc
  Scalar.select (iouValid cl cr ct cb sc un) (w0 - Ideal.log (Scalar.select (iouValid cl cr ct cb sc un) (Ideal.div sc un) w1)) w0

def bceK (c ct : EReal) : EReal :=
  w0 - ((ct * max (Ideal.log c) wM100) + ((w1 - ct) * max (Ideal.log1p (w0 - c)) wM100))

/-- The kernel's four per-pixel terms. -/
def pixK : Fin 4 → Pix → EReal
  | 0, p => confK p.conf p.tag
  | 1, p => iouK (p.xy 0) (p.xy 1) (p.loc 0) (p.loc 1) (p.loc 2) (p.loc 3) (p.box 0) (p.box 1) (p.box 2) (p.box 3) * posW p.st
  | 2, p => bceK p.cen p.cent * posW p.st
  | 3, p => posW p.st

/-! ## The reference's per-pixel terms (R forms), operation for operation -/

def posTermR (x : EReal) : EReal := (wM025 * Ideal.pow (w1 - clipP x) w2) * Ideal.log (clipP x)
def negTermR (x : EReal) : EReal := (wM075 * Ideal.pow (clipP x) w2) * Ideal.log (w1 - clipP x)

/-- One (channel, pixel) element of the reference's focal loss. -/
def confElemR (x : EReal) (tag : BitVec 32) (c : Fin 80) : EReal :=
  Scalar.select (IntOp.cmpi .eq tag (chanWord c)) (posTermR x) (negTermR x)

def iouR (px py l t r b tl tt tr tb : EReal) : EReal :=
  let pl := px - l; let pt := py - t; let pr := px + r; let pb := py + b
  let s1 := ((tb - tt) + w1) * ((tr - tl) + w1)
  let s2 := ((pb - pt) + w1) * ((pr - pl) + w1)
  let cl := max tl pl; let cr := min tr pr; let ct := max tt pt; let cb := min tb pb
  let sc := ((cr - cl) + w1) * ((cb - ct) + w1)
  let un := (s1 + s2) - sc
  Scalar.select (iouValid cl cr ct cb sc un) (-(Ideal.log (Scalar.select (iouValid cl cr ct cb sc un) (Ideal.div sc un) w1))) w0

def bceR (c ct : EReal) : EReal :=
  -((ct * max wM100 (Ideal.log c)) + ((w1 - ct) * max wM100 (Ideal.log1p (-c))))

/-- The reference's four per-pixel terms (the focal one already summed over the channels). -/
def pixR : Fin 4 → Pix → EReal
  | 0, p => ∑ c : Fin 80, confElemR (p.conf c) p.tag c
  | 1, p => iouR (p.xy 0) (p.xy 1) (p.loc 0) (p.loc 1) (p.loc 2) (p.loc 3) (p.box 0) (p.box 1) (p.box 2) (p.box 3) * posW p.st
  | 2, p => bceR p.cen p.cent * posW p.st
  | 3, p => posW p.st

/-! ## The two spellings agree -/

/-- The zero word denotes zero. -/
private theorem w0_eq : w0 = 0 := Ideal.ofBits_zero_f32

/-- Subtracting from the zero word is negation. -/
private theorem w0_sub (y : EReal) : w0 - y = -y := by
  rw [w0_eq, sub_eq_add_neg, zero_add]

theorem iouK_eq_iouR (px py l t r b tl tt tr tb : EReal) :
    iouK px py l t r b tl tt tr tb = iouR px py l t r b tl tt tr tb := by
  simp only [iouK, iouR, w0_sub]

theorem bceK_eq_bceR (c ct : EReal) : bceK c ct = bceR c ct := by
  simp only [bceK, bceR, w0_sub, max_comm wM100]

/-! ### The focal term: every quantity is a real number -/

private theorem w1_eq : w1 = 1 := by
  show Ideal.ofBits .f32 0x3F800000#32 = 1
  simp [Ideal.ofBits, Ideal.ieee, -EReal.coe_mul]; norm_num

private theorem w1_coe : w1 = ((1 : ℝ) : EReal) := w1_eq

private theorem w2_coe : w2 = ((2 : ℝ) : EReal) := by
  show Ideal.ofBits .f32 0x40000000#32 = _
  simp [Ideal.ofBits, Ideal.ieee, -EReal.coe_mul]; norm_num

private theorem wM075_coe : wM075 = ((-(3 / 4) : ℝ) : EReal) := by
  show Ideal.ofBits .f32 0xBF400000#32 = _
  simp [Ideal.ofBits, Ideal.ieee, -EReal.coe_mul]; norm_num

private theorem wM025_coe : wM025 = ((-(1 / 4) : ℝ) : EReal) := by
  show Ideal.ofBits .f32 0xBE800000#32 = _
  simp [Ideal.ofBits, Ideal.ieee, -EReal.coe_mul]; norm_num

/-- The clip's lower bound: 11258999 · 2⁻⁵⁰, a little above 10⁻⁸. -/
private def loR : ℝ := 11258999 * (2 : ℝ) ^ (-50 : Int)

private theorem wLo_coe : wLo = ((loR : ℝ) : EReal) := by
  show Ideal.ofBits .f32 0x322BCC77#32 = _
  unfold loR
  simp [Ideal.ofBits, Ideal.ieee, -EReal.coe_mul]

private theorem loR_pos : 0 < loR := by unfold loR; positivity

private theorem loR_lt_one : loR < 1 := by unfold loR; norm_num

private theorem coe_max' (a b : ℝ) : max (a : EReal) (b : EReal) = ((max a b : ℝ) : EReal) :=
  (EReal.coe_strictMono.monotone.map_max).symm

private theorem coe_min' (a b : ℝ) : min (a : EReal) (b : EReal) = ((min a b : ℝ) : EReal) :=
  (EReal.coe_strictMono.monotone.map_min).symm

/-- The embedding of the reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a positive real is the real logarithm. -/
private theorem log_coe_pos {a : ℝ} (ha : 0 < a) : Ideal.log (a : EReal) = ((Real.log a : ℝ) : EReal) := by
  rw [Ideal.log_coe, if_neg (not_le.mpr ha)]

/-- A finite extended real below one is a real number below one. -/
private theorem exists_real {y : EReal} (h : y ≠ ⊥ ∧ y ≠ ⊤) (hlt : y < 1) : ∃ r : ℝ, y = (r : EReal) ∧ r < 1 := by
  induction y using EReal.rec with
  | bot => exact absurd rfl h.1
  | top => exact absurd rfl h.2
  | coe r => exact ⟨r, rfl, by exact_mod_cast hlt⟩

/-- The clipped score of a finite score below one is a real number strictly between zero and one. -/
private theorem clipP_real {y : EReal} (h : y ≠ ⊥ ∧ y ≠ ⊤) (hlt : y < 1) :
    ∃ p : ℝ, clipP y = (p : EReal) ∧ 0 < p ∧ p < 1 := by
  obtain ⟨r, rfl, hr⟩ := exists_real h hlt
  refine ⟨max loR r, ?_, lt_of_lt_of_le loR_pos (le_max_left _ _), max_lt loR_lt_one hr⟩
  unfold clipP
  rw [w1_coe, wLo_coe, coe_max', coe_min', min_eq_right (le_of_lt (max_lt loR_lt_one hr))]

/-- p² · log(1 - p) and (-1/4) · (1 - p)² · log p on the reals. -/
private def negR (p : ℝ) : ℝ := p * p * Real.log (1 - p)
private def posR (p : ℝ) : ℝ := (-(1 / 4) * (1 - p)) * (1 - p) * Real.log p

private theorem negRawK_coe {x : EReal} {p : ℝ} (h : clipP x = (p : EReal)) (hp1 : p < 1) :
    negRawK x = ((negR p : ℝ) : EReal) := by
  unfold negRawK negR
  rw [h, w1_coe, ← EReal.coe_sub, log_coe_pos (sub_pos.mpr hp1), ← EReal.coe_mul, ← EReal.coe_mul]

private theorem negTermR_coe {x : EReal} {p : ℝ} (h : clipP x = (p : EReal)) (hp1 : p < 1) :
    negTermR x = ((-(3 / 4) * negR p : ℝ) : EReal) := by
  unfold negTermR negR
  rw [h, w1_coe, w2_coe, wM075_coe, ← EReal.coe_sub, log_coe_pos (sub_pos.mpr hp1), Ideal.pow_coe_coe,
    Real.rpow_eq_pow, Real.rpow_two, ← EReal.coe_mul, ← EReal.coe_mul]
  exact congrArg _ (by ring)

private theorem posTermR_coe {x : EReal} {p : ℝ} (h : clipP x = (p : EReal)) (hp0 : 0 < p) :
    posTermR x = ((posR p : ℝ) : EReal) := by
  unfold posTermR posR
  rw [h, w1_coe, w2_coe, wM025_coe, ← EReal.coe_sub, log_coe_pos hp0, Ideal.pow_coe_coe,
    Real.rpow_eq_pow, Real.rpow_two, ← EReal.coe_mul, ← EReal.coe_mul]
  exact congrArg _ (by ring)

/-! ### The label's comparisons -/

/-- A label that is not negative as a signed word is its unsigned value. -/
private theorem toInt_eq_toNat {tag : BitVec 32} (htag : 0 ≤ tag.toInt) : tag.toInt = (tag.toNat : Int) := by
  rw [BitVec.toInt_eq_toNat_cond] at htag ⊢
  have := tag.isLt
  split_ifs at htag ⊢ with h
  · rfl
  · omega

/-- "label < 80" for a label that is not negative. -/
private theorem hasMatchK_eq {tag : BitVec 32} (htag : 0 ≤ tag.toInt) :
    hasMatchK tag = BitVec.ofBool (decide (tag.toNat < 80)) := by
  have h80 : (80#32 : BitVec 32).toInt = 80 := by decide
  have h : tag.slt 80#32 = decide (tag.toNat < 80) := by
    rw [Bool.eq_iff_iff, BitVec.slt_iff_toInt_lt, h80, toInt_eq_toNat htag, decide_eq_true_iff]
    omega
  simp only [hasMatchK, IntOp.cmpi, h]

/-- "label = channel c" is equality of the unsigned values. -/
private theorem chanEq (tag : BitVec 32) (c : Fin 80) :
    IntOp.cmpi .eq tag (chanWord c) = BitVec.ofBool (decide (tag.toNat = c.val)) := by
  have h : (tag == chanWord c) = decide (tag.toNat = c.val) := by
    have hc := c.isLt
    rw [Bool.eq_iff_iff, beq_iff_eq, decide_eq_true_iff, ← BitVec.toNat_inj, BitVec.toNat_ofNat,
      Nat.mod_eq_of_lt (by omega)]
  simp only [IntOp.cmpi, h]

private theorem select_ofBool {α : Type} (b : Bool) (a c : α) :
    Scalar.select (BitVec.ofBool b) a c = if b then a else c := by
  cases b
  · exact ValueIdx.select_zero a c
  · exact ValueIdx.select_one a c

/-- The focal term: with every score a real number below one and a label that is not negative, scaling the
    all-channel sum once and correcting the labelled channel is the channel-by-channel choice. (At a score of one or
    more on the labelled channel the two differ: the kernel's sum already holds an infinity there.) -/
theorem confK_eq_sum_confElemR (x : Fin 80 → EReal) (tag : BitVec 32)
    (hfin : ∀ c, x c ≠ ⊥ ∧ x c ≠ ⊤) (hlt : ∀ c, x c < 1) (htag : 0 ≤ tag.toInt) :
    confK x tag = ∑ c : Fin 80, confElemR (x c) tag c := by
  -- every clipped score is a real number p c strictly between zero and one
  choose p hp hp0 hp1 using fun c => clipP_real (hfin c) (hlt c)
  have hsum : sumNegK x = ((-(3 / 4) * ∑ c, negR (p c) : ℝ) : EReal) := by
    unfold sumNegK
    rw [Finset.sum_congr rfl fun c _ => negRawK_coe (hp c) (hp1 c), wM075_coe, ← coe_sum, ← EReal.coe_mul]
  have hR : ∀ c, confElemR (x c) tag c
      = (((if tag.toNat = c.val then posR (p c) else -(3 / 4) * negR (p c)) : ℝ) : EReal) := by
    intro c
    unfold confElemR
    rw [chanEq, select_ofBool, posTermR_coe (hp c) (hp0 c), negTermR_coe (hp c) (hp1 c)]
    by_cases h : tag.toNat = c.val
    · rw [if_pos (decide_eq_true h), if_pos h]
    · rw [if_neg (by simpa using h), if_neg h]
  rw [Finset.sum_congr rfl fun c _ => hR c, ← coe_sum]
  unfold confK
  rw [hsum]
  by_cases hm : tag.toNat < 80
  · -- the label names a channel c₀
    obtain ⟨c₀, hc₀⟩ : ∃ c₀ : Fin 80, tag.toNat = c₀.val := ⟨⟨tag.toNat, hm⟩, rfl⟩
    have hcond : ∀ c : Fin 80, tag.toNat = c.val ↔ c = c₀ :=
      fun c => ⟨fun h => Fin.ext (h.symm.trans hc₀), fun h => h ▸ hc₀⟩
    -- the masked sum over the channels picks p c₀
    have hsel : pSelK x tag = ((p c₀ : ℝ) : EReal) := by
      unfold pSelK
      rw [hasMatchK_eq htag, select_ofBool, if_pos (decide_eq_true hm), Finset.sum_eq_single c₀]
      · rw [chanEq, select_ofBool, if_pos (decide_eq_true hc₀), hp]
      · intro c _ hc
        rw [chanEq, select_ofBool, if_neg (by simpa using fun h => hc ((hcond c).mp h)), w0_eq]
      · intro h; exact absurd (Finset.mem_univ _) h
    have hcorr : corrK x tag = ((posR (p c₀) - -(3 / 4) * negR (p c₀) : ℝ) : EReal) := by
      unfold corrK
      rw [hasMatchK_eq htag, select_ofBool, if_pos (decide_eq_true hm), hsel, w1_coe, wM025_coe, wM075_coe,
        ← EReal.coe_sub, log_coe_pos (hp0 c₀), log_coe_pos (sub_pos.mpr (hp1 c₀))]
      simp only [← EReal.coe_mul, ← EReal.coe_sub]
      unfold posR negR
      exact congrArg _ (by ring)
    rw [hcorr, ← EReal.coe_add]
    refine congrArg _ ?_
    -- on the reals: each channel's term is its negative term plus, on c₀ only, the correction
    have hsplit : ∀ c : Fin 80, (if tag.toNat = c.val then posR (p c) else -(3 / 4) * negR (p c))
        = -(3 / 4) * negR (p c) + (if c = c₀ then posR (p c₀) - -(3 / 4) * negR (p c₀) else 0) := by
      intro c
      by_cases h : c = c₀
      · rw [if_pos ((hcond c).mpr h), if_pos h, h]; ring
      · rw [if_neg (fun h' => h ((hcond c).mp h')), if_neg h, add_zero]
    rw [Finset.sum_congr rfl fun c _ => hsplit c, Finset.sum_add_distrib, Finset.sum_ite_eq',
      if_pos (Finset.mem_univ _), Finset.mul_sum]
  · -- no channel is labelled: the correction is zero
    have hcorr : corrK x tag = 0 := by
      unfold corrK
      rw [hasMatchK_eq htag, select_ofBool, if_neg (by simpa using hm), w0_eq]
    rw [hcorr, add_zero]
    refine congrArg _ ?_
    rw [Finset.mul_sum]
    refine Finset.sum_congr rfl fun c _ => ?_
    rw [if_neg]
    intro h
    exact hm (h ▸ c.isLt)

/-- A pixel whose scores are real numbers below one and whose label is not negative has the same four terms on both sides. -/
theorem pixK_eq_pixR (r : Fin 4) (p : Pix) (hfin : ∀ c, p.conf c ≠ ⊥ ∧ p.conf c ≠ ⊤) (hlt : ∀ c, p.conf c < 1)
    (htag : 0 ≤ p.tag.toInt) : pixK r p = pixR r p := by
  match r with
  | 0 => exact confK_eq_sum_confElemR p.conf p.tag hfin hlt htag
  | 1 => show iouK _ _ _ _ _ _ _ _ _ _ * _ = iouR _ _ _ _ _ _ _ _ _ _ * _; rw [iouK_eq_iouR]
  | 2 => show bceK _ _ * _ = bceR _ _ * _; rw [bceK_eq_bceR]
  | 3 => rfl

/-! ## Two tiles of 11008 lanes cover 21824 pixels -/

/-- Tile p's sum of a per-pixel term: the lanes past pixel 21824 contribute the zero word. -/
def tileSum (f : Fin 21824 → EReal) (p : Nat) : EReal :=
  ∑ l : Fin 11008, if h : p * 11008 + l.val < 21824 then f ⟨p * 11008 + l.val, h⟩ else w0

/-- A per-pixel term continued by zero past the last pixel. -/
private def padded (f : Fin 21824 → EReal) (n : Nat) : EReal := if h : n < 21824 then f ⟨n, h⟩ else 0

/-- Tile p's sum is the sum of the continued term over the tile's 11008 lane positions. -/
private theorem tileSum_eq_range (f : Fin 21824 → EReal) (p : Nat) :
    tileSum f p = ∑ i ∈ Finset.range 11008, padded f (p * 11008 + i) := by
  rw [← Fin.sum_univ_eq_sum_range (fun i => padded f (p * 11008 + i)) 11008]
  unfold tileSum padded
  refine Finset.sum_congr rfl fun l _ => ?_
  by_cases h : p * 11008 + l.val < 21824
  · rw [dif_pos h, dif_pos h]
  · rw [dif_neg h, dif_neg h, w0_eq]

/-- The sum over all pixels is the sum of the continued term over the first 21824 positions. -/
private theorem sum_eq_range (f : Fin 21824 → EReal) : ∑ j : Fin 21824, f j = ∑ i ∈ Finset.range 21824, padded f i := by
  rw [← Fin.sum_univ_eq_sum_range (fun i => padded f i) 21824]
  refine Finset.sum_congr rfl fun j _ => ?_
  unfold padded
  rw [dif_pos j.isLt]

/-- The accumulator's value after both tiles is the host's sum from zero over all pixels. -/
theorem tile_split (f : Fin 21824 → EReal) : (w0 + tileSum f 0) + tileSum f 1 = w0 + ∑ j : Fin 21824, f j := by
  rw [tileSum_eq_range, tileSum_eq_range, sum_eq_range, add_assoc]
  refine congrArg (fun s => w0 + s) ?_
  -- the two tiles' 11008 + 11008 positions are the 21824 pixels followed by 192 positions holding zero
  have h2 : ∑ i ∈ Finset.range (21824 + 192), padded f i
      = ∑ i ∈ Finset.range 21824, padded f i + ∑ i ∈ Finset.range 192, padded f (21824 + i) :=
    Finset.sum_range_add (padded f) 21824 192
  have h3 : ∑ i ∈ Finset.range 192, padded f (21824 + i) = 0 := by
    refine Finset.sum_eq_zero fun i _ => ?_
    unfold padded
    rw [dif_neg (by omega)]
  have h1 : ∑ i ∈ Finset.range (11008 + 11008), padded f i
      = ∑ i ∈ Finset.range 11008, padded f i + ∑ i ∈ Finset.range 11008, padded f (11008 + i) :=
    Finset.sum_range_add (padded f) 11008 11008
  have e0 : ∀ i, padded f (0 * 11008 + i) = padded f i := fun i => by rw [Nat.zero_mul, Nat.zero_add]
  have e1 : ∀ i, padded f (1 * 11008 + i) = padded f (11008 + i) := fun i => by rw [Nat.one_mul]
  simp only [e0, e1]
  rw [← h1, show 11008 + 11008 = 21824 + 192 from rfl, h2, h3, add_zero]

/-! ## From the four sums of each image to the loss -/

def perImg (lc ll lcen pos : EReal) : EReal :=
  Scalar.select (Ideal.cmp .ogt pos w0) (lcen + Ideal.div (lc + ll) (max pos w1)) ((lcen + lc) + ll)

def finish (lc ll lcen pos : Fin 16 → EReal) : EReal :=
  Ideal.div (w0 + ∑ b : Fin 16, perImg (lc b) (ll b) (lcen b) (pos b)) w16

/-! ## A pixel's data out of the eight argument arrays -/

/-- Pixel j of image b, read off the argument arrays (scores [16, 80, 21824], offsets [16, 4, 21824], centerness
    [16, 21824], target boxes [16, 21824, 4], centerness targets [16, 21824], pixel coordinates [21824, 2], labels
    and positive flags [16, 21824]). -/
def argPix (confs : (⟨3, ![16, 80, 21824]⟩ : Shape).Idx → EReal) (locs : (⟨3, ![16, 4, 21824]⟩ : Shape).Idx → EReal)
    (centers : (⟨2, ![16, 21824]⟩ : Shape).Idx → EReal) (tagbox : (⟨3, ![16, 21824, 4]⟩ : Shape).Idx → EReal)
    (centert : (⟨2, ![16, 21824]⟩ : Shape).Idx → EReal) (pixel : (⟨2, ![21824, 2]⟩ : Shape).Idx → EReal)
    (tag st : (⟨2, ![16, 21824]⟩ : Shape).Idx → BitVec 32) (b : Fin 16) (j : Fin 21824) : Pix where
  conf c := confs (ValueIdx.ix3 b c j)
  loc k := locs (ValueIdx.ix3 b k j)
  box k := tagbox (ValueIdx.ix3 b j k)
  cen := centers (ValueIdx.ix2 b j)
  cent := centert (ValueIdx.ix2 b j)
  tag := tag (ValueIdx.ix2 b j)
  st := st (ValueIdx.ix2 b j)
  xy k := pixel (ValueIdx.ix2 j k)

/-- What the kernel's accumulator row r of image b holds after both tiles, -/
def accK (pix : Fin 16 → Fin 21824 → Pix) (r : Fin 4) (b : Fin 16) : EReal :=
  (w0 + tileSum (fun j => pixK r (pix b j)) 0) + tileSum (fun j => pixK r (pix b j)) 1

/-- and the reference's sum of the same quantity from zero. -/
def sumR (pix : Fin 16 → Fin 21824 → Pix) (r : Fin 4) (b : Fin 16) : EReal :=
  w0 + ∑ j : Fin 21824, pixR r (pix b j)

/-- With every score a real number below one and no negative label, the kernel's loss is the reference's. -/
theorem finish_accK_eq_finish_sumR (pix : Fin 16 → Fin 21824 → Pix)
    (hfin : ∀ b j c, (pix b j).conf c ≠ ⊥ ∧ (pix b j).conf c ≠ ⊤) (hlt : ∀ b j c, (pix b j).conf c < 1)
    (htag : ∀ b j, 0 ≤ (pix b j).tag.toInt) :
    finish (accK pix 0) (accK pix 1) (accK pix 2) (accK pix 3) = finish (sumR pix 0) (sumR pix 1) (sumR pix 2) (sumR pix 3) := by
  have h : ∀ r, accK pix r = sumR pix r := fun r => funext fun b => by
    unfold accK sumR
    rw [tile_split]
    refine congrArg (fun s => w0 + s) ?_
    exact Finset.sum_congr rfl fun j _ => pixK_eq_pixR r (pix b j) (hfin b j) (hlt b j) (htag b j)
  rw [h 0, h 1, h 2, h 3]

end Cert.Fcos

end
-- ==== Proof.KI.TileValue.lean ====
/-
  One grid point of the FCOS kernel, read at an index: row r, lane q of the accumulator block it leaves is what the
  block held plus the tile's sum, over the lanes that are pixels of the image, of the r-th per-pixel term (the focal
  confidence loss, the IoU loss, the centerness cross-entropy, the positive flag), each term that of Spec.lean's K forms
  at the pixel whose data sit on that lane of the eight input blocks.

  The road: lane l of tile p is a pixel exactly when p * 11008 + l < 21824 (valid_iff: the kernel's comparison of 32-bit
  words, far from wrapping); on such a lane the masked reads are the blocks' own entries, and each payload read at the
  lane is the matching K form by unfolding; a sum over the eighty channels at a lane and a sum over the 11008 lanes are
  Fin-indexed sums (chanSum_apply, laneSum_apply); off the image a lane contributes the zero word. The four sums are
  then stacked as rows, spread along 128 lanes and added to the block found (tileOut_apply).
-/
import proofs.«401425_j62740882260765_3_alg».proof.Proof.KI.Tile
import proofs.«401425_j62740882260765_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Cert.KernelIdeal Cert.KernelIdeal.Gen Cert.KernelIdeal.Tile Idealize.ShloMosaic Idealize.ShloMosaic.ValueIdx
open scoped BigOperators

theorem valid_iff (i : grid0.Coords) (l : Fin 11008) :
    k0_pay10 i (ix2 0 l) = 1#1 ↔ (i 1).val * 11008 + l.val < 21824 := by
  have hp : (i 1).val < 2 := (i 1).isLt
  unfold k0_pay10
  show IntOp.cmpi .slt (IntOp.addi (Scalar.muli (BitVec.ofNat 32 (i 1).val) 11008#32) (iota .tc S1x11008 32 [1] iota_S1x11008_d1_w32 (ix2 0 l))) 21824#32 = 1#1 ↔ _
  rw [iota_single_apply]
  show BitVec.ofBool (BitVec.slt (BitVec.ofNat 32 (i 1).val * 11008#32 + BitVec.ofNat 32 l.val) 21824#32) = 1#1 ↔ _
  generalize (i 1).val = p at hp ⊢
  have hl := l.isLt
  have key : BitVec.ofNat 32 p * 11008#32 + BitVec.ofNat 32 l.val = BitVec.ofNat 32 (p * 11008 + l.val) := by
    rw [BitVec.ofNat_add, BitVec.ofNat_mul]
  have hmod : (p * 11008 + l.val) % 2 ^ 32 = p * 11008 + l.val := Nat.mod_eq_of_lt (by omega)
  have hx : (BitVec.ofNat 32 (p * 11008 + l.val)).toInt = ((p * 11008 + l.val : Nat) : Int) := by
    rw [BitVec.toInt_eq_toNat_cond, BitVec.toNat_ofNat, hmod]
    rw [if_pos (by omega)]
  have hy : (21824#32 : BitVec 32).toInt = 21824 := by decide
  rw [key, BitVec.slt, hx, hy]
  constructor
  · intro h
    by_contra hn
    rw [decide_eq_false (by omega)] at h
    exact absurd h (by decide)
  · intro h
    rw [decide_eq_true (by omega)]
    rfl

/-! ## The input blocks read at a lane -/

theorem pay3_apply (x0 : Vec Ideal S1x80x11008 .f32) (c : Fin 80) (l : Fin 11008) :
    k0_pay3 x0 (ix2 c l) = x0 (ix3 0 c l) :=
  shapeCast_1ab_ab_apply x0 shapeCasts_S1x80x11008_S80x11008 c l

theorem pay4_apply (x1 : Vec Ideal S1x4x11008 .f32) (k : Fin 4) (l : Fin 11008) :
    k0_pay4 x1 (ix2 k l) = x1 (ix3 0 k l) :=
  shapeCast_1ab_ab_apply x1 shapeCasts_S1x4x11008_S4x11008 k l

theorem pay5_apply (x2 : Vec Ideal S1x4x11008 .f32) (k : Fin 4) (l : Fin 11008) :
    k0_pay5 x2 (ix2 k l) = x2 (ix3 0 k l) :=
  shapeCast_1ab_ab_apply x2 shapeCasts_S1x4x11008_S4x11008 k l

theorem pay6_apply (x3 : Vec Ideal S1x1x11008 .f32) (l : Fin 11008) :
    k0_pay6 x3 (ix2 0 l) = x3 (ix3 0 0 l) :=
  shapeCast_1ab_ab_apply x3 shapeCasts_S1x1x11008_S1x11008 0 l

theorem pay7_apply (x4 : Vec Ideal S1x1x11008 .f32) (l : Fin 11008) :
    k0_pay7 x4 (ix2 0 l) = x4 (ix3 0 0 l) :=
  shapeCast_1ab_ab_apply x4 shapeCasts_S1x1x11008_S1x11008 0 l

theorem pay8_apply (x6 : Vec Ideal S1x1x11008 .i32) (l : Fin 11008) :
    k0_pay8 (F := Ideal) x6 (ix2 0 l) = x6 (ix3 0 0 l) :=
  shapeCast_1ab_ab_apply x6 shapeCasts_S1x1x11008_S1x11008 0 l

theorem pay9_eq (x7 : Vec Ideal S2x11008 .f32) : k0_pay9 x7 = x7 :=
  shapeCast_self x7 shapeCasts_S2x11008_S2x11008

/-- On a lane that is a pixel the label read is the block's own. -/
theorem pay11_apply_valid (i : grid0.Coords) (x5 : Vec Ideal S1x1x11008 .i32) (l : Fin 11008)
    (h : (i 1).val * 11008 + l.val < 21824) : k0_pay11 (F := Ideal) i x5 (ix2 0 l) = x5 (ix3 0 0 l) := by
  unfold k0_pay11
  show Scalar.select (k0_pay10 i (ix2 0 l)) (shapeCast S1x11008 x5 shapeCasts_S1x1x11008_S1x11008 (ix2 0 l)) 80#32 = _
  rw [(valid_iff i l).2 h, select_one]
  exact shapeCast_1ab_ab_apply x5 shapeCasts_S1x1x11008_S1x11008 0 l

/-! ## The two reductions: over the channels at a lane, over the lanes -/

theorem lift_chan (h : S80x11008.Reduces [0] S11008) (l : Fin 11008) (c : Fin 80) :
    h.lift (ix1 l) c = ix2 c l := by
  funext a
  match a with
  | ⟨0, _⟩ => exact Fin.ext rfl
  | ⟨1, _⟩ => exact Fin.ext rfl

theorem lift_lane (h : S1x11008.Reduces [1] S1) (l : Fin 11008) :
    h.lift (ix1 (0 : Fin 1)) l = ix2 (0 : Fin 1) l := by
  funext a
  match a with
  | ⟨0, _⟩ => exact Fin.ext rfl
  | ⟨1, _⟩ => exact Fin.ext rfl

/-- The sum over the eighty channels, read at a lane. -/
theorem chanSum_apply (v : FVec Ideal S80x11008 .f32) (hφ : FKind.Formats .f32)
    (hacc : (0x00000000#32 : BitVec 32) = FKind.add.neutral .f32 hφ) (l : Fin 11008) :
    shapeCast S1x11008 (multiReduction .add [0] S11008 v 0x00000000#32 reduces_S80x11008_S11008 hφ hacc)
        shapeCasts_S11008_S1x11008 (ix2 0 l) = ∑ c : Fin 80, v (ix2 c l) := by
  refine (shapeCast_a_1a_apply _ shapeCasts_S11008_S1x11008 0 l).trans ?_
  refine (Ideal.multiReduction_add_single v _ reduces_S80x11008_S11008 hφ hacc (ix1 l)).trans ?_
  exact Finset.sum_congr rfl fun c _ => congrArg v (lift_chan _ l c)

/-- The sum over the tile's lanes, read at its one index. -/
theorem laneSum_apply (v : FVec Ideal S1x11008 .f32) (hφ : FKind.Formats .f32)
    (hacc : (0x00000000#32 : BitVec 32) = FKind.add.neutral .f32 hφ) :
    shapeCast S1x1 (multiReduction .add [1] S1 v 0x00000000#32 reduces_S1x11008_S1 hφ hacc)
        shapeCasts_S1_S1x1 (ix2 0 0) = ∑ l : Fin 11008, v (ix2 0 l) := by
  refine (shapeCast_a_1a_apply _ shapeCasts_S1_S1x1 0 0).trans ?_
  refine (Ideal.multiReduction_add_single v _ reduces_S1x11008_S1 hφ hacc (ix1 0)).trans ?_
  exact Finset.sum_congr rfl fun l _ => congrArg v (lift_lane _ l)

/-! ## The focal term at a lane -/

open Cert.Fcos in
theorem pay16_apply (v4 : FVec Ideal S80x11008 .f32) (c : Fin 80) (l : Fin 11008) :
    k0_pay16 v4 (ix2 c l) = clipP (v4 (ix2 c l)) := rfl

open Cert.Fcos in
theorem pay17_apply (v4 : FVec Ideal S80x11008 .f32) (l : Fin 11008) :
    k0_pay17 v4 (ix2 0 l) = sumNegK (fun c => v4 (ix2 c l)) := by
  unfold k0_pay17 sumNegK
  exact congrArg (fun s => wM075 * s) ((chanSum_apply _ _ _ l).trans (Finset.sum_congr rfl fun c _ => rfl))

open Cert.Fcos in
theorem pay18_apply (v26 : IVec S1x11008 32) (l : Fin 11008) :
    k0_pay18 v26 (ix2 0 l) = hasMatchK (v26 (ix2 0 l)) := rfl

open Cert.Fcos in
theorem pay19_apply (v4 : FVec Ideal S80x11008 .f32) (v26 : IVec S1x11008 32) (l : Fin 11008) :
    k0_pay19 v4 v26 (ix2 0 l) = pSelK (fun c => v4 (ix2 c l)) (v26 (ix2 0 l)) := by
  unfold k0_pay19 pSelK
  refine congrArg (fun s => Scalar.select (hasMatchK (v26 (ix2 0 l))) s wHalf) ?_
  refine (chanSum_apply _ _ _ l).trans (Finset.sum_congr rfl fun c _ => ?_)
  show Scalar.select (IntOp.cmpi .eq (broadcastTo S80x11008 v26 broadcasts_S1x11008_S80x11008 (ix2 c l))
      (iota .tc S80x11008 32 [0] iota_S80x11008_d0_w32 (ix2 c l))) (clipP (v4 (ix2 c l))) w0 = _
  rw [broadcastTo_1b_ab_apply, iota_single_apply]

open Cert.Fcos in
/-- The focal term of a lane, from the lane's scores and the label word the lane carries. -/
theorem confLane (v4 : FVec Ideal S80x11008 .f32) (v26 : IVec S1x11008 32) (l : Fin 11008) :
    k0_pay17 v4 (ix2 0 l) + Scalar.select (k0_pay18 v26 (ix2 0 l))
        (k0_pay20 v4 v26 (ix2 0 l) - k0_pay21 v4 v26 (ix2 0 l) * Ideal.log (k0_pay22 v4 v26 (ix2 0 l))) w0
      = confK (fun c => v4 (ix2 c l)) (v26 (ix2 0 l)) := by
  rw [pay17_apply, pay18_apply]
  show _ + Scalar.select _
      ((((wM025 * (w1 - k0_pay19 v4 v26 (ix2 0 l))) * (w1 - k0_pay19 v4 v26 (ix2 0 l))) * Ideal.log (k0_pay19 v4 v26 (ix2 0 l)))
        - ((wM075 * (k0_pay19 v4 v26 (ix2 0 l) * k0_pay19 v4 v26 (ix2 0 l))) * Ideal.log (w1 - k0_pay19 v4 v26 (ix2 0 l)))) w0 = _
  rw [pay19_apply]
  rfl

open Cert.Fcos in
/-- The tile's focal-loss sum. -/
theorem confSum_apply (i : grid0.Coords) (x0 : Vec Ideal S1x80x11008 .f32) (x5 : Vec Ideal S1x1x11008 .i32) :
    confSum (F := Ideal) i x0 x5 (ix2 0 0)
      = ∑ l : Fin 11008, if (i 1).val * 11008 + l.val < 21824
          then confK (fun c => x0 (ix3 0 c l)) (x5 (ix3 0 0 l)) else w0 := by
  unfold confSum k0_pay43
  refine (congrFun (shapeCast_self _ shapeCasts_S1x1_S1x1) (ix2 0 0)).trans ?_
  unfold k0_pay23
  refine (laneSum_apply _ _ _).trans (Finset.sum_congr rfl fun l _ => ?_)
  show Scalar.select (k0_pay10 i (ix2 0 l))
      (k0_pay17 (k0_pay3 x0) (ix2 0 l) + Scalar.select (k0_pay18 (k0_pay11 (F := Ideal) i x5) (ix2 0 l))
        (k0_pay20 (k0_pay3 x0) (k0_pay11 (F := Ideal) i x5) (ix2 0 l)
          - k0_pay21 (k0_pay3 x0) (k0_pay11 (F := Ideal) i x5) (ix2 0 l)
            * Ideal.log (k0_pay22 (k0_pay3 x0) (k0_pay11 (F := Ideal) i x5) (ix2 0 l))) w0) w0 = _
  by_cases h : (i 1).val * 11008 + l.val < 21824
  · rw [if_pos h, (valid_iff i l).2 h, select_one, confLane, pay11_apply_valid i x5 l h]
    exact congrArg (fun f => confK f (x5 (ix3 0 0 l))) (funext fun c => pay3_apply x0 c l)
  · rw [if_neg h, eq_zero_of_ne_one (fun hm => h ((valid_iff i l).1 hm)), select_zero]

/-! ## The positive flag at a lane, and the count of positives -/

open Cert.Fcos in
theorem posBlock_apply (i : grid0.Coords) (x6 : Vec Ideal S1x1x11008 .i32) (l : Fin 11008) :
    posBlock (F := Ideal) i x6 (ix2 0 l)
      = if (i 1).val * 11008 + l.val < 21824 then posW (x6 (ix3 0 0 l)) else w0 := by
  unfold posBlock k0_pay15
  show Scalar.select (k0_pay10 i (ix2 0 l)) (posW (k0_pay8 (F := Ideal) x6 (ix2 0 l))) w0 = _
  by_cases h : (i 1).val * 11008 + l.val < 21824
  · rw [if_pos h, (valid_iff i l).2 h, select_one, pay8_apply]
  · rw [if_neg h, eq_zero_of_ne_one (fun hm => h ((valid_iff i l).1 hm)), select_zero]

open Cert.Fcos in
/-- The tile's count of positives. -/
theorem posSum_apply (i : grid0.Coords) (x6 : Vec Ideal S1x1x11008 .i32) :
    posSum (F := Ideal) i x6 (ix2 0 0)
      = ∑ l : Fin 11008, if (i 1).val * 11008 + l.val < 21824 then posW (x6 (ix3 0 0 l)) else w0 := by
  unfold posSum k0_pay42
  exact (laneSum_apply _ _ _).trans (Finset.sum_congr rfl fun l _ => posBlock_apply i x6 l)

/-! ## The centerness cross-entropy -/

open Cert.Fcos in
/-- The tile's cross-entropy sum. -/
theorem bceSum_apply (i : grid0.Coords) (x3 x4 : Vec Ideal S1x1x11008 .f32) (x6 : Vec Ideal S1x1x11008 .i32) :
    bceSum (F := Ideal) i x3 x4 x6 (ix2 0 0)
      = ∑ l : Fin 11008, if (i 1).val * 11008 + l.val < 21824
          then bceK (x3 (ix3 0 0 l)) (x4 (ix3 0 0 l)) * posW (x6 (ix3 0 0 l)) else w0 := by
  unfold bceSum k0_pay41
  refine (laneSum_apply _ _ _).trans (Finset.sum_congr rfl fun l _ => ?_)
  show Scalar.select (k0_pay10 i (ix2 0 l))
      (bceK (Scalar.select (k0_pay10 i (ix2 0 l)) (k0_pay6 x3 (ix2 0 l)) wHalf)
          (Scalar.select (k0_pay10 i (ix2 0 l)) (k0_pay7 x4 (ix2 0 l)) w0)
        * posBlock (F := Ideal) i x6 (ix2 0 l)) w0 = _
  rw [posBlock_apply]
  by_cases h : (i 1).val * 11008 + l.val < 21824
  · rw [if_pos h, if_pos h, (valid_iff i l).2 h, select_one, select_one, select_one, pay6_apply, pay7_apply]
  · rw [if_neg h, if_neg h, eq_zero_of_ne_one (fun hm => h ((valid_iff i l).1 hm)), select_zero]

/-! ## The IoU term at a lane -/

theorem pay24_apply (v18 : FVec Ideal S2x11008 .f32) (l : Fin 11008) : k0_pay24 v18 (ix2 0 l) = v18 (ix2 0 l) :=
  slice2_axis0_apply 0 v18 slices_S2x11008_o0_0_S1x11008 0 l 0 rfl
theorem pay25_apply (v18 : FVec Ideal S2x11008 .f32) (l : Fin 11008) : k0_pay25 v18 (ix2 0 l) = v18 (ix2 1 l) :=
  slice2_axis0_apply 1 v18 slices_S2x11008_o1_0_S1x11008 0 l 1 rfl
theorem pay30_apply (v8 : FVec Ideal S4x11008 .f32) (l : Fin 11008) : k0_pay30 v8 (ix2 0 l) = v8 (ix2 0 l) :=
  slice2_axis0_apply 0 v8 slices_S4x11008_o0_0_S1x11008 0 l 0 rfl
theorem pay31_apply (v8 : FVec Ideal S4x11008 .f32) (l : Fin 11008) : k0_pay31 v8 (ix2 0 l) = v8 (ix2 1 l) :=
  slice2_axis0_apply 1 v8 slices_S4x11008_o1_0_S1x11008 0 l 1 rfl
theorem pay32_apply (v8 : FVec Ideal S4x11008 .f32) (l : Fin 11008) : k0_pay32 v8 (ix2 0 l) = v8 (ix2 2 l) :=
  slice2_axis0_apply 2 v8 slices_S4x11008_o2_0_S1x11008 0 l 2 rfl
theorem pay33_apply (v8 : FVec Ideal S4x11008 .f32) (l : Fin 11008) : k0_pay33 v8 (ix2 0 l) = v8 (ix2 3 l) :=
  slice2_axis0_apply 3 v8 slices_S4x11008_o3_0_S1x11008 0 l 3 rfl

theorem pay26_apply (v6 : FVec Ideal S4x11008 .f32) (v18 : FVec Ideal S2x11008 .f32) (l : Fin 11008) :
    k0_pay26 v6 v18 (ix2 0 l) = v18 (ix2 0 l) - v6 (ix2 0 l) :=
  congrArg₂ (fun a b : EReal => a - b) (pay24_apply v18 l) (slice2_axis0_apply 0 v6 slices_S4x11008_o0_0_S1x11008 0 l 0 rfl)
theorem pay27_apply (v6 : FVec Ideal S4x11008 .f32) (v18 : FVec Ideal S2x11008 .f32) (l : Fin 11008) :
    k0_pay27 v6 v18 (ix2 0 l) = v18 (ix2 1 l) - v6 (ix2 1 l) :=
  congrArg₂ (fun a b : EReal => a - b) (pay25_apply v18 l) (slice2_axis0_apply 1 v6 slices_S4x11008_o1_0_S1x11008 0 l 1 rfl)
theorem pay28_apply (v6 : FVec Ideal S4x11008 .f32) (v18 : FVec Ideal S2x11008 .f32) (l : Fin 11008) :
    k0_pay28 v6 v18 (ix2 0 l) = v18 (ix2 0 l) + v6 (ix2 2 l) :=
  congrArg₂ (fun a b : EReal => a + b) (pay24_apply v18 l) (slice2_axis0_apply 2 v6 slices_S4x11008_o2_0_S1x11008 0 l 2 rfl)
theorem pay29_apply (v6 : FVec Ideal S4x11008 .f32) (v18 : FVec Ideal S2x11008 .f32) (l : Fin 11008) :
    k0_pay29 v6 v18 (ix2 0 l) = v18 (ix2 1 l) + v6 (ix2 3 l) :=
  congrArg₂ (fun a b : EReal => a + b) (pay25_apply v18 l) (slice2_axis0_apply 3 v6 slices_S4x11008_o3_0_S1x11008 0 l 3 rfl)

theorem pay34_apply (v6 v8 : FVec Ideal S4x11008 .f32) (v18 : FVec Ideal S2x11008 .f32) (l : Fin 11008) :
    k0_pay34 v6 v8 v18 (ix2 0 l) = max (v8 (ix2 0 l)) (v18 (ix2 0 l) - v6 (ix2 0 l)) :=
  congrArg₂ (fun a b : EReal => max a b) (pay30_apply v8 l) (pay26_apply v6 v18 l)
theorem pay35_apply (v6 v8 : FVec Ideal S4x11008 .f32) (v18 : FVec Ideal S2x11008 .f32) (l : Fin 11008) :
    k0_pay35 v6 v8 v18 (ix2 0 l) = min (v8 (ix2 2 l)) (v18 (ix2 0 l) + v6 (ix2 2 l)) :=
  congrArg₂ (fun a b : EReal => min a b) (pay32_apply v8 l) (pay28_apply v6 v18 l)
theorem pay36_apply (v6 v8 : FVec Ideal S4x11008 .f32) (v18 : FVec Ideal S2x11008 .f32) (l : Fin 11008) :
    k0_pay36 v6 v8 v18 (ix2 0 l) = max (v8 (ix2 1 l)) (v18 (ix2 1 l) - v6 (ix2 1 l)) :=
  congrArg₂ (fun a b : EReal => max a b) (pay31_apply v8 l) (pay27_apply v6 v18 l)
theorem pay37_apply (v6 v8 : FVec Ideal S4x11008 .f32) (v18 : FVec Ideal S2x11008 .f32) (l : Fin 11008) :
    k0_pay37 v6 v8 v18 (ix2 0 l) = min (v8 (ix2 3 l)) (v18 (ix2 1 l) + v6 (ix2 3 l)) :=
  congrArg₂ (fun a b : EReal => min a b) (pay33_apply v8 l) (pay29_apply v6 v18 l)

open Cert.Fcos in
theorem pay38_apply (v6 v8 : FVec Ideal S4x11008 .f32) (v18 : FVec Ideal S2x11008 .f32) (l : Fin 11008) :
    k0_pay38 v6 v8 v18 (ix2 0 l)
      = ((k0_pay35 v6 v8 v18 (ix2 0 l) - k0_pay34 v6 v8 v18 (ix2 0 l)) + w1)
        * ((k0_pay37 v6 v8 v18 (ix2 0 l) - k0_pay36 v6 v8 v18 (ix2 0 l)) + w1) := rfl

open Cert.Fcos in
theorem pay39_apply (v6 v8 : FVec Ideal S4x11008 .f32) (v18 : FVec Ideal S2x11008 .f32) (l : Fin 11008) :
    k0_pay39 v6 v8 v18 (ix2 0 l)
      = ((((k0_pay33 v8 (ix2 0 l) - k0_pay31 v8 (ix2 0 l)) + w1) * ((k0_pay32 v8 (ix2 0 l) - k0_pay30 v8 (ix2 0 l)) + w1))
          + (((k0_pay29 v6 v18 (ix2 0 l) - k0_pay27 v6 v18 (ix2 0 l)) + w1)
            * ((k0_pay28 v6 v18 (ix2 0 l) - k0_pay26 v6 v18 (ix2 0 l)) + w1)))
        - k0_pay38 v6 v8 v18 (ix2 0 l) := rfl

open Cert.Fcos in
/-- The IoU term of a lane, from the lane's pixel coordinates, offsets and target box. -/
theorem iouLane (v6 v8 : FVec Ideal S4x11008 .f32) (v18 : FVec Ideal S2x11008 .f32) (l : Fin 11008) :
    Scalar.select
        (iouValid (k0_pay34 v6 v8 v18 (ix2 0 l)) (k0_pay35 v6 v8 v18 (ix2 0 l)) (k0_pay36 v6 v8 v18 (ix2 0 l))
          (k0_pay37 v6 v8 v18 (ix2 0 l)) (k0_pay38 v6 v8 v18 (ix2 0 l)) (k0_pay39 v6 v8 v18 (ix2 0 l)))
        (w0 - Ideal.log (Scalar.select
          (iouValid (k0_pay34 v6 v8 v18 (ix2 0 l)) (k0_pay35 v6 v8 v18 (ix2 0 l)) (k0_pay36 v6 v8 v18 (ix2 0 l))
            (k0_pay37 v6 v8 v18 (ix2 0 l)) (k0_pay38 v6 v8 v18 (ix2 0 l)) (k0_pay39 v6 v8 v18 (ix2 0 l)))
          (Ideal.div (k0_pay38 v6 v8 v18 (ix2 0 l)) (k0_pay39 v6 v8 v18 (ix2 0 l))) w1)) w0
      = iouK (v18 (ix2 0 l)) (v18 (ix2 1 l)) (v6 (ix2 0 l)) (v6 (ix2 1 l)) (v6 (ix2 2 l)) (v6 (ix2 3 l))
          (v8 (ix2 0 l)) (v8 (ix2 1 l)) (v8 (ix2 2 l)) (v8 (ix2 3 l)) := by
  rw [pay39_apply, pay38_apply, pay34_apply, pay35_apply, pay36_apply, pay37_apply, pay26_apply, pay27_apply, pay28_apply,
    pay29_apply, pay30_apply, pay31_apply, pay32_apply, pay33_apply]
  rfl

open Cert.Fcos in
theorem pay40_apply (v24 : IVec S1x11008 1) (v33 v110 v111 v112 v113 v120 v122 : FVec Ideal S1x11008 .f32) :
    k0_pay40 v24 v33 v110 v111 v112 v113 v120 v122 (ix2 0 0)
      = ∑ l : Fin 11008, Scalar.select (v24 (ix2 0 l))
          (Scalar.select
              (iouValid (v110 (ix2 0 l)) (v111 (ix2 0 l)) (v112 (ix2 0 l)) (v113 (ix2 0 l)) (v120 (ix2 0 l)) (v122 (ix2 0 l)))
              (w0 - Ideal.log (Scalar.select
                (iouValid (v110 (ix2 0 l)) (v111 (ix2 0 l)) (v112 (ix2 0 l)) (v113 (ix2 0 l)) (v120 (ix2 0 l)) (v122 (ix2 0 l)))
                (Ideal.div (v120 (ix2 0 l)) (v122 (ix2 0 l))) w1)) w0
            * v33 (ix2 0 l)) w0 := by
  unfold k0_pay40
  exact (laneSum_apply _ _ _).trans (Finset.sum_congr rfl fun l _ => rfl)

open Cert.Fcos in
/-- The tile's IoU-loss sum. -/
theorem iouSum_apply (i : grid0.Coords) (x1 x2 : Vec Ideal S1x4x11008 .f32) (x6 : Vec Ideal S1x1x11008 .i32)
    (x7 : Vec Ideal S2x11008 .f32) :
    iouSum (F := Ideal) i x1 x2 x6 x7 (ix2 0 0)
      = ∑ l : Fin 11008, if (i 1).val * 11008 + l.val < 21824
          then iouK (x7 (ix2 0 l)) (x7 (ix2 1 l)) (x1 (ix3 0 0 l)) (x1 (ix3 0 1 l)) (x1 (ix3 0 2 l)) (x1 (ix3 0 3 l))
              (x2 (ix3 0 0 l)) (x2 (ix3 0 1 l)) (x2 (ix3 0 2 l)) (x2 (ix3 0 3 l)) * posW (x6 (ix3 0 0 l))
          else w0 := by
  unfold iouSum
  rw [pay40_apply]
  refine Finset.sum_congr rfl fun l _ => ?_
  rw [iouLane, posBlock_apply, pay9_eq, pay4_apply, pay4_apply, pay4_apply, pay4_apply, pay5_apply, pay5_apply,
    pay5_apply, pay5_apply]
  by_cases h : (i 1).val * 11008 + l.val < 21824
  · rw [if_pos h, if_pos h, (valid_iff i l).2 h, select_one]
  · rw [if_neg h, if_neg h, eq_zero_of_ne_one (fun hm => h ((valid_iff i l).1 hm)), select_zero]

/-! ## The accumulator block: four rows of 128 lanes -/

/-- Row r of four one-row blocks stacked is the r-th block's row. -/
theorem concat4_apply (a0 a1 a2 a3 : FVec Ideal S1x128 .f32) (r : Fin 4) (q : Fin 128) :
    concatenate S4x128 0 [⟨S1x128, a0⟩, ⟨S1x128, a1⟩, ⟨S1x128, a2⟩, ⟨S1x128, a3⟩]
        concatenates_S1x128_S1x128_S1x128_S1x128_S4x128_d0 (ix2 r q)
      = match r with
        | 0 => a0 (ix2 0 q)
        | 1 => a1 (ix2 0 q)
        | 2 => a2 (ix2 0 q)
        | 3 => a3 (ix2 0 q) := by
  have hi : ∀ b : Fin S1x128.rank, b.cast (rfl : S1x128.rank = S4x128.rank) ≠ (0 : Fin S4x128.rank) →
      ((ix2 (0 : Fin 1) q) b).val = ((ix2 r q) (b.cast rfl)).val := fun b hb => by
    match b with
    | ⟨0, _⟩ => exact absurd rfl hb
    | ⟨1, _⟩ => rfl
  match r with
  | ⟨0, hlt⟩ =>
    exact concatenate_apply_piece 0 [⟨S1x128, a0⟩, ⟨S1x128, a1⟩, ⟨S1x128, a2⟩, ⟨S1x128, a3⟩]
      concatenates_S1x128_S1x128_S1x128_S1x128_S4x128_d0 (ix2 ⟨0, hlt⟩ q) 0 (by show _ < 4; omega) S1x128 a0 rfl rfl 0 rfl
      (ix2 0 q) hi rfl
  | ⟨1, hlt⟩ =>
    exact concatenate_apply_piece 0 [⟨S1x128, a0⟩, ⟨S1x128, a1⟩, ⟨S1x128, a2⟩, ⟨S1x128, a3⟩]
      concatenates_S1x128_S1x128_S1x128_S1x128_S4x128_d0 (ix2 ⟨1, hlt⟩ q) 1 (by show _ < 4; omega) S1x128 a1 rfl rfl 1 rfl
      (ix2 0 q) hi rfl
  | ⟨2, hlt⟩ =>
    exact concatenate_apply_piece 0 [⟨S1x128, a0⟩, ⟨S1x128, a1⟩, ⟨S1x128, a2⟩, ⟨S1x128, a3⟩]
      concatenates_S1x128_S1x128_S1x128_S1x128_S4x128_d0 (ix2 ⟨2, hlt⟩ q) 2 (by show _ < 4; omega) S1x128 a2 rfl rfl 2 rfl
      (ix2 0 q) hi rfl
  | ⟨3, hlt⟩ =>
    exact concatenate_apply_piece 0 [⟨S1x128, a0⟩, ⟨S1x128, a1⟩, ⟨S1x128, a2⟩, ⟨S1x128, a3⟩]
      concatenates_S1x128_S1x128_S1x128_S1x128_S4x128_d0 (ix2 ⟨3, hlt⟩ q) 3 (by show _ < 4; omega) S1x128 a3 rfl rfl 3 rfl
      (ix2 0 q) hi rfl

/-- A one-element block spread along 128 lanes reads its element on every lane. -/
theorem bcast128_apply (v : FVec Ideal S1x1 .f32) (q : Fin 128) :
    broadcastTo S1x128 v broadcasts_S1x1_S1x128 (ix2 0 q) = v (ix2 0 0) :=
  broadcastTo_apply v broadcasts_S1x1_S1x128 (ix2 0 q) (ix2 0 0) fun a => by
    match a with
    | ⟨0, _⟩ => rfl
    | ⟨1, _⟩ => rfl

/-- Lane l of the eight input blocks of a tile, as one pixel's data. -/
def lanePix (x0 : Vec Ideal S1x80x11008 .f32) (x1 x2 : Vec Ideal S1x4x11008 .f32) (x3 x4 : Vec Ideal S1x1x11008 .f32)
    (x5 x6 : Vec Ideal S1x1x11008 .i32) (x7 : Vec Ideal S2x11008 .f32) (l : Fin 11008) : Cert.Fcos.Pix where
  conf c := x0 (ix3 0 c l)
  loc k := x1 (ix3 0 k l)
  box k := x2 (ix3 0 k l)
  cen := x3 (ix3 0 0 l)
  cent := x4 (ix3 0 0 l)
  tag := x5 (ix3 0 0 l)
  st := x6 (ix3 0 0 l)
  xy k := x7 (ix2 k l)

/-- Row r, lane q of the accumulator block after a tile: what it held, plus the tile's sum of the r-th per-pixel term
    over the lanes that are pixels of the image (lane l of tile (i 1) is pixel (i 1) * 11008 + l; the others contribute
    the zero word). -/
theorem tileOut_apply (i : grid0.Coords) (x0 : Vec Ideal S1x80x11008 .f32) (x1 x2 : Vec Ideal S1x4x11008 .f32)
    (x3 x4 : Vec Ideal S1x1x11008 .f32) (x5 x6 : Vec Ideal S1x1x11008 .i32) (x7 : Vec Ideal S2x11008 .f32)
    (prev : Vec Ideal S1x4x128 .f32) (r : Fin 4) (q : Fin 128) :
    tileOut (F := Ideal) i x0 x1 x2 x3 x4 x5 x6 x7 prev (ix3 0 r q)
      = prev (ix3 0 r q) + ∑ l : Fin 11008, (if (i 1).val * 11008 + l.val < 21824
          then Cert.Fcos.pixK r (lanePix x0 x1 x2 x3 x4 x5 x6 x7 l) else Cert.Fcos.w0) := by
  unfold tileOut k0_pay1
  refine (shapeCast_ab_1ab_apply _ shapeCasts_S4x128_S1x4x128 0 r q).trans ?_
  refine congrArg₂ (fun a b : EReal => a + b) (shapeCast_1ab_ab_apply prev shapeCasts_S1x4x128_S4x128 r q) ?_
  refine (concat4_apply _ _ _ _ r q).trans ?_
  match r with
  | ⟨0, _⟩ =>
    refine (bcast128_apply _ q).trans ?_
    exact confSum_apply i x0 x5
  | ⟨1, _⟩ =>
    refine (bcast128_apply _ q).trans ?_
    refine (congrFun (shapeCast_self _ shapeCasts_S1x1_S1x1) (ix2 0 0)).trans ?_
    exact iouSum_apply i x1 x2 x6 x7
  | ⟨2, _⟩ =>
    refine (bcast128_apply _ q).trans ?_
    refine (congrFun (shapeCast_self _ shapeCasts_S1x1_S1x1) (ix2 0 0)).trans ?_
    exact bceSum_apply i x3 x4 x6
  | ⟨3, _⟩ =>
    refine (bcast128_apply _ q).trans ?_
    refine (congrFun (shapeCast_self _ shapeCasts_S1x1_S1x1) (ix2 0 0)).trans ?_
    exact posSum_apply i x6

/-- The zero block reads the zero word everywhere. -/
theorem zeroBlock_apply (j : S1x4x128.Idx) : zeroBlock (F := Ideal) j = Cert.Fcos.w0 := rfl

end Cert.KernelIdeal.TileValue

end
-- ==== Proof.KI.Arrays.lean ====
/-
  The eight arrays the kernel's windows stage, as the region finds them. Two are arguments of the launch as they are;
  the other six are written before the region by host operations that only re-lay an argument: the target boxes
  [16, 21824, 4] transposed to [16, 4, 21824], the pixel coordinates [21824, 2] transposed to [2, 21824], and the
  centerness, its target, the labels and the positive flags [16, 21824] given a unit middle axis. Read at a pixel,
  each is the launch array at that pixel: the kernel's pixel record is the reference's.
-/
import proofs.«401425_j62740882260765_3_alg».proof.Proof.Gen.KernelIdeal.Frame
import proofs.«401425_j62740882260765_3_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Arrays

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The eight arrays the region's windows stage, as the region finds them, typed at their literal shapes. -/
abbrev aConf (c : Dev nD) : Vec Ideal S16x80x21824 .f32 := V m c main_arg0
abbrev aLoc (c : Dev nD) : Vec Ideal S16x4x21824 .f32 := V m c main_arg1
abbrev aBox (c : Dev nD) : Vec Ideal S16x4x21824 .f32 := V m c main_v0
abbrev aCen (c : Dev nD) : Vec Ideal S16x1x21824 .f32 := V m c main_v1
abbrev aCent (c : Dev nD) : Vec Ideal S16x1x21824 .f32 := V m c main_v2
abbrev aTag (c : Dev nD) : Vec Ideal S16x1x21824 .i32 := V m c main_v3
abbrev aSt (c : Dev nD) : Vec Ideal S16x1x21824 .i32 := V m c main_v4
abbrev aXy (c : Dev nD) : Vec Ideal S2x21824 .f32 := V m c main_v5

/-- Pixel j of image b as the kernel's windows see it. -/
def kPix (c : Dev nD) (b : Fin 16) (j : Fin 21824) : Cert.Fcos.Pix where
  conf k := aConf m c (ix3 b k j)
  loc k := aLoc m c (ix3 b k j)
  box k := aBox m c (ix3 b k j)
  cen := aCen m c (ix3 b 0 j)
  cent := aCent m c (ix3 b 0 j)
  tag := aTag m c (ix3 b 0 j)
  st := aSt m c (ix3 b 0 j)
  xy k := aXy m c (ix2 k j)

/-! ## The arguments the region finds as launched -/

theorem aConf_apply (c : Dev nD) (b : Fin 16) (k : Fin 80) (j : Fin 21824) :
    aConf m c (ix3 b k j) = (m ((c.tc : Thread nD τ).loc main_arg0) : Vec Ideal S16x80x21824 .f32) (ix3 b k j) :=
  congrFun (V_main_arg0 m c) _

theorem aLoc_apply (c : Dev nD) (b : Fin 16) (k : Fin 4) (j : Fin 21824) :
    aLoc m c (ix3 b k j) = (m ((c.tc : Thread nD τ).loc main_arg1) : Vec Ideal S16x4x21824 .f32) (ix3 b k j) :=
  congrFun (V_main_arg1 m c) _

/-! ## The six arrays the host operations before the region write: each one operation of an argument -/

theorem aBox_eq (c : Dev nD) :
    aBox m c = transpose S16x4x21824 [0, 2, 1] (m ((c.tc : Thread nD τ).loc main_arg3) : Vec Ideal S16x21824x4 .f32)
      transposes_S16x21824x4_S16x4x21824_0_2_1 := by
  show StableHlo.after hostOps0 (fun b => m (c, b)) (Proc.devRef .tc main_v0) = _
  after_results <;> rfl

theorem aCen_eq (c : Dev nD) :
    aCen m c = shapeCast S16x1x21824 (m ((c.tc : Thread nD τ).loc main_arg2) : Vec Ideal S16x21824 .f32)
      shapeCasts_S16x21824_S16x1x21824 := by
  show StableHlo.after hostOps0 (fun b => m (c, b)) (Proc.devRef .tc main_v1) = _
  after_results <;> rfl

theorem aCent_eq (c : Dev nD) :
    aCent m c = shapeCast S16x1x21824 (m ((c.tc : Thread nD τ).loc main_arg4) : Vec Ideal S16x21824 .f32)
      shapeCasts_S16x21824_S16x1x21824 := by
  show StableHlo.after hostOps0 (fun b => m (c, b)) (Proc.devRef .tc main_v2) = _
  after_results <;> rfl

theorem aTag_eq (c : Dev nD) :
    aTag m c = shapeCast S16x1x21824 (m ((c.tc : Thread nD τ).loc main_arg6) : Vec Ideal S16x21824 .i32)
      shapeCasts_S16x21824_S16x1x21824 := by
  show StableHlo.after hostOps0 (fun b => m (c, b)) (Proc.devRef .tc main_v3) = _
  after_results <;> rfl

theorem aSt_eq (c : Dev nD) :
    aSt m c = shapeCast S16x1x21824 (m ((c.tc : Thread nD τ).loc main_arg7) : Vec Ideal S16x21824 .i32)
      shapeCasts_S16x21824_S16x1x21824 := by
  show StableHlo.after hostOps0 (fun b => m (c, b)) (Proc.devRef .tc main_v4) = _
  after_results <;> rfl

theorem aXy_eq (c : Dev nD) :
    aXy m c = transpose S2x21824 [1, 0] (m ((c.tc : Thread nD τ).loc main_arg5) : Vec Ideal S21824x2 .f32)
      transposes_S21824x2_S2x21824_1_0 := by
  show StableHlo.after hostOps0 (fun b => m (c, b)) (Proc.devRef .tc main_v5) = _
  after_results <;> rfl

/-! ## Read at a pixel -/

/-- A [16, 21824] array given a unit middle axis reads, at (b, 0, j), the operand at (b, j): the two row-major
    positions are b · 21824 + j. -/
theorem unitMiddle_apply {α : Type} (x : S16x21824.Idx → α) (h : S16x21824.ShapeCasts S16x1x21824) (b : Fin 16)
    (u : Fin 1) (j : Fin 21824) : shapeCast S16x1x21824 x h (ix3 b u j) = x (ix2 b j) :=
  shapeCast_apply x h _ _ (by
    have hu : u.val = 0 := by omega
    rw [Shape.rowMajor_val_two, Shape.rowMajor_val_three]
    show b.val * 21824 + j.val = (b.val * 1 + u.val) * 21824 + j.val
    rw [hu, Nat.mul_one, Nat.add_zero])

/-- The target boxes: edge k of pixel j of image b. -/
theorem aBox_apply (c : Dev nD) (b : Fin 16) (k : Fin 4) (j : Fin 21824) :
    aBox m c (ix3 b k j) = (m ((c.tc : Thread nD τ).loc main_arg3) : Vec Ideal S16x21824x4 .f32) (ix3 b j k) := by
  rw [aBox_eq]
  exact transpose_ix3_021_apply _ _ b k j

theorem aCen_apply (c : Dev nD) (b : Fin 16) (j : Fin 21824) :
    aCen m c (ix3 b 0 j) = (m ((c.tc : Thread nD τ).loc main_arg2) : Vec Ideal S16x21824 .f32) (ix2 b j) := by
  rw [aCen_eq]
  exact unitMiddle_apply _ _ b 0 j

theorem aCent_apply (c : Dev nD) (b : Fin 16) (j : Fin 21824) :
    aCent m c (ix3 b 0 j) = (m ((c.tc : Thread nD τ).loc main_arg4) : Vec Ideal S16x21824 .f32) (ix2 b j) := by
  rw [aCent_eq]
  exact unitMiddle_apply _ _ b 0 j

theorem aTag_apply (c : Dev nD) (b : Fin 16) (j : Fin 21824) :
    aTag m c (ix3 b 0 j) = (m ((c.tc : Thread nD τ).loc main_arg6) : Vec Ideal S16x21824 .i32) (ix2 b j) := by
  rw [aTag_eq]
  exact unitMiddle_apply _ _ b 0 j

theorem aSt_apply (c : Dev nD) (b : Fin 16) (j : Fin 21824) :
    aSt m c (ix3 b 0 j) = (m ((c.tc : Thread nD τ).loc main_arg7) : Vec Ideal S16x21824 .i32) (ix2 b j) := by
  rw [aSt_eq]
  exact unitMiddle_apply _ _ b 0 j

/-- The pixel coordinates: coordinate k of pixel j. -/
theorem aXy_apply (c : Dev nD) (k : Fin 2) (j : Fin 21824) :
    aXy m c (ix2 k j) = (m ((c.tc : Thread nD τ).loc main_arg5) : Vec Ideal S21824x2 .f32) (ix2 j k) := by
  rw [aXy_eq]
  exact transpose_ix2_apply _ _ k j

/-- It is the pixel of the launch arrays: the transposes and reshapes before the region only re-lay them. -/
theorem kPix_eq_argPix (c : Dev nD) (b : Fin 16) (j : Fin 21824) :
    kPix m c b j = Cert.Fcos.argPix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b j := by
  unfold kPix Cert.Fcos.argPix
  rw [Cert.Fcos.Pix.mk.injEq]
  exact ⟨funext fun k => aConf_apply m c b k j, funext fun k => aLoc_apply m c b k j, funext fun k => aBox_apply m c b k j,
    aCen_apply m c b j, aCent_apply m c b j, aTag_apply m c b j, aSt_apply m c b j, funext fun k => aXy_apply m c k j⟩

end Cert.KernelIdeal.Arrays

end
-- ==== Proof.KI.Blocks.lean ====
/-
  The input windows' blocks read at an element. The grid has 32 points; point t is image t / 2, tile t % 2. Every input
  window's block has 11008 lanes on its last axis and its array 21824 = 11008 + 10816: tile 0's block lies inside the array,
  tile 1's overhangs it by 192 lanes and its transfer is cut to the 10816 lanes inside. A staging buffer just fetched holds the
  block on the lanes the transfer moves and other contents elsewhere. Here: at a lane l of tile t % 2 that is a pixel of the
  image ((t % 2) · 11008 + l < 21824) the buffer holds the array's entry at image t / 2 (window 7: no image coordinate), the
  row unchanged, pixel (t % 2) · 11008 + l. Per window: the block index and the cut sizes at each of the 32 points, decided
  once; the lane is among those moved; a block's coordinate in the array is index × size + the coordinate inside the block.
-/
import proofs.«401425_j62740882260765_3_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Point t of the 16 × 2 grid is (t / 2, t % 2). -/
theorem coords_eq (t : Fin cfg0.N) : ((grid0.coords t) 0).val = t.val / 2 ∧ ((grid0.coords t) 1).val = t.val % 2 :=
  (by decide +kernel : ∀ t : Fin grid0.N, ((grid0.coords t) 0).val = t.val / 2 ∧ ((grid0.coords t) 1).val = t.val % 2) t

/-! ## Window 0 -/

/-- Window 0's block index at point t is (t / 2, 0, t % 2). -/
theorem index0 : ∀ t : Fin cfg0.N, win0_0.index t (0 : Fin 3) = t.val / 2 ∧ win0_0.index t (1 : Fin 3) = 0 ∧ win0_0.index t (2 : Fin 3) = t.val % 2 :=
  (by decide +kernel : ∀ t : Fin grid0.N, win0_0.index t (0 : Fin 3) = t.val / 2 ∧ win0_0.index t (1 : Fin 3) = 0 ∧ win0_0.index t (2 : Fin 3) = t.val % 2)

/-- The sizes its transfer moves at point t: the whole block at tile 0, the first 10816 lanes at tile 1. -/
theorem xsize0 : ∀ t : Fin cfg0.N, win0_0.xsize (grid0.coords t) (0 : Fin 3) = 1 ∧ win0_0.xsize (grid0.coords t) (1 : Fin 3) = 80
    ∧ win0_0.xsize (grid0.coords t) (2 : Fin 3) = if t.val % 2 = 0 then 11008 else 10816 :=
  (by decide +kernel : ∀ t : Fin grid0.N, win0_0.xsize (grid0.coords t) (0 : Fin 3) = 1 ∧ win0_0.xsize (grid0.coords t) (1 : Fin 3) = 80
    ∧ win0_0.xsize (grid0.coords t) (2 : Fin 3) = if t.val % 2 = 0 then 11008 else 10816)

/-- A lane of tile t % 2 that is a pixel of the image is among those the transfer moves. -/
theorem moved0 (t : Fin cfg0.N) (k : Fin 80) (l : Fin 11008) (hl : (t.val % 2) * 11008 + l.val < 21824) :
    win0_0.moved (grid0.coords t) (ix3 0 k l) = true := by
  have hx := xsize0 t
  rw [Pipeline.Window.moved_iff]
  intro a
  match a with
    | ⟨0, _⟩ => show 0 < win0_0.xsize (grid0.coords t) (0 : Fin 3); rw [hx.1]; exact Nat.one_pos
    | ⟨1, _⟩ => show k.val < win0_0.xsize (grid0.coords t) (1 : Fin 3); rw [hx.2.1]; exact k.isLt
    | ⟨2, _⟩ =>
      show l.val < win0_0.xsize (grid0.coords t) (2 : Fin 3)
      rw [hx.2.2]; have := l.isLt; split <;> omega

/-- A lane of tile t % 2 that is a pixel of the image holds, in a just-fetched buffer of window 0, the array's entry at that pixel. -/
theorem blk0_apply (c : Dev nD) (t : Fin cfg0.N) (d : S1x80x11008.Idx → EReal) (b : Fin 16) (hb : b.val = t.val / 2) (k : Fin 80) (l : Fin 11008)
    (hl : (t.val % 2) * 11008 + l.val < 21824) :
    (win0_0.fill (grid0.coords t) d (iblk m c 0 t) : S1x80x11008.Idx → EReal) (ix3 0 k l)
      = (V m c main_arg0 : S16x80x21824.Idx → EReal) (ix3 b k ⟨(t.val % 2) * 11008 + l.val, hl⟩) := by
  have hi := index0 t
  unfold Pipeline.Window.fill
  rw [dif_pos (moved0 t k l hl)]
  unfold iblk
  rw [View.read_apply]
  show V m c main_arg0 _ = V m c main_arg0 _
  congr 1
  funext a
  apply Fin.ext
  match a with
  | ⟨0, _⟩ => show win0_0.index t 0 * 1 + 1 * 0 = b.val; rw [hi.1]; omega
  | ⟨1, _⟩ => show win0_0.index t 1 * 80 + 1 * k.val = k.val; rw [hi.2.1]; omega
  | ⟨2, _⟩ => show win0_0.index t 2 * 11008 + 1 * l.val = (t.val % 2) * 11008 + l.val; rw [hi.2.2]; omega

/-! ## Window 1 -/

/-- Window 1's block index at point t is (t / 2, 0, t % 2). -/
theorem index1 : ∀ t : Fin cfg0.N, win0_1.index t (0 : Fin 3) = t.val / 2 ∧ win0_1.index t (1 : Fin 3) = 0 ∧ win0_1.index t (2 : Fin 3) = t.val % 2 :=
  (by decide +kernel : ∀ t : Fin grid0.N, win0_1.index t (0 : Fin 3) = t.val / 2 ∧ win0_1.index t (1 : Fin 3) = 0 ∧ win0_1.index t (2 : Fin 3) = t.val % 2)

/-- The sizes its transfer moves at point t: the whole block at tile 0, the first 10816 lanes at tile 1. -/
theorem xsize1 : ∀ t : Fin cfg0.N, win0_1.xsize (grid0.coords t) (0 : Fin 3) = 1 ∧ win0_1.xsize (grid0.coords t) (1 : Fin 3) = 4
    ∧ win0_1.xsize (grid0.coords t) (2 : Fin 3) = if t.val % 2 = 0 then 11008 else 10816 :=
  (by decide +kernel : ∀ t : Fin grid0.N, win0_1.xsize (grid0.coords t) (0 : Fin 3) = 1 ∧ win0_1.xsize (grid0.coords t) (1 : Fin 3) = 4
    ∧ win0_1.xsize (grid0.coords t) (2 : Fin 3) = if t.val % 2 = 0 then 11008 else 10816)

/-- A lane of tile t % 2 that is a pixel of the image is among those the transfer moves. -/
theorem moved1 (t : Fin cfg0.N) (k : Fin 4) (l : Fin 11008) (hl : (t.val % 2) * 11008 + l.val < 21824) :
    win0_1.moved (grid0.coords t) (ix3 0 k l) = true := by
  have hx := xsize1 t
  rw [Pipeline.Window.moved_iff]
  intro a
  match a with
    | ⟨0, _⟩ => show 0 < win0_1.xsize (grid0.coords t) (0 : Fin 3); rw [hx.1]; exact Nat.one_pos
    | ⟨1, _⟩ => show k.val < win0_1.xsize (grid0.coords t) (1 : Fin 3); rw [hx.2.1]; exact k.isLt
    | ⟨2, _⟩ =>
      show l.val < win0_1.xsize (grid0.coords t) (2 : Fin 3)
      rw [hx.2.2]; have := l.isLt; split <;> omega

/-- A lane of tile t % 2 that is a pixel of the image holds, in a just-fetched buffer of window 1, the array's entry at that pixel. -/
theorem blk1_apply (c : Dev nD) (t : Fin cfg0.N) (d : S1x4x11008.Idx → EReal) (b : Fin 16) (hb : b.val = t.val / 2) (k : Fin 4) (l : Fin 11008)
    (hl : (t.val % 2) * 11008 + l.val < 21824) :
    (win0_1.fill (grid0.coords t) d (iblk m c 1 t) : S1x4x11008.Idx → EReal) (ix3 0 k l)
      = (V m c main_arg1 : S16x4x21824.Idx → EReal) (ix3 b k ⟨(t.val % 2) * 11008 + l.val, hl⟩) := by
  have hi := index1 t
  unfold Pipeline.Window.fill
  rw [dif_pos (moved1 t k l hl)]
  unfold iblk
  rw [View.read_apply]
  show V m c main_arg1 _ = V m c main_arg1 _
  congr 1
  funext a
  apply Fin.ext
  match a with
  | ⟨0, _⟩ => show win0_1.index t 0 * 1 + 1 * 0 = b.val; rw [hi.1]; omega
  | ⟨1, _⟩ => show win0_1.index t 1 * 4 + 1 * k.val = k.val; rw [hi.2.1]; omega
  | ⟨2, _⟩ => show win0_1.index t 2 * 11008 + 1 * l.val = (t.val % 2) * 11008 + l.val; rw [hi.2.2]; omega

/-! ## Window 2 -/

/-- Window 2's block index at point t is (t / 2, 0, t % 2). -/
theorem index2 : ∀ t : Fin cfg0.N, win0_2.index t (0 : Fin 3) = t.val / 2 ∧ win0_2.index t (1 : Fin 3) = 0 ∧ win0_2.index t (2 : Fin 3) = t.val % 2 :=
  (by decide +kernel : ∀ t : Fin grid0.N, win0_2.index t (0 : Fin 3) = t.val / 2 ∧ win0_2.index t (1 : Fin 3) = 0 ∧ win0_2.index t (2 : Fin 3) = t.val % 2)

/-- The sizes its transfer moves at point t: the whole block at tile 0, the first 10816 lanes at tile 1. -/
theorem xsize2 : ∀ t : Fin cfg0.N, win0_2.xsize (grid0.coords t) (0 : Fin 3) = 1 ∧ win0_2.xsize (grid0.coords t) (1 : Fin 3) = 4
    ∧ win0_2.xsize (grid0.coords t) (2 : Fin 3) = if t.val % 2 = 0 then 11008 else 10816 :=
  (by decide +kernel : ∀ t : Fin grid0.N, win0_2.xsize (grid0.coords t) (0 : Fin 3) = 1 ∧ win0_2.xsize (grid0.coords t) (1 : Fin 3) = 4
    ∧ win0_2.xsize (grid0.coords t) (2 : Fin 3) = if t.val % 2 = 0 then 11008 else 10816)

/-- A lane of tile t % 2 that is a pixel of the image is among those the transfer moves. -/
theorem moved2 (t : Fin cfg0.N) (k : Fin 4) (l : Fin 11008) (hl : (t.val % 2) * 11008 + l.val < 21824) :
    win0_2.moved (grid0.coords t) (ix3 0 k l) = true := by
  have hx := xsize2 t
  rw [Pipeline.Window.moved_iff]
  intro a
  match a with
    | ⟨0, _⟩ => show 0 < win0_2.xsize (grid0.coords t) (0 : Fin 3); rw [hx.1]; exact Nat.one_pos
    | ⟨1, _⟩ => show k.val < win0_2.xsize (grid0.coords t) (1 : Fin 3); rw [hx.2.1]; exact k.isLt
    | ⟨2, _⟩ =>
      show l.val < win0_2.xsize (grid0.coords t) (2 : Fin 3)
      rw [hx.2.2]; have := l.isLt; split <;> omega

/-- A lane of tile t % 2 that is a pixel of the image holds, in a just-fetched buffer of window 2, the array's entry at that pixel. -/
theorem blk2_apply (c : Dev nD) (t : Fin cfg0.N) (d : S1x4x11008.Idx → EReal) (b : Fin 16) (hb : b.val = t.val / 2) (k : Fin 4) (l : Fin 11008)
    (hl : (t.val % 2) * 11008 + l.val < 21824) :
    (win0_2.fill (grid0.coords t) d (iblk m c 2 t) : S1x4x11008.Idx → EReal) (ix3 0 k l)
      = (V m c main_v0 : S16x4x21824.Idx → EReal) (ix3 b k ⟨(t.val % 2) * 11008 + l.val, hl⟩) := by
  have hi := index2 t
  unfold Pipeline.Window.fill
  rw [dif_pos (moved2 t k l hl)]
  unfold iblk
  rw [View.read_apply]
  show V m c main_v0 _ = V m c main_v0 _
  congr 1
  funext a
  apply Fin.ext
  match a with
  | ⟨0, _⟩ => show win0_2.index t 0 * 1 + 1 * 0 = b.val; rw [hi.1]; omega
  | ⟨1, _⟩ => show win0_2.index t 1 * 4 + 1 * k.val = k.val; rw [hi.2.1]; omega
  | ⟨2, _⟩ => show win0_2.index t 2 * 11008 + 1 * l.val = (t.val % 2) * 11008 + l.val; rw [hi.2.2]; omega

/-! ## Window 3 -/

/-- Window 3's block index at point t is (t / 2, 0, t % 2). -/
theorem index3 : ∀ t : Fin cfg0.N, win0_3.index t (0 : Fin 3) = t.val / 2 ∧ win0_3.index t (1 : Fin 3) = 0 ∧ win0_3.index t (2 : Fin 3) = t.val % 2 :=
  (by decide +kernel : ∀ t : Fin grid0.N, win0_3.index t (0 : Fin 3) = t.val / 2 ∧ win0_3.index t (1 : Fin 3) = 0 ∧ win0_3.index t (2 : Fin 3) = t.val % 2)

/-- The sizes its transfer moves at point t: the whole block at tile 0, the first 10816 lanes at tile 1. -/
theorem xsize3 : ∀ t : Fin cfg0.N, win0_3.xsize (grid0.coords t) (0 : Fin 3) = 1 ∧ win0_3.xsize (grid0.coords t) (1 : Fin 3) = 1
    ∧ win0_3.xsize (grid0.coords t) (2 : Fin 3) = if t.val % 2 = 0 then 11008 else 10816 :=
  (by decide +kernel : ∀ t : Fin grid0.N, win0_3.xsize (grid0.coords t) (0 : Fin 3) = 1 ∧ win0_3.xsize (grid0.coords t) (1 : Fin 3) = 1
    ∧ win0_3.xsize (grid0.coords t) (2 : Fin 3) = if t.val % 2 = 0 then 11008 else 10816)

/-- A lane of tile t % 2 that is a pixel of the image is among those the transfer moves. -/
theorem moved3 (t : Fin cfg0.N) (l : Fin 11008) (hl : (t.val % 2) * 11008 + l.val < 21824) :
    win0_3.moved (grid0.coords t) (ix3 0 0 l) = true := by
  have hx := xsize3 t
  rw [Pipeline.Window.moved_iff]
  intro a
  match a with
    | ⟨0, _⟩ => show 0 < win0_3.xsize (grid0.coords t) (0 : Fin 3); rw [hx.1]; exact Nat.one_pos
    | ⟨1, _⟩ => show 0 < win0_3.xsize (grid0.coords t) (1 : Fin 3); rw [hx.2.1]; exact Nat.one_pos
    | ⟨2, _⟩ =>
      show l.val < win0_3.xsize (grid0.coords t) (2 : Fin 3)
      rw [hx.2.2]; have := l.isLt; split <;> omega

/-- A lane of tile t % 2 that is a pixel of the image holds, in a just-fetched buffer of window 3, the array's entry at that pixel. -/
theorem blk3_apply (c : Dev nD) (t : Fin cfg0.N) (d : S1x1x11008.Idx → EReal) (b : Fin 16) (hb : b.val = t.val / 2) (l : Fin 11008)
    (hl : (t.val % 2) * 11008 + l.val < 21824) :
    (win0_3.fill (grid0.coords t) d (iblk m c 3 t) : S1x1x11008.Idx → EReal) (ix3 0 0 l)
      = (V m c main_v1 : S16x1x21824.Idx → EReal) (ix3 b 0 ⟨(t.val % 2) * 11008 + l.val, hl⟩) := by
  have hi := index3 t
  unfold Pipeline.Window.fill
  rw [dif_pos (moved3 t l hl)]
  unfold iblk
  rw [View.read_apply]
  show V m c main_v1 _ = V m c main_v1 _
  congr 1
  funext a
  apply Fin.ext
  match a with
  | ⟨0, _⟩ => show win0_3.index t 0 * 1 + 1 * 0 = b.val; rw [hi.1]; omega
  | ⟨1, _⟩ => show win0_3.index t 1 * 1 + 1 * 0 = 0; rw [hi.2.1]
  | ⟨2, _⟩ => show win0_3.index t 2 * 11008 + 1 * l.val = (t.val % 2) * 11008 + l.val; rw [hi.2.2]; omega

/-! ## Window 4 -/

/-- Window 4's block index at point t is (t / 2, 0, t % 2). -/
theorem index4 : ∀ t : Fin cfg0.N, win0_4.index t (0 : Fin 3) = t.val / 2 ∧ win0_4.index t (1 : Fin 3) = 0 ∧ win0_4.index t (2 : Fin 3) = t.val % 2 :=
  (by decide +kernel : ∀ t : Fin grid0.N, win0_4.index t (0 : Fin 3) = t.val / 2 ∧ win0_4.index t (1 : Fin 3) = 0 ∧ win0_4.index t (2 : Fin 3) = t.val % 2)

/-- The sizes its transfer moves at point t: the whole block at tile 0, the first 10816 lanes at tile 1. -/
theorem xsize4 : ∀ t : Fin cfg0.N, win0_4.xsize (grid0.coords t) (0 : Fin 3) = 1 ∧ win0_4.xsize (grid0.coords t) (1 : Fin 3) = 1
    ∧ win0_4.xsize (grid0.coords t) (2 : Fin 3) = if t.val % 2 = 0 then 11008 else 10816 :=
  (by decide +kernel : ∀ t : Fin grid0.N, win0_4.xsize (grid0.coords t) (0 : Fin 3) = 1 ∧ win0_4.xsize (grid0.coords t) (1 : Fin 3) = 1
    ∧ win0_4.xsize (grid0.coords t) (2 : Fin 3) = if t.val % 2 = 0 then 11008 else 10816)

/-- A lane of tile t % 2 that is a pixel of the image is among those the transfer moves. -/
theorem moved4 (t : Fin cfg0.N) (l : Fin 11008) (hl : (t.val % 2) * 11008 + l.val < 21824) :
    win0_4.moved (grid0.coords t) (ix3 0 0 l) = true := by
  have hx := xsize4 t
  rw [Pipeline.Window.moved_iff]
  intro a
  match a with
    | ⟨0, _⟩ => show 0 < win0_4.xsize (grid0.coords t) (0 : Fin 3); rw [hx.1]; exact Nat.one_pos
    | ⟨1, _⟩ => show 0 < win0_4.xsize (grid0.coords t) (1 : Fin 3); rw [hx.2.1]; exact Nat.one_pos
    | ⟨2, _⟩ =>
      show l.val < win0_4.xsize (grid0.coords t) (2 : Fin 3)
      rw [hx.2.2]; have := l.isLt; split <;> omega

/-- A lane of tile t % 2 that is a pixel of the image holds, in a just-fetched buffer of window 4, the array's entry at that pixel. -/
theorem blk4_apply (c : Dev nD) (t : Fin cfg0.N) (d : S1x1x11008.Idx → EReal) (b : Fin 16) (hb : b.val = t.val / 2) (l : Fin 11008)
    (hl : (t.val % 2) * 11008 + l.val < 21824) :
    (win0_4.fill (grid0.coords t) d (iblk m c 4 t) : S1x1x11008.Idx → EReal) (ix3 0 0 l)
      = (V m c main_v2 : S16x1x21824.Idx → EReal) (ix3 b 0 ⟨(t.val % 2) * 11008 + l.val, hl⟩) := by
  have hi := index4 t
  unfold Pipeline.Window.fill
  rw [dif_pos (moved4 t l hl)]
  unfold iblk
  rw [View.read_apply]
  show V m c main_v2 _ = V m c main_v2 _
  congr 1
  funext a
  apply Fin.ext
  match a with
  | ⟨0, _⟩ => show win0_4.index t 0 * 1 + 1 * 0 = b.val; rw [hi.1]; omega
  | ⟨1, _⟩ => show win0_4.index t 1 * 1 + 1 * 0 = 0; rw [hi.2.1]
  | ⟨2, _⟩ => show win0_4.index t 2 * 11008 + 1 * l.val = (t.val % 2) * 11008 + l.val; rw [hi.2.2]; omega

/-! ## Window 5 -/

/-- Window 5's block index at point t is (t / 2, 0, t % 2). -/
theorem index5 : ∀ t : Fin cfg0.N, win0_5.index t (0 : Fin 3) = t.val / 2 ∧ win0_5.index t (1 : Fin 3) = 0 ∧ win0_5.index t (2 : Fin 3) = t.val % 2 :=
  (by decide +kernel : ∀ t : Fin grid0.N, win0_5.index t (0 : Fin 3) = t.val / 2 ∧ win0_5.index t (1 : Fin 3) = 0 ∧ win0_5.index t (2 : Fin 3) = t.val % 2)

/-- The sizes its transfer moves at point t: the whole block at tile 0, the first 10816 lanes at tile 1. -/
theorem xsize5 : ∀ t : Fin cfg0.N, win0_5.xsize (grid0.coords t) (0 : Fin 3) = 1 ∧ win0_5.xsize (grid0.coords t) (1 : Fin 3) = 1
    ∧ win0_5.xsize (grid0.coords t) (2 : Fin 3) = if t.val % 2 = 0 then 11008 else 10816 :=
  (by decide +kernel : ∀ t : Fin grid0.N, win0_5.xsize (grid0.coords t) (0 : Fin 3) = 1 ∧ win0_5.xsize (grid0.coords t) (1 : Fin 3) = 1
    ∧ win0_5.xsize (grid0.coords t) (2 : Fin 3) = if t.val % 2 = 0 then 11008 else 10816)

/-- A lane of tile t % 2 that is a pixel of the image is among those the transfer moves. -/
theorem moved5 (t : Fin cfg0.N) (l : Fin 11008) (hl : (t.val % 2) * 11008 + l.val < 21824) :
    win0_5.moved (grid0.coords t) (ix3 0 0 l) = true := by
  have hx := xsize5 t
  rw [Pipeline.Window.moved_iff]
  intro a
  match a with
    | ⟨0, _⟩ => show 0 < win0_5.xsize (grid0.coords t) (0 : Fin 3); rw [hx.1]; exact Nat.one_pos
    | ⟨1, _⟩ => show 0 < win0_5.xsize (grid0.coords t) (1 : Fin 3); rw [hx.2.1]; exact Nat.one_pos
    | ⟨2, _⟩ =>
      show l.val < win0_5.xsize (grid0.coords t) (2 : Fin 3)
      rw [hx.2.2]; have := l.isLt; split <;> omega

/-- A lane of tile t % 2 that is a pixel of the image holds, in a just-fetched buffer of window 5, the array's entry at that pixel. -/
theorem blk5_apply (c : Dev nD) (t : Fin cfg0.N) (d : S1x1x11008.Idx → BitVec 32) (b : Fin 16) (hb : b.val = t.val / 2) (l : Fin 11008)
    (hl : (t.val % 2) * 11008 + l.val < 21824) :
    (win0_5.fill (grid0.coords t) d (iblk m c 5 t) : S1x1x11008.Idx → BitVec 32) (ix3 0 0 l)
      = (V m c main_v3 : S16x1x21824.Idx → BitVec 32) (ix3 b 0 ⟨(t.val % 2) * 11008 + l.val, hl⟩) := by
  have hi := index5 t
  unfold Pipeline.Window.fill
  rw [dif_pos (moved5 t l hl)]
  unfold iblk
  rw [View.read_apply]
  show V m c main_v3 _ = V m c main_v3 _
  congr 1
  funext a
  apply Fin.ext
  match a with
  | ⟨0, _⟩ => show win0_5.index t 0 * 1 + 1 * 0 = b.val; rw [hi.1]; omega
  | ⟨1, _⟩ => show win0_5.index t 1 * 1 + 1 * 0 = 0; rw [hi.2.1]
  | ⟨2, _⟩ => show win0_5.index t 2 * 11008 + 1 * l.val = (t.val % 2) * 11008 + l.val; rw [hi.2.2]; omega

/-! ## Window 6 -/

/-- Window 6's block index at point t is (t / 2, 0, t % 2). -/
theorem index6 : ∀ t : Fin cfg0.N, win0_6.index t (0 : Fin 3) = t.val / 2 ∧ win0_6.index t (1 : Fin 3) = 0 ∧ win0_6.index t (2 : Fin 3) = t.val % 2 :=
  (by decide +kernel : ∀ t : Fin grid0.N, win0_6.index t (0 : Fin 3) = t.val / 2 ∧ win0_6.index t (1 : Fin 3) = 0 ∧ win0_6.index t (2 : Fin 3) = t.val % 2)

/-- The sizes its transfer moves at point t: the whole block at tile 0, the first 10816 lanes at tile 1. -/
theorem xsize6 : ∀ t : Fin cfg0.N, win0_6.xsize (grid0.coords t) (0 : Fin 3) = 1 ∧ win0_6.xsize (grid0.coords t) (1 : Fin 3) = 1
    ∧ win0_6.xsize (grid0.coords t) (2 : Fin 3) = if t.val % 2 = 0 then 11008 else 10816 :=
  (by decide +kernel : ∀ t : Fin grid0.N, win0_6.xsize (grid0.coords t) (0 : Fin 3) = 1 ∧ win0_6.xsize (grid0.coords t) (1 : Fin 3) = 1
    ∧ win0_6.xsize (grid0.coords t) (2 : Fin 3) = if t.val % 2 = 0 then 11008 else 10816)

/-- A lane of tile t % 2 that is a pixel of the image is among those the transfer moves. -/
theorem moved6 (t : Fin cfg0.N) (l : Fin 11008) (hl : (t.val % 2) * 11008 + l.val < 21824) :
    win0_6.moved (grid0.coords t) (ix3 0 0 l) = true := by
  have hx := xsize6 t
  rw [Pipeline.Window.moved_iff]
  intro a
  match a with
    | ⟨0, _⟩ => show 0 < win0_6.xsize (grid0.coords t) (0 : Fin 3); rw [hx.1]; exact Nat.one_pos
    | ⟨1, _⟩ => show 0 < win0_6.xsize (grid0.coords t) (1 : Fin 3); rw [hx.2.1]; exact Nat.one_pos
    | ⟨2, _⟩ =>
      show l.val < win0_6.xsize (grid0.coords t) (2 : Fin 3)
      rw [hx.2.2]; have := l.isLt; split <;> omega

/-- A lane of tile t % 2 that is a pixel of the image holds, in a just-fetched buffer of window 6, the array's entry at that pixel. -/
theorem blk6_apply (c : Dev nD) (t : Fin cfg0.N) (d : S1x1x11008.Idx → BitVec 32) (b : Fin 16) (hb : b.val = t.val / 2) (l : Fin 11008)
    (hl : (t.val % 2) * 11008 + l.val < 21824) :
    (win0_6.fill (grid0.coords t) d (iblk m c 6 t) : S1x1x11008.Idx → BitVec 32) (ix3 0 0 l)
      = (V m c main_v4 : S16x1x21824.Idx → BitVec 32) (ix3 b 0 ⟨(t.val % 2) * 11008 + l.val, hl⟩) := by
  have hi := index6 t
  unfold Pipeline.Window.fill
  rw [dif_pos (moved6 t l hl)]
  unfold iblk
  rw [View.read_apply]
  show V m c main_v4 _ = V m c main_v4 _
  congr 1
  funext a
  apply Fin.ext
  match a with
  | ⟨0, _⟩ => show win0_6.index t 0 * 1 + 1 * 0 = b.val; rw [hi.1]; omega
  | ⟨1, _⟩ => show win0_6.index t 1 * 1 + 1 * 0 = 0; rw [hi.2.1]
  | ⟨2, _⟩ => show win0_6.index t 2 * 11008 + 1 * l.val = (t.val % 2) * 11008 + l.val; rw [hi.2.2]; omega

/-! ## Window 7 -/

/-- Window 7's block index at point t is (0, t % 2): it has no image coordinate. -/
theorem index7 : ∀ t : Fin cfg0.N, win0_7.index t (0 : Fin 2) = 0 ∧ win0_7.index t (1 : Fin 2) = t.val % 2 :=
  (by decide +kernel : ∀ t : Fin grid0.N, win0_7.index t (0 : Fin 2) = 0 ∧ win0_7.index t (1 : Fin 2) = t.val % 2)

/-- The sizes its transfer moves at point t: the whole block at tile 0, the first 10816 lanes at tile 1. -/
theorem xsize7 : ∀ t : Fin cfg0.N, win0_7.xsize (grid0.coords t) (0 : Fin 2) = 2
    ∧ win0_7.xsize (grid0.coords t) (1 : Fin 2) = if t.val % 2 = 0 then 11008 else 10816 :=
  (by decide +kernel : ∀ t : Fin grid0.N, win0_7.xsize (grid0.coords t) (0 : Fin 2) = 2
    ∧ win0_7.xsize (grid0.coords t) (1 : Fin 2) = if t.val % 2 = 0 then 11008 else 10816)

/-- A lane of tile t % 2 that is a pixel of the image is among those the transfer moves. -/
theorem moved7 (t : Fin cfg0.N) (k : Fin 2) (l : Fin 11008) (hl : (t.val % 2) * 11008 + l.val < 21824) :
    win0_7.moved (grid0.coords t) (ix2 k l) = true := by
  have hx := xsize7 t
  rw [Pipeline.Window.moved_iff]
  intro a
  match a with
    | ⟨0, _⟩ => show k.val < win0_7.xsize (grid0.coords t) (0 : Fin 2); rw [hx.1]; exact k.isLt
    | ⟨1, _⟩ =>
      show l.val < win0_7.xsize (grid0.coords t) (1 : Fin 2)
      rw [hx.2]; have := l.isLt; split <;> omega

/-- A lane of tile t % 2 that is a pixel of the image holds, in a just-fetched buffer of window 7, the array's entry at that pixel. -/
theorem blk7_apply (c : Dev nD) (t : Fin cfg0.N) (d : S2x11008.Idx → EReal) (k : Fin 2) (l : Fin 11008)
    (hl : (t.val % 2) * 11008 + l.val < 21824) :
    (win0_7.fill (grid0.coords t) d (iblk m c 7 t) : S2x11008.Idx → EReal) (ix2 k l)
      = (V m c main_v5 : S2x21824.Idx → EReal) (ix2 k ⟨(t.val % 2) * 11008 + l.val, hl⟩) := by
  have hi := index7 t
  unfold Pipeline.Window.fill
  rw [dif_pos (moved7 t k l hl)]
  unfold iblk
  rw [View.read_apply]
  show V m c main_v5 _ = V m c main_v5 _
  congr 1
  funext a
  apply Fin.ext
  match a with
  | ⟨0, _⟩ => show win0_7.index t 0 * 2 + 1 * k.val = k.val; rw [hi.1]; omega
  | ⟨1, _⟩ => show win0_7.index t 1 * 11008 + 1 * l.val = (t.val % 2) * 11008 + l.val; rw [hi.2]; omega

end Cert.KernelIdeal.Blocks

end
-- ==== Proof.KI.Final.lean ====
/-
  From the accumulator's blocks to the result array.

  The kernel's result array [16, 4, 128] is written through one-row-block windows [1, 4, 128]: the point t of the 16 × 2
  grid works on image t / 2, and the accumulator block is written back at the odd points only, into row block t / 2 of
  the array. An element of that block at row r and lane q sits in the array at (t / 2, r, q) (block index times block
  size plus the coordinate inside the block, on each axis). So if after every odd point the block holds the entries
  (t / 2, r, q) of one array G, every write-back writes its block of G; and the sixteen odd points' blocks cover the
  array — index (b, r, q) lies in the block of point 2 b + 1 — so the array ends holding G.
-/
import proofs.«401425_j62740882260765_3_alg».proof.Proof.Gen.KernelIdeal.Frame
import Idealize.ShloMosaic.Lib.ValueIdx
import Idealize.ShloMosaic.Lib.Pipeline.Value

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

/-- The result window's block index at point t: (t / 2, 0, 0). -/
theorem idx_facts : ∀ t : Fin cfg0.N, win0_8.index t (0 : Fin 3) = t.val / 2 ∧ win0_8.index t 1 = 0 ∧ win0_8.index t 2 = 0 :=
  (by decide +kernel : ∀ t : Fin grid0.N, win0_8.index t (0 : Fin 3) = t.val / 2 ∧ win0_8.index t 1 = 0 ∧ win0_8.index t 2 = 0)

/-- What an odd point writes back is its row block of G. -/
theorem flushed_eq {c : Dev nD} (dat : Dat τ (Elt Ideal) Unit ℕ (UR sig nD τ) ℕ cfg0 c) (G : Vec Ideal S16x4x128 .f32)
    (hafter : ∀ (t : Fin cfg0.N) (b : Fin 16), t.val % 2 = 1 → b.val = t.val / 2 → ∀ (r : Fin 4) (q : Fin 128),
      (dat.after 8 t : Vec Ideal S1x4x128 .f32) (ix3 0 r q) = G (ix3 b r q))
    (t : Fin cfg0.N) (hf : (cfg0.win 8).flush t = true) :
    dat.flushed 8 t = ((cfg0.win 8).blk t).view.read (Elt Ideal) G := by
  have ht : t.val % 2 = 1 := (flush0_8 t).mp hf
  have hN : grid0.N = 32 := N_0
  have htlt : t.val < 32 := hN ▸ t.isLt
  funext y
  have h0 : (y 0).val < 1 := (y 0).isLt
  have h1 : (y 1).val < 4 := (y 1).isLt
  have h2 : (y 2).val < 128 := (y 2).isLt
  have hb : t.val / 2 < 16 := by omega
  rw [View.read_apply]
  show (dat.after 8 t : Vec Ideal S1x4x128 .f32) ((cfg0.win 8).xinj _ y) = G (((cfg0.win 8).blk t).view.emb y)
  have e1 : (cfg0.win 8).xinj (cfg0.grid.coords t) y = ix3 (0 : Fin 1) (⟨(y 1).val, h1⟩ : Fin 4) (⟨(y 2).val, h2⟩ : Fin 128) :=
    funext fun a => Fin.ext (by
      match a with
      | ⟨0, _⟩ => show (y 0).val = 0; omega
      | ⟨1, _⟩ => rfl
      | ⟨2, _⟩ => rfl)
  have e2 : ((cfg0.win 8).blk t).view.emb y = ix3 (⟨t.val / 2, hb⟩ : Fin 16) (⟨(y 1).val, h1⟩ : Fin 4) (⟨(y 2).val, h2⟩ : Fin 128) :=
    funext fun a => Fin.ext (by
      match a with
      | ⟨0, _⟩ => show win0_8.index t 0 * 1 + 1 * (y 0).val = t.val / 2; rw [(idx_facts t).1]; omega
      | ⟨1, _⟩ => show win0_8.index t 1 * 4 + 1 * (y 1).val = (y 1).val; rw [(idx_facts t).2.1]; omega
      | ⟨2, _⟩ => show win0_8.index t 2 * 128 + 1 * (y 2).val = (y 2).val; rw [(idx_facts t).2.2]; omega)
  rw [e1, e2]
  exact hafter t ⟨t.val / 2, hb⟩ ht rfl ⟨(y 1).val, h1⟩ ⟨(y 2).val, h2⟩

/-- If after every odd point t the accumulator block holds, at row r and lane q, the entry (t / 2, r, q) of G, the result array ends holding G. -/
theorem final8 {c : Dev nD} (dat : Dat τ (Elt Ideal) Unit ℕ (UR sig nD τ) ℕ cfg0 c) (G : Vec Ideal S16x4x128 .f32)
    (hafter : ∀ (t : Fin cfg0.N) (b : Fin 16), t.val % 2 = 1 → b.val = t.val / 2 → ∀ (r : Fin 4) (q : Fin 128),
      (dat.after 8 t : Vec Ideal S1x4x128 .f32) (ix3 0 r q) = G (ix3 b r q)) :
    (dat.arrAt 8 cfg0.N : Vec Ideal S16x4x128 .f32) = G :=
  dat.arrAt_eq_of_cover 8 G (flushed_eq dat G hafter) fun i => by
    have hN : grid0.N = 32 := N_0
    have hi0 : (i 0 : Nat) < 16 := (i 0).isLt
    have hi1 : (i 1 : Nat) < 4 := (i 1).isLt
    have hi2 : (i 2 : Nat) < 128 := (i 2).isLt
    have htlt : 2 * (i 0 : Nat) + 1 < cfg0.N := by show 2 * (i 0 : Nat) + 1 < grid0.N; omega
    refine ⟨⟨2 * (i 0 : Nat) + 1, htlt⟩, (flush0_8 _).mpr (by show (2 * (i 0 : Nat) + 1) % 2 = 1; omega), ?_⟩
    show i ∈ ((View.whole main_v6).slice (win0_8.rect ⟨2 * (i 0 : Nat) + 1, htlt⟩)).set
    rw [View.set_slice_whole, Rect.mem_set_unit]
    intro a
    match a with
    | ⟨0, _⟩ =>
      show win0_8.index ⟨2 * (i 0 : Nat) + 1, htlt⟩ 0 * 1 ≤ (i 0 : Nat) ∧ (i 0 : Nat) < win0_8.index ⟨2 * (i 0 : Nat) + 1, htlt⟩ 0 * 1 + 1
      rw [(idx_facts ⟨2 * (i 0 : Nat) + 1, htlt⟩).1]; show (2 * (i 0 : Nat) + 1) / 2 * 1 ≤ (i 0 : Nat) ∧ (i 0 : Nat) < (2 * (i 0 : Nat) + 1) / 2 * 1 + 1; omega
    | ⟨1, _⟩ =>
      show win0_8.index ⟨2 * (i 0 : Nat) + 1, htlt⟩ 1 * 4 ≤ (i 1 : Nat) ∧ (i 1 : Nat) < win0_8.index ⟨2 * (i 0 : Nat) + 1, htlt⟩ 1 * 4 + 4
      rw [(idx_facts ⟨2 * (i 0 : Nat) + 1, htlt⟩).2.1]; omega
    | ⟨2, _⟩ =>
      show win0_8.index ⟨2 * (i 0 : Nat) + 1, htlt⟩ 2 * 128 ≤ (i 2 : Nat) ∧ (i 2 : Nat) < win0_8.index ⟨2 * (i 0 : Nat) + 1, htlt⟩ 2 * 128 + 128
      rw [(idx_facts ⟨2 * (i 0 : Nat) + 1, htlt⟩).2.2]; omega

end Cert.KernelIdeal.Final

end
-- ==== Proof.KI.Tail.lean ====
/-
  The host tail of the FCOS-loss program, read as mathematics. After the one region the program holds a [16, 4, 128]
  accumulator array: for image b, rows 0 to 3 carry the focal-loss sum, the IoU-loss sum, the centerness
  cross-entropy sum and the count of positives, the same on every lane. The tail reads lane 0 of each row as a [16]
  tensor, combines the four sums of each image (dividing the focal and IoU sums by the count where it is positive),
  adds the sixteen results from zero and divides by sixteen. Here: the tail's operations composed into one term of the
  accumulator array (tailOf, tail_term), each row read at an image (row_apply), the per-image combination and the
  final sum read at their indices (tailSel_apply, tailOf_apply), and the result (tail_value).
-/
import proofs.«401425_j62740882260765_3_alg».proof.Proof.Gen.KernelIdeal.Frame
import proofs.«401425_j62740882260765_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Tail

open Cert.KernelIdeal Cert.KernelIdeal.Gen Idealize.ShloMosaic Idealize.ShloMosaic.TcCoe Idealize.SL.Sem
open Idealize.ShloMosaic.ValueIdx
open Idealize.ShloMosaic.Pipeline (Dat)

/-- Row r of the accumulator array at lane 0 as a [16] tensor: the slice [0:16, r:r+1, 0:1] (offsets off = (0, r, 0)),
    reshaped. -/
def row (G : Vec Ideal S16x4x128 .f32) (off : Fin 3 → Nat) (h : S16x4x128.Slices off S16x1x1) : FVec Ideal S16 .f32 :=
  fun i => shapeCast S16 (extractStridedSlice S16x1x1 off G h) shapeCasts_S16x1x1_S16 i

/-- The per-image loss as a [16] tensor: where the positives' count (row 3) exceeds zero, the cross-entropy sum (row 2)
    plus the focal and IoU sums (rows 0 and 1) divided by the count clamped below at one; elsewhere the plain sum of
    rows 2, 0 and 1. -/
def tailSel (G : Vec Ideal S16x4x128 .f32) : FVec Ideal S16 .f32 :=
  select
    (cmpf .ogt (row G ![0, 3, 0] slices_S16x4x128_S16x1x1_0_3_0)
      (broadcastInDim S16 ![] bcast_S_S16 (constant (F := Ideal) S_ .f32 0x00000000#32)))
    (addf (row G ![0, 2, 0] slices_S16x4x128_S16x1x1_0_2_0)
      (Host.divf
        (addf (row G ![0, 0, 0] slices_S16x4x128_S16x1x1_0_0_0) (row G ![0, 1, 0] slices_S16x4x128_S16x1x1_0_1_0))
        (maximumf (row G ![0, 3, 0] slices_S16x4x128_S16x1x1_0_3_0)
          (broadcastInDim S16 ![] bcast_S_S16 (constant (F := Ideal) S_ .f32 0x3F800000#32)))))
    (addf
      (addf (row G ![0, 2, 0] slices_S16x4x128_S16x1x1_0_2_0) (row G ![0, 0, 0] slices_S16x4x128_S16x1x1_0_0_0))
      (row G ![0, 1, 0] slices_S16x4x128_S16x1x1_0_1_0))

/-- The host tail as one term of the accumulator array: the per-image losses summed from zero over the sixteen images
    and divided by sixteen. -/
def tailOf (G : Vec Ideal S16x4x128 .f32) : FVec Ideal S_ .f32 :=
  Host.divf
    (Host.reduceAdd (tailSel G) (constant (F := Ideal) S_ .f32 0x00000000#32) reducesTo_S16_S_d0 h_S_)
    (constant (F := Ideal) S_ .f32 0x41800000#32)

set_option maxHeartbeats 1000000 in
/-- The program's result after the host tail is the tail's term at the accumulator array the region leaves. -/
theorem tail_term (m : (ℓ : Loc nD τ sig) → Buf (Elt Ideal) ℓ)
    (dats : (p : Fin 1) → (c : Dev nD) → Dat τ (Elt Ideal) Unit ℕ (UR sig nD τ) ℕ (cfgs p) c) (c : Dev nD)
    (G : Vec Ideal S16x4x128 .f32) (hG : (dats 0 c).arrAt 8 cfg0.N = G) :
    (Pipeline.afterTail₀ cfgs dats 0 (V0 m) [hostOps1, hostOps1_1, hostOps1_2] c main_v26 : Vec Ideal S_ .f32)
      = tailOf G := by
  -- the accumulator is the array of the region's last window, which the region leaves at G
  have e : Pipeline.withArrays (cfgs 0).spec c (V0 m c) (fun w => (dats 0 c).arrAt w (cfgs 0).N) (Proc.devRef .tc main_v6) = G :=
    (Pipeline.withArrays_arr spec0 launch0.win.arr_inj c _ _ 8).trans hG
  unfold Pipeline.afterTail₀
  simp only [Gen.hostOps1, Gen.hostOps1_1, Gen.hostOps1_2, List.flatten_cons, List.flatten_nil, List.append_nil, List.cons_append, List.nil_append]
  -- each operation's result buffer holds its function of its operands' buffers
  after_results_simp
  simp only [StableHlo.TRef.ofBuf, StableHlo.TRef.toBuf, cast_eq]
  rw [e]
  rfl

/-- Entry b of row r: the accumulator at (b, r, 0). -/
theorem row_apply (G : Vec Ideal S16x4x128 .f32) (off : Fin 3 → Nat) (h : S16x4x128.Slices off S16x1x1) (r : Fin 4)
    (h0 : off 0 = 0) (h1 : off 1 = r.val) (h2 : off 2 = 0) (b : Fin 16) :
    row G off h (ix1 b) = G (ix3 b r (0 : Fin 128)) := by
  unfold row
  refine (shapeCast_apply _ shapeCasts_S16x1x1_S16 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply off G h _ (ix3 b r (0 : Fin 128)) fun a => ?_
    match a with
    | ⟨0, _⟩ => show b.val = off 0 + b.val; omega
    | ⟨1, _⟩ => show r.val = off 1 + 0; omega
    | ⟨2, _⟩ => show 0 = off 2 + 0; omega

/-- The [16] tensor's index set is the sixteen images. -/
def idxEquiv1 : S16.Idx ≃ Fin 16 where
  toFun j := j 0
  invFun b := ix1 b
  left_inv j := (eq_ix1 j).symm
  right_inv _ := rfl

/-- The per-image loss tensor at image b is the per-image combination of the four accumulator rows at lane 0. -/
theorem tailSel_apply (G : Vec Ideal S16x4x128 .f32) (b : Fin 16) :
    tailSel G (ix1 b) = Cert.Fcos.perImg (G (ix3 b 0 0)) (G (ix3 b 1 0)) (G (ix3 b 2 0)) (G (ix3 b 3 0)) := by
  show Scalar.select (Ideal.cmp .ogt (row G ![0, 3, 0] slices_S16x4x128_S16x1x1_0_3_0 (ix1 b)) Cert.Fcos.w0)
      (row G ![0, 2, 0] slices_S16x4x128_S16x1x1_0_2_0 (ix1 b)
        + Ideal.div (row G ![0, 0, 0] slices_S16x4x128_S16x1x1_0_0_0 (ix1 b) + row G ![0, 1, 0] slices_S16x4x128_S16x1x1_0_1_0 (ix1 b))
            (max (row G ![0, 3, 0] slices_S16x4x128_S16x1x1_0_3_0 (ix1 b)) Cert.Fcos.w1))
      ((row G ![0, 2, 0] slices_S16x4x128_S16x1x1_0_2_0 (ix1 b) + row G ![0, 0, 0] slices_S16x4x128_S16x1x1_0_0_0 (ix1 b))
        + row G ![0, 1, 0] slices_S16x4x128_S16x1x1_0_1_0 (ix1 b)) = _
  rw [row_apply G ![0, 0, 0] _ 0 rfl rfl rfl b, row_apply G ![0, 1, 0] _ 1 rfl rfl rfl b,
    row_apply G ![0, 2, 0] _ 2 rfl rfl rfl b, row_apply G ![0, 3, 0] _ 3 rfl rfl rfl b]
  rfl

/-- The tail's term at its one index: the loss of the four accumulator rows read at lane 0. -/
theorem tailOf_apply (G : Vec Ideal S16x4x128 .f32) (i : S_.Idx) :
    tailOf G i = Cert.Fcos.finish (fun b => G (ix3 b 0 0)) (fun b => G (ix3 b 1 0)) (fun b => G (ix3 b 2 0)) (fun b => G (ix3 b 3 0)) := by
  show Ideal.div (Ideal.hostReduceAdd reducesTo_S16_S_d0 (tailSel G) Cert.Fcos.w0 i) Cert.Fcos.w16 = _
  rw [Ideal.hostReduceAdd_total reducesTo_S16_S_d0 (fun b => b.elim0)]
  unfold Cert.Fcos.finish
  refine congrArg (fun s => Ideal.div (Cert.Fcos.w0 + s) Cert.Fcos.w16) ?_
  refine Fintype.sum_equiv idxEquiv1 _ _ fun j => ?_
  rw [eq_ix1 j]
  exact tailSel_apply G (j 0)

/-- The program's result after the host tail, for ANY proof data whose accumulator array ends at G: the loss of the four accumulator rows read at lane 0. -/
theorem tail_value (m : (ℓ : Loc nD τ sig) → Buf (Elt Ideal) ℓ)
    (dats : (p : Fin 1) → (c : Dev nD) → Dat τ (Elt Ideal) Unit ℕ (UR sig nD τ) ℕ (cfgs p) c) (c : Dev nD)
    (G : Vec Ideal S16x4x128 .f32) (hG : (dats 0 c).arrAt 8 cfg0.N = G) (i : S_.Idx) :
    (Pipeline.afterTail₀ cfgs dats 0 (V0 m) [hostOps1, hostOps1_1, hostOps1_2] c main_v26 : Vec Ideal S_ .f32) i
      = Cert.Fcos.finish (fun b => G (ix3 b 0 0)) (fun b => G (ix3 b 1 0)) (fun b => G (ix3 b 2 0)) (fun b => G (ix3 b 3 0)) :=
  (congrFun (tail_term m dats c G hG) i).trans (tailOf_apply G i)

end Cert.KernelIdeal.Tail

end
-- ==== Proof.KI.Frame.lean ====
/-
  The idealized kernel's run with every buffer's contents NAMED, and its result array in closed form.

  The grid is sixteen images by two tiles of 11008 pixel lanes; tile 1 overhangs the 21824 pixels by 192 lanes, whose
  staging words nothing names (a just-fetched input buffer holds its block on the lanes inside the array and any word d
  elsewhere). The body masks those lanes, so what it adds to the four-row accumulator block does not depend on d: row r
  gains the tile's sum of the r-th per-pixel term over the lanes that are pixels. After tile 0 of image b the block
  holds 0 + (tile 0's sum), after tile 1 that plus tile 1's sum, which is written back as rows (b, ·, ·) of the
  [16, 4, 128] result, the same value on all 128 lanes.
-/
import proofs.«401425_j62740882260765_3_alg».proof.Proof.KI.Body
import proofs.«401425_j62740882260765_3_alg».proof.Proof.KI.TileValue
import proofs.«401425_j62740882260765_3_alg».proof.Proof.KI.Arrays
import proofs.«401425_j62740882260765_3_alg».proof.Proof.KI.Blocks
import proofs.«401425_j62740882260765_3_alg».proof.Proof.KI.Final
import proofs.«401425_j62740882260765_3_alg».proof.Proof.KI.Tail
import proofs.«401425_j62740882260765_3_alg».proof.Proof.Spec
import proofs.«401425_j62740882260765_3_alg».proof.Proof.Gen.KernelIdeal.Frame
import Idealize.ShloMosaic.Lib.Pipeline.FrameSuffix
import Idealize.ShloMosaic.Lib.Pipeline.Value
import Idealize.ShloMosaic.Lib.Tactic

set_option maxRecDepth 16384

noncomputable section

namespace Cert.KernelIdeal.FrameV

open Cert.KernelIdeal Cert.KernelIdeal.Gen Cert.KernelIdeal.Tile
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Fcos (w0 pixK tileSum accK)

local notation "𝕄" => MT nD τ sig Unit (Elt Ideal) ℕ (UR sig nD τ) ℕ

variable (m : (ℓ : Loc nD τ sig) → Buf (Elt Ideal) ℓ) (ρ : Dev nD → PrngReg)

/-! ## The accumulator block after each point -/

theorem N32 : cfg0.N = 32 := N_0

/-- The image a point works on. -/
def imgOf (t : Fin cfg0.N) : Fin 16 := ⟨t.val / 2, by have := lt_of_lt_of_eq t.isLt N32; omega⟩

/-- The r-th per-pixel term of image b, pixel by pixel. -/
def term (c : Dev nD) (r : Fin 4) (b : Fin 16) : Fin 21824 → EReal := fun j => pixK r (Arrays.kPix m c b j)

/-- What the accumulator block holds after point t: on every lane of row r the sum over the tiles seen so far. -/
def accBlock (c : Dev nD) (t : Fin cfg0.N) : Vec Ideal S1x4x128 .f32 := fun idx =>
  if t.val % 2 = 0 then w0 + tileSum (term m c ⟨(idx 1).val, (idx 1).isLt⟩ (imgOf t)) 0
  else (w0 + tileSum (term m c ⟨(idx 1).val, (idx 1).isLt⟩ (imgOf t)) 0) + tileSum (term m c ⟨(idx 1).val, (idx 1).isLt⟩ (imgOf t)) 1

/-! ## The proof data -/

/-- The arrays as the region finds them; after the body each input buffer at its block (filled out past the array's
    end with a zero word nothing reads) and the accumulator's at accBlock. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => w0) (iblk m c 0 t)
    | ⟨1, _⟩ => win0_1.fill (grid0.coords t) (fun _ => w0) (iblk m c 1 t)
    | ⟨2, _⟩ => win0_2.fill (grid0.coords t) (fun _ => w0) (iblk m c 2 t)
    | ⟨3, _⟩ => win0_3.fill (grid0.coords t) (fun _ => w0) (iblk m c 3 t)
    | ⟨4, _⟩ => win0_4.fill (grid0.coords t) (fun _ => w0) (iblk m c 4 t)
    | ⟨5, _⟩ => win0_5.fill (grid0.coords t) (fun _ => (0 : BitVec 32)) (iblk m c 5 t)
    | ⟨6, _⟩ => win0_6.fill (grid0.coords t) (fun _ => (0 : BitVec 32)) (iblk m c 6 t)
    | ⟨7, _⟩ => win0_7.fill (grid0.coords t) (fun _ => w0) (iblk m c 7 t)
    | ⟨8, _⟩ => accBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_8 (c : Dev nD) (t : Fin cfg0.N) : (dats m 0 c).after 8 t = accBlock m c t := by dsimp only [dats]

/-- A just-fetched input buffer: the block inside the array, d elsewhere. -/
theorem before_0 (c : Dev nD) (t : Fin cfg0.N) (d) : (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl
theorem before_4 (c : Dev nD) (t : Fin cfg0.N) (d) : (dats m 0 c).before 4 t d = win0_4.fill (grid0.coords t) d (iblk m c 4 t) := by
  unfold Dat.before; rw [if_pos (fetch0_4 t)]; rfl
theorem before_5 (c : Dev nD) (t : Fin cfg0.N) (d) : (dats m 0 c).before 5 t d = win0_5.fill (grid0.coords t) d (iblk m c 5 t) := by
  unfold Dat.before; rw [if_pos (fetch0_5 t)]; rfl
theorem before_6 (c : Dev nD) (t : Fin cfg0.N) (d) : (dats m 0 c).before 6 t d = win0_6.fill (grid0.coords t) d (iblk m c 6 t) := by
  unfold Dat.before; rw [if_pos (fetch0_6 t)]; rfl
theorem before_7 (c : Dev nD) (t : Fin cfg0.N) (d) : (dats m 0 c).before 7 t d = win0_7.fill (grid0.coords t) d (iblk m c 7 t) := by
  unfold Dat.before; rw [if_pos (fetch0_7 t)]; rfl

/-- At an image's first tile the accumulator's buffer is fresh (the first point, or just written back): anything. -/
theorem before_8_A (c : Dev nD) (t : Fin cfg0.N) (h0 : t.val % 2 = 0) (d) : (dats m 0 c).before 8 t d = d := by
  refine Dat.before_out_reset _ 8 rfl t ?_ d
  by_cases ht : t.val = 0
  · exact .inl ht
  · exact .inr ⟨ht, (flush0_8 _).mpr (by dsimp only; omega)⟩

/-- At its second tile it holds what the first left. -/
theorem before_8_B (c : Dev nD) (t : Fin cfg0.N) (h0 : ¬t.val % 2 = 0) (d) :
    (dats m 0 c).before 8 t d = accBlock m c ⟨t.val - 1, Nat.lt_of_le_of_lt (Nat.sub_le _ _) t.isLt⟩ := by
  rw [Dat.before_out_kept _ 8 rfl t (by omega) (Bool.eq_false_iff.mpr fun h => by have := (flush0_8 _).mp h; dsimp only at this; omega)
    (fun _ => rfl) (fun _ _ => rfl)]
  dsimp only [dats]

/-! ## What a point adds to the accumulator block -/

/-- The accumulator block after a point, read at row r: every lane holds the same value. -/
theorem accBlock_apply (c : Dev nD) (t : Fin cfg0.N) (r : Fin 4) (q : Fin 128) :
    accBlock m c t (ix3 0 r q) = if t.val % 2 = 0 then w0 + tileSum (term m c r (imgOf t)) 0
      else (w0 + tileSum (term m c r (imgOf t)) 0) + tileSum (term m c r (imgOf t)) 1 := rfl

/-- A lane of the tile that is a pixel of the image: the eight just-fetched buffers hold, at that lane, the pixel's
    record, whatever they hold past the array's end. -/
theorem lanePix_eq (c : Dev nD) (t : Fin cfg0.N) (d0 : S1x80x11008.Idx → EReal) (d1 : S1x4x11008.Idx → EReal) (d2 : S1x4x11008.Idx → EReal) (d3 : S1x1x11008.Idx → EReal) (d4 : S1x1x11008.Idx → EReal) (d5 : S1x1x11008.Idx → BitVec 32) (d6 : S1x1x11008.Idx → BitVec 32) (d7 : S2x11008.Idx → EReal) (l : Fin 11008) (hl : t.val % 2 * 11008 + l.val < 21824) :
    TileValue.lanePix (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) l
      = Arrays.kPix m c (imgOf t) ⟨t.val % 2 * 11008 + l.val, hl⟩ := by
  unfold TileValue.lanePix Arrays.kPix
  rw [Cert.Fcos.Pix.mk.injEq]
  exact ⟨funext fun k => Blocks.blk0_apply m c t d0 (imgOf t) rfl k l hl, funext fun k => Blocks.blk1_apply m c t d1 (imgOf t) rfl k l hl,
    funext fun k => Blocks.blk2_apply m c t d2 (imgOf t) rfl k l hl, Blocks.blk3_apply m c t d3 (imgOf t) rfl l hl,
    Blocks.blk4_apply m c t d4 (imgOf t) rfl l hl, Blocks.blk5_apply m c t d5 (imgOf t) rfl l hl,
    Blocks.blk6_apply m c t d6 (imgOf t) rfl l hl, funext fun k => Blocks.blk7_apply m c t d7 k l hl⟩

/-- The masked sum over the tile's lanes of the r-th term is the tile's sum of the image's r-th per-pixel term: the lanes
    past the last pixel add the zero word on both sides, the others the pixel's term. -/
theorem tile_sum (c : Dev nD) (t : Fin cfg0.N) (d0 : S1x80x11008.Idx → EReal) (d1 : S1x4x11008.Idx → EReal) (d2 : S1x4x11008.Idx → EReal) (d3 : S1x1x11008.Idx → EReal) (d4 : S1x1x11008.Idx → EReal) (d5 : S1x1x11008.Idx → BitVec 32) (d6 : S1x1x11008.Idx → BitVec 32) (d7 : S2x11008.Idx → EReal) (r : Fin 4) :
    (∑ l : Fin 11008, (if ((grid0.coords t) 1).val * 11008 + l.val < 21824 then pixK r (TileValue.lanePix (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) l) else w0))
      = tileSum (term m c r (imgOf t)) (t.val % 2) := by
  unfold tileSum
  refine Finset.sum_congr rfl fun l _ => ?_
  rw [(Blocks.coords_eq t).2]
  by_cases h : t.val % 2 * 11008 + l.val < 21824
  · rw [if_pos h, dif_pos h, lanePix_eq m c t d0 d1 d2 d3 d4 d5 d6 d7 l h]; rfl
  · rw [if_neg h, dif_neg h]

/-- FIRST TILE of an image: the reset block plus the tile's sums is the accumulator block after the point. -/
theorem tile_A (c : Dev nD) (t : Fin cfg0.N) (h0 : t.val % 2 = 0) (d0 : S1x80x11008.Idx → EReal) (d1 : S1x4x11008.Idx → EReal) (d2 : S1x4x11008.Idx → EReal) (d3 : S1x1x11008.Idx → EReal) (d4 : S1x1x11008.Idx → EReal) (d5 : S1x1x11008.Idx → BitVec 32) (d6 : S1x1x11008.Idx → BitVec 32) (d7 : S2x11008.Idx → EReal) :
    tileOut (F := Ideal) (grid0.coords t) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (zeroBlock (F := Ideal)) = accBlock m c t := by
  funext idx
  obtain ⟨b, r, q, rfl⟩ : ∃ (b : Fin 1) (r : Fin 4) (q : Fin 128), idx = ix3 b r q := ⟨idx 0, idx 1, idx 2, eq_ix3 idx⟩
  obtain rfl : b = 0 := Subsingleton.elim _ _
  rw [TileValue.tileOut_apply, TileValue.zeroBlock_apply, tile_sum m c t d0 d1 d2 d3 d4 d5 d6 d7 r, accBlock_apply, if_pos h0, h0]

/-- SECOND TILE: what the first tile left plus this tile's sums is the accumulator block after the point. -/
theorem tile_B (c : Dev nD) (t t' : Fin cfg0.N) (h0 : ¬t.val % 2 = 0) (ht' : t'.val = t.val - 1) (d0 : S1x80x11008.Idx → EReal) (d1 : S1x4x11008.Idx → EReal) (d2 : S1x4x11008.Idx → EReal) (d3 : S1x1x11008.Idx → EReal) (d4 : S1x1x11008.Idx → EReal) (d5 : S1x1x11008.Idx → BitVec 32) (d6 : S1x1x11008.Idx → BitVec 32) (d7 : S2x11008.Idx → EReal) :
    tileOut (F := Ideal) (grid0.coords t) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (accBlock m c t') = accBlock m c t := by
  funext idx
  obtain ⟨b, r, q, rfl⟩ : ∃ (b : Fin 1) (r : Fin 4) (q : Fin 128), idx = ix3 b r q := ⟨idx 0, idx 1, idx 2, eq_ix3 idx⟩
  obtain rfl : b = 0 := Subsingleton.elim _ _
  have h1 : t.val % 2 = 1 := by omega
  have hp : t'.val % 2 = 0 := by omega
  have himg : imgOf t' = imgOf t := Fin.ext (by show t'.val / 2 = t.val / 2; omega)
  rw [TileValue.tileOut_apply, tile_sum m c t d0 d1 d2 d3 d4 d5 d6 d7 r, accBlock_apply m c t', if_pos hp, accBlock_apply m c t, if_neg h0, himg, h1]

/-! ## The body obligation -/

/-- What the inputs' buffers hold after the body, on the part inside the array: their blocks. -/
theorem cut_after_0 (c : Dev nD) (t : Fin cfg0.N) :
    (cfg0.win 0).cut (grid0.coords t) ((dats m 0 c).after 0 t) = iblk m c 0 t := by
  dsimp only [dats]; exact win0_0.cut_fill _ _ _
theorem cut_after_1 (c : Dev nD) (t : Fin cfg0.N) :
    (cfg0.win 1).cut (grid0.coords t) ((dats m 0 c).after 1 t) = iblk m c 1 t := by
  dsimp only [dats]; exact win0_1.cut_fill _ _ _
theorem cut_after_2 (c : Dev nD) (t : Fin cfg0.N) :
    (cfg0.win 2).cut (grid0.coords t) ((dats m 0 c).after 2 t) = iblk m c 2 t := by
  dsimp only [dats]; exact win0_2.cut_fill _ _ _
theorem cut_after_3 (c : Dev nD) (t : Fin cfg0.N) :
    (cfg0.win 3).cut (grid0.coords t) ((dats m 0 c).after 3 t) = iblk m c 3 t := by
  dsimp only [dats]; exact win0_3.cut_fill _ _ _
theorem cut_after_4 (c : Dev nD) (t : Fin cfg0.N) :
    (cfg0.win 4).cut (grid0.coords t) ((dats m 0 c).after 4 t) = iblk m c 4 t := by
  dsimp only [dats]; exact win0_4.cut_fill _ _ _
theorem cut_after_5 (c : Dev nD) (t : Fin cfg0.N) :
    (cfg0.win 5).cut (grid0.coords t) ((dats m 0 c).after 5 t) = iblk m c 5 t := by
  dsimp only [dats]; exact win0_5.cut_fill _ _ _
theorem cut_after_6 (c : Dev nD) (t : Fin cfg0.N) :
    (cfg0.win 6).cut (grid0.coords t) ((dats m 0 c).after 6 t) = iblk m c 6 t := by
  dsimp only [dats]; exact win0_6.cut_fill _ _ _
theorem cut_after_7 (c : Dev nD) (t : Fin cfg0.N) :
    (cfg0.win 7).cut (grid0.coords t) ((dats m 0 c).after 7 t) = iblk m c 7 t := by
  dsimp only [dats]; exact win0_7.cut_fill _ _ _

/-- What the body is called with at point t: the inputs' buffers just fetched, the accumulator's at what the point finds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns: each input's buffer stated on the part inside the array, the accumulator's at its block after
    the point. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (grid0.coords t) d ((cfg0.win 0).cut (grid0.coords t) ((dats m 0 c).after 0 t))))
    ∗ (∃ d, owns (c : Thread nD τ) (st0_1 t) fullShare ((cfg0.win 1).fill (grid0.coords t) d ((cfg0.win 1).cut (grid0.coords t) ((dats m 0 c).after 1 t))))
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t))))
    ∗ (∃ d, owns (c : Thread nD τ) (st0_4 t) fullShare ((cfg0.win 4).fill (grid0.coords t) d ((cfg0.win 4).cut (grid0.coords t) ((dats m 0 c).after 4 t))))
    ∗ (∃ d, owns (c : Thread nD τ) (st0_5 t) fullShare ((cfg0.win 5).fill (grid0.coords t) d ((cfg0.win 5).cut (grid0.coords t) ((dats m 0 c).after 5 t))))
    ∗ (∃ d, owns (c : Thread nD τ) (st0_6 t) fullShare ((cfg0.win 6).fill (grid0.coords t) d ((cfg0.win 6).cut (grid0.coords t) ((dats m 0 c).after 6 t))))
    ∗ (∃ d, owns (c : Thread nD τ) (st0_7 t) fullShare ((cfg0.win 7).fill (grid0.coords t) d ((cfg0.win 7).cut (grid0.coords t) ((dats m 0 c).after 7 t))))
    ∗ owns (c : Thread nD τ) (st0_8 t) fullShare ((dats m 0 c).after 8 t))

set_option maxHeartbeats 1600000 in
/-- The body at any point. At an image's first tile the accumulator's buffer holds anything and is reset; at its second
    tile it holds what the first left. Either way it ends at the accumulator block after the point, whatever the inputs'
    buffers hold past the array's end, and the inputs' buffers are unchanged. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    cut_after_0 m c t, cut_after_1 m c t, cut_after_2 m c t, cut_after_3 m c t, cut_after_4 m c t, cut_after_5 m c t, cut_after_6 m c t, cut_after_7 m c t, after_8 m c t]
  simp only [before_0 m c t, before_1 m c t, before_2 m c t, before_3 m c t, before_4 m c t, before_5 m c t, before_6 m c t, before_7 m c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val % 2 = 0
  · rw [before_8_A m c t h0 d8, ← tile_A m c t h0 d0 d1 d2 d3 d4 d5 d6 d7]
    iapply (Body.sound_A (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) ((Body.hcond0_0 t).mpr h0)
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
    iintro ⟨H0, H1, H2, H3, H4, H5, H6, H7, H8⟩
    isplitl [HΦ]; · iexact HΦ
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists d7; iexact H7
    iexact H8
  · rw [before_8_B m c t h0 d8, ← tile_B m c t ⟨t.val - 1, Nat.lt_of_le_of_lt (Nat.sub_le _ _) t.isLt⟩ h0 rfl d0 d1 d2 d3 d4 d5 d6 d7]
    iapply (Body.sound_B (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (fun h => h0 ((Body.hcond0_0 t).mp h))
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (accBlock m c ⟨t.val - 1, Nat.lt_of_le_of_lt (Nat.sub_le _ _) t.isLt⟩) _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨H0, H1, H2, H3, H4, H5, H6, H7, H8⟩
    isplitl [HΦ]; · iexact HΦ
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists d7; iexact H7
    iexact H8

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run, the frame and the result -/

set_option backward.isDefEq.respectTransparency.types false in
/-- At the compiled mesh, from any memory with zero counters: every weakly fair execution of @main on the TensorCores
    terminates, and every final state has every array of the pipeline at what the proof data computes and every other
    unscoped buffer at what the host lines after the region leave in it. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- THE FRAME: every argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The result array in closed form: rows (b, r, ·) hold image b's r-th sum over both tiles, from zero. -/
def G (c : Dev nD) : Vec Ideal S16x4x128 .f32 := fun idx => accK (Arrays.kPix m c) ⟨(idx 1).val, (idx 1).isLt⟩ ⟨(idx 0).val, (idx 0).isLt⟩

/-- The accumulator array after the run: each image's block as its second tile's point left it. -/
theorem final (c : Dev nD) : ((dats m 0 c).arrAt 8 cfg0.N : Vec Ideal S16x4x128 .f32) = G m c :=
  Final.final8 (dats m 0 c) (G m c) fun t b ht hb r q => by
    have himg : imgOf t = b := Fin.ext hb.symm
    rw [after_8, accBlock_apply, if_neg (by omega), himg]
    rfl

/-- The loss the host lines after the region compute from the accumulator array. -/
def result (c : Dev nD) : Buf (Elt Ideal) ((c.tc : Thread nD τ).loc main_v26) := fun _ =>
  Cert.Fcos.finish (accK (Arrays.kPix m c) 0) (accK (Arrays.kPix m c) 1) (accK (Arrays.kPix m c) 2) (accK (Arrays.kPix m c) 3)

/-- The result buffer after the host lines that follow the region. -/
theorem v26_eq (c : Dev nD) :
    Pipeline.afterTail₀ cfgs (dats m) 0 (V0 m) [hostOps1, hostOps1_1, hostOps1_2] c main_v26 = result m c := by
  funext i
  exact (Tail.tail_value m (dats m) c (G m c) (final m c) i).trans rfl

/-- THE VALUE RUN: the result buffer ends at the loss in closed form, and every argument array as launched. -/
theorem run_value : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_v26 (Pipeline.mem_restRefs_of main_v26 (by decide) (by decide))).trans (v26_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.FrameV

end
-- ==== Proof.PreFacts.lean ====
/-
  The precondition read back. The printed predicate is the conjunction (an `and` of one-bit words) of eight
  all-reductions: for each of the six float arrays, |x| < +∞ at every element; the confidences below 1 at every
  element; the class tags nonnegative (signed) at every element. The claim assumes that the predicate is 1. Here that
  one bit is split into its eight conjuncts, each all-reduction is read as a statement about every element, and the
  element statements are restated on the extended reals and on the integers: |a| < ⊤ says a is neither ⊥ nor ⊤
  (|a| = max a (-a), and -⊥ = ⊤); a < (the word 0x3F800000) says a < 1; 0 ≤ t signed says 0 ≤ t.toInt.
-/
import proofs.«401425_j62740882260765_3_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Cert.Pre_finite_inputs Idealize.ShloMosaic

variable [Cert.Pre_finite_inputs.Facts]

/-- The scalar shape has one index. -/
instance subsingleton_S_ : Subsingleton S_.Idx := ⟨fun a b => funext fun d => d.elim0⟩

/-- The word 0x7F800000 denotes +∞. -/
theorem ofBits_inf : Ideal.ofBits .f32 0x7F800000#32 = ⊤ := by
  simp [Ideal.ofBits, Ideal.ieee]

/-- The word 0x3F800000 denotes 1. -/
theorem ofBits_one : Ideal.ofBits .f32 0x3F800000#32 = 1 := by
  simp [Ideal.ofBits, Ideal.ieee]
  have : (8388608 : ℝ) * (2 ^ 23)⁻¹ = 1 := by norm_num
  exact_mod_cast this

/-- An extended real whose absolute value max a (-a) is below ⊤ is neither infinity. -/
theorem finite_of_abs_lt_top (a : EReal) (h : max a (-a) < ⊤) : a ≠ ⊥ ∧ a ≠ ⊤ := by
  constructor
  · rintro rfl; simp at h
  · rintro rfl; simp at h

/-- One array's finiteness conjunct, read at an element: the all-reduction of |x| < +∞ being 1 says every element of x
    is neither infinity. -/
theorem finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ValueIdx.ix0 = 1#1)
    (j : s.Idx) : x j ≠ ⊥ ∧ x j ≠ ⊤ := by
  have hj := Host.reduce_andi_all _ _ hr h0 ValueIdx.ix0 e j
  have hlt : max (x j) (-(x j)) < Ideal.ofBits .f32 0x7F800000#32 := by
    have : Ideal.cmp .olt (max (x j) (-(x j))) (Ideal.ofBits .f32 0x7F800000#32) = 1#1 := hj
    simpa only [Ideal.cmp, StableHlo.Predicate.ofBool_eq_one_iff, decide_eq_true_eq] using this
  rw [ofBits_inf] at hlt
  exact finite_of_abs_lt_top _ hlt

/-- THE PRECONDITION SPLIT: the predicate being 1 gives each of its eight all-reductions being 1. Only three are used
    below (the confidences finite, the confidences below 1, the tags nonnegative); the statement keeps those. -/
theorem conjuncts (x0 : FVec Ideal S16x80x21824 .f32) (x1 : FVec Ideal S16x4x21824 .f32) (x2 : FVec Ideal S16x21824 .f32)
    (x3 : FVec Ideal S16x21824x4 .f32) (x4 : FVec Ideal S16x21824 .f32) (x5 : FVec Ideal S21824x2 .f32) (x6 x7 : IVec S16x21824 32)
    (h : fn (F := Ideal) x0 x1 x2 x3 x4 x5 x6 x7 = fun _ => 1#1) :
    (∀ j : S16x80x21824.Idx, x0 j ≠ ⊥ ∧ x0 j ≠ ⊤) ∧ (∀ j : S16x80x21824.Idx, x0 j < 1)
      ∧ (∀ j : S16x21824.Idx, 0 ≤ (x6 j).toInt) := by
  have e := congrFun h ValueIdx.ix0
  dsimp only [fn, fn_part1, fn_part2] at e
  simp only [andi, IntOp.andi_eq_one] at e
  obtain ⟨⟨⟨⟨⟨⟨⟨e0, e1⟩, e2⟩, e3⟩, e4⟩, e5⟩, e6⟩, e7⟩ := e
  refine ⟨fun j => finite_of_all x0 _ _ _ e0 j, fun j => ?_, fun j => ?_⟩
  · have hj := Host.reduce_andi_all _ _ _ _ ValueIdx.ix0 e6 j
    have : Ideal.cmp .olt (x0 j) (Ideal.ofBits .f32 0x3F800000#32) = 1#1 := hj
    rw [ofBits_one] at this
    simpa only [Ideal.cmp, StableHlo.Predicate.ofBool_eq_one_iff, decide_eq_true_eq] using this
  · have hj := Host.reduce_andi_all _ _ _ _ ValueIdx.ix0 e7 j
    have : IntOp.cmpi .sge (x6 j) 0#32 = 1#1 := hj
    have := IntOp.cmpi_sge.1 this
    simpa using this

theorem conf_finite (x0 : FVec Ideal S16x80x21824 .f32) (x1 : FVec Ideal S16x4x21824 .f32) (x2 : FVec Ideal S16x21824 .f32)
    (x3 : FVec Ideal S16x21824x4 .f32) (x4 : FVec Ideal S16x21824 .f32) (x5 : FVec Ideal S21824x2 .f32) (x6 x7 : IVec S16x21824 32)
    (h : fn (F := Ideal) x0 x1 x2 x3 x4 x5 x6 x7 = fun _ => 1#1) (j : S16x80x21824.Idx) : x0 j ≠ ⊥ ∧ x0 j ≠ ⊤ :=
  (conjuncts x0 x1 x2 x3 x4 x5 x6 x7 h).1 j

theorem conf_lt_one (x0 : FVec Ideal S16x80x21824 .f32) (x1 : FVec Ideal S16x4x21824 .f32) (x2 : FVec Ideal S16x21824 .f32)
    (x3 : FVec Ideal S16x21824x4 .f32) (x4 : FVec Ideal S16x21824 .f32) (x5 : FVec Ideal S21824x2 .f32) (x6 x7 : IVec S16x21824 32)
    (h : fn (F := Ideal) x0 x1 x2 x3 x4 x5 x6 x7 = fun _ => 1#1) (j : S16x80x21824.Idx) : x0 j < 1 :=
  (conjuncts x0 x1 x2 x3 x4 x5 x6 x7 h).2.1 j

theorem tag_nonneg (x0 : FVec Ideal S16x80x21824 .f32) (x1 : FVec Ideal S16x4x21824 .f32) (x2 : FVec Ideal S16x21824 .f32)
    (x3 : FVec Ideal S16x21824x4 .f32) (x4 : FVec Ideal S16x21824 .f32) (x5 : FVec Ideal S21824x2 .f32) (x6 x7 : IVec S16x21824 32)
    (h : fn (F := Ideal) x0 x1 x2 x3 x4 x5 x6 x7 = fun _ => 1#1) (j : S16x21824.Idx) : 0 ≤ (x6 j).toInt :=
  (conjuncts x0 x1 x2 x3 x4 x5 x6 x7 h).2.2 j

end Cert.PreFacts

end
-- ==== Proof.RefValue.lean ====
/-
  The reference's result, read as the loss of Spec.lean.

  The reference computes, for each of the sixteen images, four sums over the image's 21824 pixels — the focal
  confidence loss (summed over the eighty channels too), the IoU loss and the centerness cross-entropy on the positive
  pixels, and the number of positives — combines the four image by image, and averages the sixteen results. Here each
  of its element-wise values is read at one index as the corresponding R form of Spec.lean on the argument arrays'
  elements: the clipped score, one (channel, pixel) element of the focal loss, one pixel's IoU term and one pixel's
  cross-entropy term, each of the latter two times the positive flag read as a float. The slices, reshapes and
  broadcasts in between only move indices: each composite of them is identified with the index built from the image,
  channel and pixel coordinates (a reshape's division and remainder by 21824 return the image and the pixel). The sum
  of the focal elements over the channel and pixel axes is the sum over all indices whose image coordinate is b; the
  index set is the product of the three coordinate ranges, so that sum is the double sum over pixels and channels at
  image b (only commutativity and associativity of addition on the extended reals are used). The three row sums are
  sums over the pixel coordinate. The per-image combination and the final average are then Spec.lean's perImg and
  finish on those four sums.
-/
import proofs.«401425_j62740882260765_3_alg».proof.Proof.RefRead
import proofs.«401425_j62740882260765_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Fcos

/-- The argument arrays' types: scores [16, 80, 21824], offsets [16, 4, 21824], a plane [16, 21824] of floats, target boxes
    [16, 21824, 4], pixel coordinates [21824, 2], a plane [16, 21824] of 32-bit words. -/
abbrev Scores := (⟨S16x80x21824, .f32⟩ : BufTy).Contents (Elt Ideal)
abbrev Offsets := (⟨S16x4x21824, .f32⟩ : BufTy).Contents (Elt Ideal)
abbrev Plane := (⟨S16x21824, .f32⟩ : BufTy).Contents (Elt Ideal)
abbrev Boxes := (⟨S16x21824x4, .f32⟩ : BufTy).Contents (Elt Ideal)
abbrev Coords := (⟨S21824x2, .f32⟩ : BufTy).Contents (Elt Ideal)
abbrev Words := (⟨S16x21824, .i32⟩ : BufTy).Contents (Elt Ideal)

/-- The clipped score. -/
theorem clip_at (x0 : Scores) (i : S16x80x21824.Idx) :
    val_main_v0 (F := Ideal) x0 i = clipP (x0 i) := by
  rw [val_main_v0_apply, val_main_call0_v4_apply, val_main_call0_v2_apply, val_main_call0_v1_apply]
  rfl

/-- The label array broadcast along the channels reads the pixel's label. -/
theorem label_idx (b : Fin 16) (c : Fin 80) (p : Fin 21824) :
    idx_main_v1 (idx_main_v4 (ix3 b c p)) = ix2 b p :=
  funext fun a => Fin.ext (by match a with | ⟨0, _⟩ => rfl | ⟨1, _⟩ => rfl)

/-- The channel iota broadcast along images and pixels reads the channel. -/
theorem chan_idx (b : Fin 16) (c : Fin 80) (p : Fin 21824) :
    idx_main_v3 (idx_main_v5 (ix3 b c p)) = ix1 c :=
  funext fun a => Fin.ext (by match a with | ⟨0, _⟩ => rfl)

/-- One (channel, pixel) element of the focal loss. -/
theorem conf_at (x0 : Scores) (x6 : Words) (b : Fin 16) (c : Fin 80) (p : Fin 21824) :
    val_main_v23 (F := Ideal) x0 x6 (ix3 b c p) = confElemR (x0 (ix3 b c p)) (x6 (ix2 b p)) c := by
  rw [val_main_v23_apply, val_main_v6_apply, val_main_v4_apply, val_main_v1_apply, val_main_v5_apply, val_main_v3_apply,
    val_main_v2_apply, label_idx, chan_idx,
    val_main_v14_apply, val_main_v12_apply, val_main_v11_apply, val_main_v10_apply, val_main_v8_apply, val_main_v7_apply,
    val_main_v9_apply, val_main_v13_apply,
    val_main_v22_apply, val_main_v18_apply, val_main_v17_apply, val_main_v16_apply, val_main_v15_apply, val_main_v21_apply,
    val_main_v20_apply, val_main_v19_apply, clip_at]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the channel and pixel coordinates of an index leaves its image. -/
theorem drop_ix3 (b : Fin 16) (c : Fin 80) (p : Fin 21824) :
    reducesTo_S16x80x21824_S16_d1_2.drop (ix3 b c p) = ix1 b :=
  funext fun a => Fin.ext (by
    match a with
    | ⟨0, _⟩ => exact Shape.ReducesTo.drop_apply_val_of_eq reducesTo_S16x80x21824_S16_d1_2 (ix3 b c p) (0 : Fin S16.rank) (0 : Fin S16x80x21824.rank))

/-- The sum over the channel and pixel axes, at image b: the initial value plus the double sum over pixels and channels. -/
theorem hostReduceAdd_chan_pix (f : S16x80x21824.Idx → EReal) (init : EReal) (b : Fin 16) :
    Ideal.hostReduceAdd reducesTo_S16x80x21824_S16_d1_2 f init (ix1 b)
      = init + ∑ p : Fin 21824, ∑ c : Fin 80, f (ix3 b c p) := by
  unfold Ideal.hostReduceAdd
  refine congrArg (init + ·) ?_
  rw [Finset.sum_filter, sum_idx3]
  simp only [drop_ix3]
  rw [Finset.sum_eq_single b]
  · rw [Finset.sum_comm]
    refine Finset.sum_congr rfl fun p _ => Finset.sum_congr rfl fun c _ => ?_
    exact if_pos rfl
  · intro a _ hab
    refine Finset.sum_eq_zero fun c _ => Finset.sum_eq_zero fun p _ => ?_
    exact if_neg (fun h => hab (congrFun h 0))
  · intro h; exact absurd (Finset.mem_univ b) h

/-- The focal loss of image b: the sum from zero, over its pixels, of the per-pixel channel sums. -/
theorem conf_sum (x0 : Scores) (x1 : Offsets) (x2 : Plane) (x3 : Boxes) (x4 : Plane) (x5 : Coords) (x6 x7 : Words) (b : Fin 16) :
    val_main_v24 (F := Ideal) x0 x6 (ix1 b) = sumR (argPix x0 x1 x2 x3 x4 x5 x6 x7) 0 b := by
  have h : val_main_v24 (F := Ideal) x0 x6 (ix1 b)
      = w0 + ∑ p : Fin 21824, ∑ c : Fin 80, val_main_v23 (F := Ideal) x0 x6 (ix3 b c p) := by
    unfold val_main_v24
    generalize val_main_v23 (F := Ideal) x0 x6 = f
    simp only [Host.reduceAdd, Ideal.hostReduceAdd_def]
    exact hostReduceAdd_chan_pix f _ b
  rw [h]
  simp only [conf_at]
  rfl

/-! The slices and reshapes of the offsets, the target boxes and the pixel coordinates read one coordinate each. -/

theorem loc_idx0 (b : Fin 16) (p : Fin 21824) : idx_main_v31 (idx_main_v32 (ix2 b p)) = ix3 b (0 : Fin 4) p :=
  funext fun a => Fin.ext (by
    have hb := b.isLt; have hp := p.isLt
    match a with
    | ⟨0, _⟩ => show (b.val * 21824 + p.val) / 21824 = b.val; omega
    | ⟨1, _⟩ => rfl
    | ⟨2, _⟩ => show (b.val * 21824 + p.val) % 21824 = p.val; omega)

theorem loc_idx1 (b : Fin 16) (p : Fin 21824) : idx_main_v35 (idx_main_v36 (ix2 b p)) = ix3 b (1 : Fin 4) p :=
  funext fun a => Fin.ext (by
    have hb := b.isLt; have hp := p.isLt
    match a with
    | ⟨0, _⟩ => show (b.val * 21824 + p.val) / 21824 = b.val; omega
    | ⟨1, _⟩ => rfl
    | ⟨2, _⟩ => show (b.val * 21824 + p.val) % 21824 = p.val; omega)

theorem loc_idx2 (b : Fin 16) (p : Fin 21824) : idx_main_v39 (idx_main_v40 (ix2 b p)) = ix3 b (2 : Fin 4) p :=
  funext fun a => Fin.ext (by
    have hb := b.isLt; have hp := p.isLt
    match a with
    | ⟨0, _⟩ => show (b.val * 21824 + p.val) / 21824 = b.val; omega
    | ⟨1, _⟩ => rfl
    | ⟨2, _⟩ => show (b.val * 21824 + p.val) % 21824 = p.val; omega)

theorem loc_idx3 (b : Fin 16) (p : Fin 21824) : idx_main_v43 (idx_main_v44 (ix2 b p)) = ix3 b (3 : Fin 4) p :=
  funext fun a => Fin.ext (by
    have hb := b.isLt; have hp := p.isLt
    match a with
    | ⟨0, _⟩ => show (b.val * 21824 + p.val) / 21824 = b.val; omega
    | ⟨1, _⟩ => rfl
    | ⟨2, _⟩ => show (b.val * 21824 + p.val) % 21824 = p.val; omega)

theorem box_idx0 (b : Fin 16) (p : Fin 21824) : idx_main_v47 (idx_main_v48 (ix2 b p)) = ix3 b p (0 : Fin 4) :=
  funext fun a => Fin.ext (by
    have hb := b.isLt; have hp := p.isLt
    match a with
    | ⟨0, _⟩ => show (b.val * 21824 + p.val) / 21824 = b.val; omega
    | ⟨1, _⟩ => show (b.val * 21824 + p.val) / 1 % 21824 = p.val; omega
    | ⟨2, _⟩ => rfl)

theorem box_idx1 (b : Fin 16) (p : Fin 21824) : idx_main_v49 (idx_main_v50 (ix2 b p)) = ix3 b p (1 : Fin 4) :=
  funext fun a => Fin.ext (by
    have hb := b.isLt; have hp := p.isLt
    match a with
    | ⟨0, _⟩ => show (b.val * 21824 + p.val) / 21824 = b.val; omega
    | ⟨1, _⟩ => show (b.val * 21824 + p.val) / 1 % 21824 = p.val; omega
    | ⟨2, _⟩ => rfl)

theorem box_idx2 (b : Fin 16) (p : Fin 21824) : idx_main_v51 (idx_main_v52 (ix2 b p)) = ix3 b p (2 : Fin 4) :=
  funext fun a => Fin.ext (by
    have hb := b.isLt; have hp := p.isLt
    match a with
    | ⟨0, _⟩ => show (b.val * 21824 + p.val) / 21824 = b.val; omega
    | ⟨1, _⟩ => show (b.val * 21824 + p.val) / 1 % 21824 = p.val; omega
    | ⟨2, _⟩ => rfl)

theorem box_idx3 (b : Fin 16) (p : Fin 21824) : idx_main_v53 (idx_main_v54 (ix2 b p)) = ix3 b p (3 : Fin 4) :=
  funext fun a => Fin.ext (by
    have hb := b.isLt; have hp := p.isLt
    match a with
    | ⟨0, _⟩ => show (b.val * 21824 + p.val) / 21824 = b.val; omega
    | ⟨1, _⟩ => show (b.val * 21824 + p.val) / 1 % 21824 = p.val; omega
    | ⟨2, _⟩ => rfl)

theorem px_idx33 (b : Fin 16) (p : Fin 21824) :
    idx_main_v25 (idx_main_v26 (idx_main_v27 (idx_main_v33 (ix2 b p)))) = ix2 p (0 : Fin 2) :=
  funext fun a => Fin.ext (by
    match a with
    | ⟨0, _⟩ => show p.val / 1 = p.val; omega
    | ⟨1, _⟩ => rfl)

theorem py_idx37 (b : Fin 16) (p : Fin 21824) :
    idx_main_v28 (idx_main_v29 (idx_main_v30 (idx_main_v37 (ix2 b p)))) = ix2 p (1 : Fin 2) :=
  funext fun a => Fin.ext (by
    match a with
    | ⟨0, _⟩ => show p.val / 1 = p.val; omega
    | ⟨1, _⟩ => rfl)

theorem px_idx41 (b : Fin 16) (p : Fin 21824) :
    idx_main_v25 (idx_main_v26 (idx_main_v27 (idx_main_v41 (ix2 b p)))) = ix2 p (0 : Fin 2) :=
  funext fun a => Fin.ext (by
    match a with
    | ⟨0, _⟩ => show p.val / 1 = p.val; omega
    | ⟨1, _⟩ => rfl)

theorem py_idx45 (b : Fin 16) (p : Fin 21824) :
    idx_main_v28 (idx_main_v29 (idx_main_v30 (idx_main_v45 (ix2 b p)))) = ix2 p (1 : Fin 2) :=
  funext fun a => Fin.ext (by
    match a with
    | ⟨0, _⟩ => show p.val / 1 = p.val; omega
    | ⟨1, _⟩ => rfl)

/-- The pixel's left predicted edge: its x coordinate minus the first offset. -/
theorem pl_at (x1 : Offsets) (x5 : Coords) (b : Fin 16) (p : Fin 21824) :
    val_main_v34 (F := Ideal) x1 x5 (ix2 b p) = x5 (ix2 p 0) - x1 (ix3 b 0 p) := by
  rw [val_main_v34_apply, val_main_v33_apply, val_main_v27_apply, val_main_v26_apply, val_main_v25_apply, px_idx33,
    val_main_v32_apply, val_main_v31_apply, loc_idx0]
  rfl
/-- Its top predicted edge: its y coordinate minus the second offset. -/
theorem pt_at (x1 : Offsets) (x5 : Coords) (b : Fin 16) (p : Fin 21824) :
    val_main_v38 (F := Ideal) x1 x5 (ix2 b p) = x5 (ix2 p 1) - x1 (ix3 b 1 p) := by
  rw [val_main_v38_apply, val_main_v37_apply, val_main_v30_apply, val_main_v29_apply, val_main_v28_apply, py_idx37,
    val_main_v36_apply, val_main_v35_apply, loc_idx1]
  rfl
/-- Its right predicted edge: x plus the third offset. -/
theorem pr_at (x1 : Offsets) (x5 : Coords) (b : Fin 16) (p : Fin 21824) :
    val_main_v42 (F := Ideal) x1 x5 (ix2 b p) = x5 (ix2 p 0) + x1 (ix3 b 2 p) := by
  rw [val_main_v42_apply, val_main_v41_apply, val_main_v27_apply, val_main_v26_apply, val_main_v25_apply, px_idx41,
    val_main_v40_apply, val_main_v39_apply, loc_idx2]
  rfl
/-- Its bottom predicted edge: y plus the fourth offset. -/
theorem pb_at (x1 : Offsets) (x5 : Coords) (b : Fin 16) (p : Fin 21824) :
    val_main_v46 (F := Ideal) x1 x5 (ix2 b p) = x5 (ix2 p 1) + x1 (ix3 b 3 p) := by
  rw [val_main_v46_apply, val_main_v45_apply, val_main_v30_apply, val_main_v29_apply, val_main_v28_apply, py_idx45,
    val_main_v44_apply, val_main_v43_apply, loc_idx3]
  rfl
/-- The four target edges. -/
theorem tl_at (x3 : Boxes) (b : Fin 16) (p : Fin 21824) : val_main_v48 (F := Ideal) x3 (ix2 b p) = x3 (ix3 b p 0) := by
  rw [val_main_v48_apply, val_main_v47_apply, box_idx0]
theorem tt_at (x3 : Boxes) (b : Fin 16) (p : Fin 21824) : val_main_v50 (F := Ideal) x3 (ix2 b p) = x3 (ix3 b p 1) := by
  rw [val_main_v50_apply, val_main_v49_apply, box_idx1]
theorem tr_at (x3 : Boxes) (b : Fin 16) (p : Fin 21824) : val_main_v52 (F := Ideal) x3 (ix2 b p) = x3 (ix3 b p 2) := by
  rw [val_main_v52_apply, val_main_v51_apply, box_idx2]
theorem tb_at (x3 : Boxes) (b : Fin 16) (p : Fin 21824) : val_main_v54 (F := Ideal) x3 (ix2 b p) = x3 (ix3 b p 3) := by
  rw [val_main_v54_apply, val_main_v53_apply, box_idx3]

/-- One pixel's IoU term, weighted by its positive flag. -/
theorem iou_at (x1 : Offsets) (x3 : Boxes) (x5 : Coords) (x7 : Words) (b : Fin 16) (p : Fin 21824) :
    val_main_v97 (F := Ideal) x1 x3 x5 x7 (ix2 b p)
      = iouR (x5 (ix2 p 0)) (x5 (ix2 p 1)) (x1 (ix3 b 0 p)) (x1 (ix3 b 1 p)) (x1 (ix3 b 2 p)) (x1 (ix3 b 3 p))
          (x3 (ix3 b p 0)) (x3 (ix3 b p 1)) (x3 (ix3 b p 2)) (x3 (ix3 b p 3)) * posW (x7 (ix2 b p)) := by
  simp only [val_main_v97_apply, val_main_v96_apply, val_main_v95_apply, val_main_call3_v1_apply, val_main_v94_apply,
    val_main_v93_apply, val_main_v92_apply, val_main_call2_v1_apply, val_main_v91_apply, val_main_v90_apply,
    val_main_v89_apply, val_main_v88_apply, val_main_v87_apply, val_main_v86_apply, val_main_v85_apply, val_main_v84_apply,
    val_main_v83_apply, val_main_v82_apply, val_main_v81_apply, val_main_v80_apply, val_main_v79_apply, val_main_v78_apply,
    val_main_v77_apply, val_main_v76_apply, val_main_v75_apply, val_main_v74_apply, val_main_v73_apply, val_main_v72_apply,
    val_main_v71_apply, val_main_v70_apply, val_main_v69_apply, val_main_v68_apply, val_main_v67_apply, val_main_v66_apply,
    val_main_v65_apply, val_main_v64_apply, val_main_v63_apply, val_main_v62_apply, val_main_v61_apply, val_main_v60_apply,
    val_main_v59_apply, val_main_v58_apply, val_main_v57_apply, val_main_v56_apply, val_main_v55_apply,
    pl_at, pt_at, pr_at, pb_at, tl_at, tt_at, tr_at, tb_at]
  rfl

/-- One pixel's centerness cross-entropy, weighted by its positive flag. -/
theorem bce_at (x2 x4 : Plane) (x7 : Words) (i : S16x21824.Idx) :
    val_main_v110 (F := Ideal) x2 x4 x7 i = bceR (x2 i) (x4 i) * posW (x7 i) := by
  simp only [val_main_v110_apply, val_main_v109_apply, val_main_v108_apply, val_main_v107_apply, val_main_v106_apply,
    val_main_call5_v1_apply, val_main_v105_apply, val_main_v104_apply, val_main_v103_apply, val_main_v102_apply,
    val_main_v101_apply, val_main_v100_apply, val_main_call4_v1_apply, val_main_v99_apply, val_main_v96_apply]
  rfl

/-- A row sum reads row b at pixel k. -/
theorem row_idx98 (b : Fin 16) (k : Fin 21824) : idx_main_v98 (ix1 b) k = ix2 b k :=
  funext fun a => Fin.ext (by match a with | ⟨0, _⟩ => rfl | ⟨1, _⟩ => rfl)
theorem row_idx111 (b : Fin 16) (k : Fin 21824) : idx_main_v111 (ix1 b) k = ix2 b k :=
  funext fun a => Fin.ext (by match a with | ⟨0, _⟩ => rfl | ⟨1, _⟩ => rfl)
theorem row_idx112 (b : Fin 16) (k : Fin 21824) : idx_main_v112 (ix1 b) k = ix2 b k :=
  funext fun a => Fin.ext (by match a with | ⟨0, _⟩ => rfl | ⟨1, _⟩ => rfl)

/-- The IoU loss of image b. -/
theorem iou_sum (x0 : Scores) (x1 : Offsets) (x2 : Plane) (x3 : Boxes) (x4 : Plane) (x5 : Coords) (x6 x7 : Words) (b : Fin 16) :
    val_main_v98 (F := Ideal) x1 x3 x5 x7 (ix1 b) = sumR (argPix x0 x1 x2 x3 x4 x5 x6 x7) 1 b := by
  rw [val_main_v98_apply]
  simp only [row_idx98, iou_at]
  rfl

/-- The centerness loss of image b. -/
theorem cen_sum (x0 : Scores) (x1 : Offsets) (x2 : Plane) (x3 : Boxes) (x4 : Plane) (x5 : Coords) (x6 x7 : Words) (b : Fin 16) :
    val_main_v111 (F := Ideal) x2 x4 x7 (ix1 b) = sumR (argPix x0 x1 x2 x3 x4 x5 x6 x7) 2 b := by
  rw [val_main_v111_apply]
  simp only [row_idx111, bce_at]
  rfl

/-- The number of positives of image b. -/
theorem pos_sum (x0 : Scores) (x1 : Offsets) (x2 : Plane) (x3 : Boxes) (x4 : Plane) (x5 : Coords) (x6 x7 : Words) (b : Fin 16) :
    val_main_v112 (F := Ideal) x7 (ix1 b) = sumR (argPix x0 x1 x2 x3 x4 x5 x6 x7) 3 b := by
  rw [val_main_v112_apply]
  simp only [row_idx112, val_main_v96_apply]
  rfl

/-- Image b's loss: its four sums combined. -/
theorem per_img (x0 : Scores) (x1 : Offsets) (x2 : Plane) (x3 : Boxes) (x4 : Plane) (x5 : Coords) (x6 x7 : Words) (b : Fin 16) :
    val_main_v122 (F := Ideal) x0 x1 x2 x3 x4 x5 x6 x7 (ix1 b)
      = perImg (sumR (argPix x0 x1 x2 x3 x4 x5 x6 x7) 0 b) (sumR (argPix x0 x1 x2 x3 x4 x5 x6 x7) 1 b)
          (sumR (argPix x0 x1 x2 x3 x4 x5 x6 x7) 2 b) (sumR (argPix x0 x1 x2 x3 x4 x5 x6 x7) 3 b) := by
  rw [val_main_v122_apply, val_main_v114_apply, val_main_v113_apply, val_main_v119_apply, val_main_v118_apply,
    val_main_v115_apply, val_main_v117_apply, val_main_v116_apply, val_main_v121_apply, val_main_v120_apply,
    conf_sum x0 x1 x2 x3 x4 x5 x6 x7, iou_sum x0 x1 x2 x3 x4 x5 x6 x7, cen_sum x0 x1 x2 x3 x4 x5 x6 x7,
    pos_sum x0 x1 x2 x3 x4 x5 x6 x7]
  generalize sumR (argPix x0 x1 x2 x3 x4 x5 x6 x7) 0 b = lc
  generalize sumR (argPix x0 x1 x2 x3 x4 x5 x6 x7) 1 b = ll
  generalize sumR (argPix x0 x1 x2 x3 x4 x5 x6 x7) 2 b = lcen
  generalize sumR (argPix x0 x1 x2 x3 x4 x5 x6 x7) 3 b = pos
  rfl

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result is the loss of Spec.lean: the four per-image sums of the reference's per-pixel terms, combined image by image and averaged. -/
theorem ref_value (x0 : (⟨S16x80x21824, .f32⟩ : BufTy).Contents (Elt Ideal)) (x1 : (⟨S16x4x21824, .f32⟩ : BufTy).Contents (Elt Ideal)) (x2 : (⟨S16x21824, .f32⟩ : BufTy).Contents (Elt Ideal)) (x3 : (⟨S16x21824x4, .f32⟩ : BufTy).Contents (Elt Ideal)) (x4 : (⟨S16x21824, .f32⟩ : BufTy).Contents (Elt Ideal)) (x5 : (⟨S21824x2, .f32⟩ : BufTy).Contents (Elt Ideal)) (x6 x7 : (⟨S16x21824, .i32⟩ : BufTy).Contents (Elt Ideal)) (i : S_.Idx) :
    val_main_v124 (F := Ideal) x0 x1 x2 x3 x4 x5 x6 x7 i
      = Cert.Fcos.finish (Cert.Fcos.sumR (Cert.Fcos.argPix x0 x1 x2 x3 x4 x5 x6 x7) 0) (Cert.Fcos.sumR (Cert.Fcos.argPix x0 x1 x2 x3 x4 x5 x6 x7) 1)
          (Cert.Fcos.sumR (Cert.Fcos.argPix x0 x1 x2 x3 x4 x5 x6 x7) 2) (Cert.Fcos.sumR (Cert.Fcos.argPix x0 x1 x2 x3 x4 x5 x6 x7) 3) := by
  rw [val_main_v124_apply, val_main_v123_apply]
  have hs : ∑ j : S16.Idx, val_main_v122 (F := Ideal) x0 x1 x2 x3 x4 x5 x6 x7 j
      = ∑ b : Fin 16, perImg (sumR (argPix x0 x1 x2 x3 x4 x5 x6 x7) 0 b) (sumR (argPix x0 x1 x2 x3 x4 x5 x6 x7) 1 b)
          (sumR (argPix x0 x1 x2 x3 x4 x5 x6 x7) 2 b) (sumR (argPix x0 x1 x2 x3 x4 x5 x6 x7) 3 b) := by
    rw [sum_idx1]
    exact Finset.sum_congr rfl fun b _ => per_img x0 x1 x2 x3 x4 x5 x6 x7 b
  rw [hs]
  generalize sumR (argPix x0 x1 x2 x3 x4 x5 x6 x7) 0 = lc
  generalize sumR (argPix x0 x1 x2 x3 x4 x5 x6 x7) 1 = ll
  generalize sumR (argPix x0 x1 x2 x3 x4 x5 x6 x7) 2 = lcen
  generalize sumR (argPix x0 x1 x2 x3 x4 x5 x6 x7) 3 = pos
  rfl

end Cert.ReferenceIdeal.RefValue

end
-- ==== Proof.Bridge.lean ====
/-
  The two results are one extended real. The reference's result is the loss of the launch arrays' pixel records: the
  four per-image sums of the reference's per-pixel terms, combined image by image and averaged. The kernel's result is
  the same expression of the kernel's accumulator rows over the pixel records its windows see, and those records are
  the launch arrays' (the host operations before the region only re-lay the arrays). Under the precondition every score
  is a real number below one and no label is negative, so each accumulator row is the reference's sum: two tiles
  of 11008 lanes, the second masked past pixel 21824, cover the 21824 pixels, and pixel by pixel the kernel's terms are
  the reference's.
-/
import proofs.«401425_j62740882260765_3_alg».proof.Defs
import proofs.«401425_j62740882260765_3_alg».proof.Proof.Gen.KernelIdeal
import proofs.«401425_j62740882260765_3_alg».proof.Proof.Gen.ReferenceIdeal
import proofs.«401425_j62740882260765_3_alg».proof.Proof.Gen.Pre_finite_inputs
import proofs.«401425_j62740882260765_3_alg».proof.Proof.Spec
import proofs.«401425_j62740882260765_3_alg».proof.Proof.KI.Arrays
import proofs.«401425_j62740882260765_3_alg».proof.Proof.PreFacts
import proofs.«401425_j62740882260765_3_alg».proof.Proof.RefRead
import proofs.«401425_j62740882260765_3_alg».proof.Proof.RefValue
import Idealize.ShloMosaic.Lib.ValueIdx

noncomputable section

namespace Cert.Bridge

open Idealize.ShloMosaic Idealize.ShloMosaic.TcCoe Idealize.SL.Sem Idealize.ShloMosaic.ValueIdx

/-- On the launch arrays alone: when every score is a real number below one and no label is negative, the kernel's
    loss (two masked tiles per image, the focal term corrected on the labelled channel) is the reference's. -/
theorem loss_eq (x0 : (⟨3, ![16, 80, 21824]⟩ : Shape).Idx → EReal) (x1 : (⟨3, ![16, 4, 21824]⟩ : Shape).Idx → EReal)
    (x2 : (⟨2, ![16, 21824]⟩ : Shape).Idx → EReal) (x3 : (⟨3, ![16, 21824, 4]⟩ : Shape).Idx → EReal)
    (x4 : (⟨2, ![16, 21824]⟩ : Shape).Idx → EReal) (x5 : (⟨2, ![21824, 2]⟩ : Shape).Idx → EReal)
    (x6 x7 : (⟨2, ![16, 21824]⟩ : Shape).Idx → BitVec 32)
    (hfin : ∀ j, x0 j ≠ ⊥ ∧ x0 j ≠ ⊤) (hlt : ∀ j, x0 j < 1) (htag : ∀ j, 0 ≤ (x6 j).toInt) :
    Cert.Fcos.finish (Cert.Fcos.accK (Cert.Fcos.argPix x0 x1 x2 x3 x4 x5 x6 x7) 0) (Cert.Fcos.accK (Cert.Fcos.argPix x0 x1 x2 x3 x4 x5 x6 x7) 1)
        (Cert.Fcos.accK (Cert.Fcos.argPix x0 x1 x2 x3 x4 x5 x6 x7) 2) (Cert.Fcos.accK (Cert.Fcos.argPix x0 x1 x2 x3 x4 x5 x6 x7) 3)
      = Cert.Fcos.finish (Cert.Fcos.sumR (Cert.Fcos.argPix x0 x1 x2 x3 x4 x5 x6 x7) 0) (Cert.Fcos.sumR (Cert.Fcos.argPix x0 x1 x2 x3 x4 x5 x6 x7) 1)
        (Cert.Fcos.sumR (Cert.Fcos.argPix x0 x1 x2 x3 x4 x5 x6 x7) 2) (Cert.Fcos.sumR (Cert.Fcos.argPix x0 x1 x2 x3 x4 x5 x6 x7) 3) :=
  Cert.Fcos.finish_accK_eq_finish_sumR _ (fun b j c => hfin (ix3 b c j)) (fun b j c => hlt (ix3 b c j)) (fun b j => htag (ix2 b j))

/-- The reference's result on a memory agreeing with the kernel's on the eight arguments is the loss of the kernel's
    pixel records, at the result's one index. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v124 (F := Ideal) m' c
      = fun _ => Cert.Fcos.finish (Cert.Fcos.accK (Cert.KernelIdeal.Arrays.kPix m c) 0) (Cert.Fcos.accK (Cert.KernelIdeal.Arrays.kPix m c) 1)
          (Cert.Fcos.accK (Cert.KernelIdeal.Arrays.kPix m c) 2) (Cert.Fcos.accK (Cert.KernelIdeal.Arrays.kPix m c) 3) := by
  obtain ⟨h0, h1, h2, h3, h4, h5, h6, h7⟩ := hagree
  funext i
  rw [Cert.ReferenceIdeal.Read.val_main_v124_eq, h0, h1, h2, h3, h4, h5, h6, h7, Cert.ReferenceIdeal.RefValue.ref_value]
  show _ = Cert.Fcos.finish (Cert.Fcos.accK (Cert.KernelIdeal.Arrays.kPix m c) 0) (Cert.Fcos.accK (Cert.KernelIdeal.Arrays.kPix m c) 1)
    (Cert.Fcos.accK (Cert.KernelIdeal.Arrays.kPix m c) 2) (Cert.Fcos.accK (Cert.KernelIdeal.Arrays.kPix m c) 3)
  rw [show Cert.KernelIdeal.Arrays.kPix m c = Cert.Fcos.argPix (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    from funext fun b => funext fun j => Cert.KernelIdeal.Arrays.kPix_eq_argPix m c b j]
  exact (loss_eq _ _ _ _ _ _ _ _ (Cert.PreFacts.conf_finite _ _ _ _ _ _ _ _ (hpre c)) (Cert.PreFacts.conf_lt_one _ _ _ _ _ _ _ _ (hpre c))
    (Cert.PreFacts.tag_nonneg _ _ _ _ _ _ _ _ (hpre c))).symm

end Cert.Bridge

end
-- ==== Proof.lean ====
/-
  The certificate's claims assembled. The bit-exact kernel and its idealization run and leave their eight argument
  arrays as launched (the frames of the one pipelined region between host operations); the reference runs and leaves
  its arguments as launched (its operations write result buffers only). At the ideal instance the kernel's scalar
  result is the FCOS loss of its pixel records, the reference's is the same loss of the launch arrays' pixel records,
  and on agreeing arguments, under the precondition (every input finite, every score below one, no negative label),
  the two are one extended real. The idealization rewrote no operation, so what it preserves is trivially so.
-/
import proofs.«401425_j62740882260765_3_alg».proof.Defs
import proofs.«401425_j62740882260765_3_alg».proof.Proof.Gen.Kernel
import proofs.«401425_j62740882260765_3_alg».proof.Proof.Gen.Kernel.Skeleton
import proofs.«401425_j62740882260765_3_alg».proof.Proof.Gen.Kernel.Launch
import proofs.«401425_j62740882260765_3_alg».proof.Proof.Gen.Kernel.Points
import proofs.«401425_j62740882260765_3_alg».proof.Proof.Gen.Kernel.Frame
import proofs.«401425_j62740882260765_3_alg».proof.Proof.Gen.KernelIdeal
import proofs.«401425_j62740882260765_3_alg».proof.Proof.Gen.KernelIdeal.Skeleton
import proofs.«401425_j62740882260765_3_alg».proof.Proof.Gen.KernelIdeal.Launch
import proofs.«401425_j62740882260765_3_alg».proof.Proof.Gen.KernelIdeal.Points
import proofs.«401425_j62740882260765_3_alg».proof.Proof.Gen.KernelIdeal.Frame
import proofs.«401425_j62740882260765_3_alg».proof.Proof.Gen.ReferenceIdeal
import proofs.«401425_j62740882260765_3_alg».proof.Proof.Gen.Pre_finite_inputs
import proofs.«401425_j62740882260765_3_alg».proof.Proof.K.Frame
import proofs.«401425_j62740882260765_3_alg».proof.Proof.KI.Frame
import proofs.«401425_j62740882260765_3_alg».proof.Proof.RefRead
import proofs.«401425_j62740882260765_3_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.FrameF.frame (F := Bits) m ρ

theorem frame_ki : Cert.frame_KernelIdeal := fun m ρ _ => Cert.KernelIdeal.FrameV.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result is the loss of its pixel records, the reference's the loss of the launch
    arrays' pixel records, and on agreeing arguments under the precondition the two are one extended real. -/
theorem algebraic : Cert.algebraic_KernelIdeal_ReferenceIdeal := by
  intro m ρ m' ρ' hpre hagree
  refine ⟨Cert.KernelIdeal.FrameV.result m, Cert.KernelIdeal.FrameV.run_value m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m m' hpre c (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
